-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v55)) (v1 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_v54) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v139) = v0 c
          ∧ r.2.mem ((c.tc : Thread Cert.ReferenceIdeal.nD Cert.ReferenceIdeal.τ).loc Cert.ReferenceIdeal.main_v69) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S128x128 : Shape := ⟨2, ![128, 128]⟩
abbrev S128 : Shape := ⟨1, ![128]⟩
abbrev S128x384 : Shape := ⟨2, ![128, 384]⟩
abbrev S1x128 : Shape := ⟨2, ![1, 128]⟩
abbrev S1 : Shape := ⟨1, ![1]⟩
abbrev S2x500000 : Shape := ⟨2, ![2, 500000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x384 : S_.BroadcastsInDim S128x384 (![] : Fin 0 → Fin S128x384.rank)
  reducesTo_S128x384_S_d0_1 : S128x384.ReducesTo [0, 1] S_
  bcast_S_S1x128 : S_.BroadcastsInDim S1x128 (![] : Fin 0 → Fin S1x128.rank)
  reducesTo_S1x128_S_d0_1 : S1x128.ReducesTo [0, 1] S_
  bcast_S_S1 : S_.BroadcastsInDim S1 (![] : Fin 0 → Fin S1.rank)
  reducesTo_S1_S_d0 : S1.ReducesTo [0] S_

variable [Facts]

def fn_part5 {F : FTy → Type} [FloatOps F] (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  main_v88

def fn_part4 {F : FTy → Type} [FloatOps F] (main_arg14 : FVec F S128x128 .f32) (main_arg15 : FVec F S128 .f32) (main_arg16 : FVec F S128x128 .f32) (main_arg17 : FVec F S128 .f32) (main_v63 : IVec S_ 1) (main_v67 : IVec S_ 1) : IVec S_ 1 :=
  let main_v68 : IVec S_ 1 := andi main_v63 main_v67
  let main_v69 : FVec F S128x128 .f32 := Host.absf main_arg14
  let main_cst_26 : FVec F S_ .f32 := constant S_ .f32 0x7F800000#32
  let main_v70 : FVec F S128x128 .f32 := broadcastInDim S128x128 ![] bcast_S_S128x128 main_cst_26
  let main_v71 : IVec S128x128 1 := cmpf .olt main_v69 main_v70
  let main_c_27 : IVec S_ 1 := constantI S_ 1 1#1
  let main_v72 : IVec S_ 1 := (fun x v => Host.reduce IntOp.andi x v reducesTo_S128x128_S_d0_1 h_S_) main_v71 main_c_27
  let main_v73 : IVec S_ 1 := andi main_v68 main_v72
  let main_v74 : FVec F S128 .f32 := Host.absf main_arg15
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128x128 .f32 := Host.absf main_arg16
  let main_cst_30 : FVec F S_ .f32 := constant S_ .f32 0x7F800000#32
  let main_v80 : FVec F S128x128 .f32 := broadcastInDim S128x128 ![] bcast_S_S128x128 main_cst_30
  let main_v81 : IVec S128x128 1 := cmpf .olt main_v79 main_v80
  let main_c_31 : IVec S_ 1 := constantI S_ 1 1#1
  let main_v82 : IVec S_ 1 := (fun x v => Host.reduce IntOp.andi x v reducesTo_S128x128_S_d0_1 h_S_) main_v81 main_c_31
  let main_v83 : IVec S_ 1 := andi main_v78 main_v82
  let main_v84 : FVec F S128 .f32 := Host.absf main_arg17
  let main_cst_32 : FVec F S_ .f32 := constant S_ .f32 0x7F800000#32
  fn_part5 (F := F) main_v83 main_v84 main_cst_32

def fn_part3 {F : FTy → Type} [FloatOps F] (main_arg11 : FVec F S128 .f32) (main_arg12 : FVec F S128x128 .f32) (main_arg13 : FVec F S128 .f32) (main_arg14 : FVec F S128x128 .f32) (main_arg15 : FVec F S128 .f32) (main_arg16 : FVec F S128x128 .f32) (main_arg17 : FVec F S128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg11
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg12
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg13
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg14 main_arg15 main_arg16 main_arg17 main_v63 main_v67

def fn_part2 {F : FTy → Type} [FloatOps F] (main_arg7 : FVec F S128 .f32) (main_arg8 : FVec F S1x128 .f32) (main_arg9 : FVec F S1 .f32) (main_arg10 : FVec F S128x128 .f32) (main_arg11 : FVec F S128 .f32) (main_arg12 : FVec F S128x128 .f32) (main_arg13 : FVec F S128 .f32) (main_arg14 : FVec F S128x128 .f32) (main_arg15 : FVec F S128 .f32) (main_arg16 : FVec F S128x128 .f32) (main_arg17 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S1x128 .f32 := Host.absf main_arg8
  let main_cst_14 : FVec F S_ .f32 := constant S_ .f32 0x7F800000#32
  let main_v40 : FVec F S1x128 .f32 := broadcastInDim S1x128 ![] bcast_S_S1x128 main_cst_14
  let main_v41 : IVec S1x128 1 := cmpf .olt main_v39 main_v40
  let main_c_15 : IVec S_ 1 := constantI S_ 1 1#1
  let main_v42 : IVec S_ 1 := (fun x v => Host.reduce IntOp.andi x v reducesTo_S1x128_S_d0_1 h_S_) main_v41 main_c_15
  let main_v43 : IVec S_ 1 := andi main_v38 main_v42
  let main_v44 : FVec F S1 .f32 := Host.absf main_arg9
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  let main_v49 : FVec F S128x128 .f32 := Host.absf main_arg10
  let main_cst_18 : FVec F S_ .f32 := constant S_ .f32 0x7F800000#32
  let main_v50 : FVec F S128x128 .f32 := broadcastInDim S128x128 ![] bcast_S_S128x128 main_cst_18
  fn_part3 (F := F) main_arg11 main_arg12 main_arg13 main_arg14 main_arg15 main_arg16 main_arg17 main_v48 main_v49 main_v50

def fn_part1 {F : FTy → Type} [FloatOps F] (main_arg4 : FVec F S128x128 .f32) (main_arg5 : FVec F S128 .f32) (main_arg6 : FVec F S128x384 .f32) (main_arg7 : FVec F S128 .f32) (main_arg8 : FVec F S1x128 .f32) (main_arg9 : FVec F S1 .f32) (main_arg10 : FVec F S128x128 .f32) (main_arg11 : FVec F S128 .f32) (main_arg12 : FVec F S128x128 .f32) (main_arg13 : FVec F S128 .f32) (main_arg14 : FVec F S128x128 .f32) (main_arg15 : FVec F S128 .f32) (main_arg16 : FVec F S128x128 .f32) (main_arg17 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x384 .f32 := Host.absf main_arg6
  let main_cst_10 : FVec F S_ .f32 := constant S_ .f32 0x7F800000#32
  let main_v30 : FVec F S128x384 .f32 := broadcastInDim S128x384 ![] bcast_S_S128x384 main_cst_10
  let main_v31 : IVec S128x384 1 := cmpf .olt main_v29 main_v30
  let main_c_11 : IVec S_ 1 := constantI S_ 1 1#1
  let main_v32 : IVec S_ 1 := (fun x v => Host.reduce IntOp.andi x v reducesTo_S128x384_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_v33

def fn {F : FTy → Type} [FloatOps F] (main_arg0 : FVec F S50000x128 .f32) (main_arg1 : FVec F S50000x128 .f32) (main_arg2 : FVec F S128x128 .f32) (main_arg3 : FVec F S128 .f32) (main_arg4 : FVec F S128x128 .f32) (main_arg5 : FVec F S128 .f32) (main_arg6 : FVec F S128x384 .f32) (main_arg7 : FVec F S128 .f32) (main_arg8 : FVec F S1x128 .f32) (main_arg9 : FVec F S1 .f32) (main_arg10 : FVec F S128x128 .f32) (main_arg11 : FVec F S128 .f32) (main_arg12 : FVec F S128x128 .f32) (main_arg13 : FVec F S128 .f32) (main_arg14 : FVec F S128x128 .f32) (main_arg15 : FVec F S128 .f32) (main_arg16 : FVec F S128x128 .f32) (main_arg17 : FVec F S128 .f32) (main_arg18 : IVec S2x500000 32) (main_arg19 : IVec S2x500000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_arg11 main_arg12 main_arg13 main_arg14 main_arg15 main_arg16 main_arg17 main_v13 main_v16
-- ==== Kernel.lean ====
abbrev S50000x128 : Shape := ⟨2, ![50000, 128]⟩
abbrev S128x128 : Shape := ⟨2, ![128, 128]⟩
abbrev S128 : Shape := ⟨1, ![128]⟩
abbrev S128x384 : Shape := ⟨2, ![128, 384]⟩
abbrev S1x128 : Shape := ⟨2, ![1, 128]⟩
abbrev S1 : Shape := ⟨1, ![1]⟩
abbrev S2x500000 : Shape := ⟨2, ![2, 500000]⟩
abbrev S384x128 : Shape := ⟨2, ![384, 128]⟩
abbrev S1x500000 : Shape := ⟨2, ![1, 500000]⟩
abbrev S500000 : Shape := ⟨1, ![500000]⟩
abbrev S_ : Shape := ⟨0, ![]⟩
abbrev S500000x1 : Shape := ⟨2, ![500000, 1]⟩
abbrev S500000x128 : Shape := ⟨2, ![500000, 128]⟩
abbrev S5000x128 : Shape := ⟨2, ![5000, 128]⟩
abbrev S5000x384 : Shape := ⟨2, ![5000, 384]⟩
abbrev S5000 : Shape := ⟨1, ![5000]⟩
abbrev S5000x1 : Shape := ⟨2, ![5000, 1]⟩
abbrev S1x1 : Shape := ⟨2, ![1, 1]⟩

abbrev nBuf : Space → Nat
  | .hbm => 86
  | .vmem => 48
  | .smem => 0
  | _ => 0

abbrev bufTy : (tb : Table) → Fin (tcTables nBuf tb) → BufTy
  | .hbm, ⟨0, _⟩ => ⟨S50000x128, .f32⟩
  | .hbm, ⟨1, _⟩ => ⟨S50000x128, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x384, .f32⟩
  | .hbm, ⟨7, _⟩ => ⟨S128, .f32⟩
  | .hbm, ⟨8, _⟩ => ⟨S1x128, .f32⟩
  | .hbm, ⟨9, _⟩ => ⟨S1, .f32⟩
  | .hbm, ⟨10, _⟩ => ⟨S128x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S128x128, .f32⟩
  | .hbm, ⟨15, _⟩ => ⟨S128, .f32⟩
  | .hbm, ⟨16, _⟩ => ⟨S128x128, .f32⟩
  | .hbm, ⟨17, _⟩ => ⟨S128, .f32⟩
  | .hbm, ⟨18, _⟩ => ⟨S2x500000, .i32⟩
  | .hbm, ⟨19, _⟩ => ⟨S2x500000, .i32⟩
  | .hbm, ⟨20, _⟩ => ⟨S128x128, .f32⟩
  | .hbm, ⟨21, _⟩ => ⟨S128x128, .f32⟩
  | .hbm, ⟨22, _⟩ => ⟨S384x128, .f32⟩
  | .hbm, ⟨23, _⟩ => ⟨S384x128, .bf16⟩
  | .hbm, ⟨24, _⟩ => ⟨S128x128, .f32⟩
  | .hbm, ⟨25, _⟩ => ⟨S128x128, .f32⟩
  | .hbm, ⟨26, _⟩ => ⟨S128x128, .f32⟩
  | .hbm, ⟨27, _⟩ => ⟨S128x128, .f32⟩
  | .hbm, ⟨28, _⟩ => ⟨S1x500000, .i32⟩
  | .hbm, ⟨29, _⟩ => ⟨S500000, .i32⟩
  | .hbm, ⟨30, _⟩ => ⟨S1x500000, .i32⟩
  | .hbm, ⟨31, _⟩ => ⟨S500000, .i32⟩
  | .hbm, ⟨32, _⟩ => ⟨S1x500000, .i32⟩
  | .hbm, ⟨33, _⟩ => ⟨S500000, .i32⟩
  | .hbm, ⟨34, _⟩ => ⟨S1x500000, .i32⟩
  | .hbm, ⟨35, _⟩ => ⟨S500000, .i32⟩
  | .hbm, ⟨36, _⟩ => ⟨S_, .i32⟩
  | .hbm, ⟨37, _⟩ => ⟨S500000, .i32⟩
  | .hbm, ⟨38, _⟩ => ⟨S500000, .i1⟩
  | .hbm, ⟨39, _⟩ => ⟨S_, .i32⟩
  | .hbm, ⟨40, _⟩ => ⟨S500000, .i32⟩
  | .hbm, ⟨41, _⟩ => ⟨S500000, .i32⟩
  | .hbm, ⟨42, _⟩ => ⟨S500000, .i32⟩
  | .hbm, ⟨43, _⟩ => ⟨S500000x1, .i32⟩
  | .hbm, ⟨44, _⟩ => ⟨S500000x128, .f32⟩
  | .hbm, ⟨45, _⟩ => ⟨S_, .i32⟩
  | .hbm, ⟨46, _⟩ => ⟨S500000, .i32⟩
  | .hbm, ⟨47, _⟩ => ⟨S500000, .i1⟩
  | .hbm, ⟨48, _⟩ => ⟨S_, .i32⟩
  | .hbm, ⟨49, _⟩ => ⟨S500000, .i32⟩
  | .hbm, ⟨50, _⟩ => ⟨S500000, .i32⟩
  | .hbm, ⟨51, _⟩ => ⟨S500000, .i32⟩
  | .hbm, ⟨52, _⟩ => ⟨S500000x1, .i32⟩
  | .hbm, ⟨53, _⟩ => ⟨S500000x128, .f32⟩
  | .hbm, ⟨54, _⟩ => ⟨S_, .i32⟩
  | .hbm, ⟨55, _⟩ => ⟨S500000, .i32⟩
  | .hbm, ⟨56, _⟩ => ⟨S500000, .i1⟩
  | .hbm, ⟨57, _⟩ => ⟨S_, .i32⟩
  | .hbm, ⟨58, _⟩ => ⟨S500000, .i32⟩
  | .hbm, ⟨59, _⟩ => ⟨S500000, .i32⟩
  | .hbm, ⟨60, _⟩ => ⟨S500000, .i32⟩
  | .hbm, ⟨61, _⟩ => ⟨S500000x1, .i32⟩
  | .hbm, ⟨62, _⟩ => ⟨S500000x128, .f32⟩
  | .hbm, ⟨63, _⟩ => ⟨S_, .i32⟩
  | .hbm, ⟨64, _⟩ => ⟨S500000, .i32⟩
  | .hbm, ⟨65, _⟩ => ⟨S500000, .i1⟩
  | .hbm, ⟨66, _⟩ => ⟨S_, .i32⟩
  | .hbm, ⟨67, _⟩ => ⟨S500000, .i32⟩
  | .hbm, ⟨68, _⟩ => ⟨S500000, .i32⟩
  | .hbm, ⟨69, _⟩ => ⟨S500000, .i32⟩
  | .hbm, ⟨70, _⟩ => ⟨S500000x1, .i32⟩
  | .hbm, ⟨71, _⟩ => ⟨S500000x128, .f32⟩
  | .hbm, ⟨72, _⟩ => ⟨S500000x128, .bf16⟩
  | .hbm, ⟨73, _⟩ => ⟨S500000x128, .bf16⟩
  | .hbm, ⟨74, _⟩ => ⟨S500000x128, .f32⟩
  | .hbm, ⟨75, _⟩ => ⟨S_, .f32⟩
  | .hbm, ⟨76, _⟩ => ⟨S50000x128, .f32⟩
  | .hbm, ⟨77, _⟩ => ⟨S500000x1, .i32⟩
  | .hbm, ⟨78, _⟩ => ⟨S50000x128, .f32⟩
  | .hbm, ⟨79, _⟩ => ⟨S500000x128, .f32⟩
  | .hbm, ⟨80, _⟩ => ⟨S_, .f32⟩
  | .hbm, ⟨81, _⟩ => ⟨S50000x128, .f32⟩
  | .hbm, ⟨82, _⟩ => ⟨S500000x1, .i32⟩
  | .hbm, ⟨83, _⟩ => ⟨S50000x128, .f32⟩
  | .hbm, ⟨84, _⟩ => ⟨S50000x128, .f32⟩
  | .hbm, ⟨85, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128, .f32⟩
  | .local _ .vmem, ⟨6, _⟩ => ⟨S128x128, .f32⟩
  | .local _ .vmem, ⟨7, _⟩ => ⟨S128, .f32⟩
  | .local _ .vmem, ⟨8, _⟩ => ⟨S384x128, .bf16⟩
  | .local _ .vmem, ⟨9, _⟩ => ⟨S128, .f32⟩
  | .local _ .vmem, ⟨10, _⟩ => ⟨S1x128, .f32⟩
  | .local _ .vmem, ⟨11, _⟩ => ⟨S1, .f32⟩
  | .local _ .vmem, ⟨12, _⟩ => ⟨S5000x128, .bf16⟩
  | .local _ .vmem, ⟨13, _⟩ => ⟨S5000x128, .bf16⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S128x128, .f32⟩
  | .local _ .vmem, ⟨19, _⟩ => ⟨S128, .f32⟩
  | .local _ .vmem, ⟨20, _⟩ => ⟨S128x128, .f32⟩
  | .local _ .vmem, ⟨21, _⟩ => ⟨S128, .f32⟩
  | .local _ .vmem, ⟨22, _⟩ => ⟨S384x128, .bf16⟩
  | .local _ .vmem, ⟨23, _⟩ => ⟨S128, .f32⟩
  | .local _ .vmem, ⟨24, _⟩ => ⟨S1x128, .f32⟩
  | .local _ .vmem, ⟨25, _⟩ => ⟨S1, .f32⟩
  | .local _ .vmem, ⟨26, _⟩ => ⟨S5000x128, .bf16⟩
  | .local _ .vmem, ⟨27, _⟩ => ⟨S5000x128, .bf16⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S128x128, .f32⟩
  | .local _ .vmem, ⟨33, _⟩ => ⟨S128, .f32⟩
  | .local _ .vmem, ⟨34, _⟩ => ⟨S128x128, .f32⟩
  | .local _ .vmem, ⟨35, _⟩ => ⟨S128, .f32⟩
  | .local _ .vmem, ⟨36, _⟩ => ⟨S5000x128, .f32⟩
  | .local _ .vmem, ⟨37, _⟩ => ⟨S5000x128, .f32⟩
  | .local _ .vmem, ⟨38, _⟩ => ⟨S5000x128, .f32⟩
  | .local _ .vmem, ⟨39, _⟩ => ⟨S5000x128, .f32⟩
  | .local _ .vmem, ⟨40, _⟩ => ⟨S5000x128, .f32⟩
  | .local _ .vmem, ⟨41, _⟩ => ⟨S5000x128, .f32⟩
  | .local _ .vmem, ⟨42, _⟩ => ⟨S128x128, .f32⟩
  | .local _ .vmem, ⟨43, _⟩ => ⟨S128, .f32⟩
  | .local _ .vmem, ⟨44, _⟩ => ⟨S128x128, .f32⟩
  | .local _ .vmem, ⟨45, _⟩ => ⟨S128, .f32⟩
  | .local _ .vmem, ⟨46, _⟩ => ⟨S5000x128, .f32⟩
  | .local _ .vmem, ⟨47, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_c : Ref sig .tc := ⟨.hbm, 36, rfl⟩
abbrev main_v16 : Ref sig .tc := ⟨.hbm, 37, rfl⟩
abbrev main_v17 : Ref sig .tc := ⟨.hbm, 38, rfl⟩
abbrev main_c_0 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_c_1 : Ref sig .tc := ⟨.hbm, 45, rfl⟩
abbrev main_v23 : Ref sig .tc := ⟨.hbm, 46, rfl⟩
abbrev main_v24 : Ref sig .tc := ⟨.hbm, 47, rfl⟩
abbrev main_c_2 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_c_3 : Ref sig .tc := ⟨.hbm, 54, rfl⟩
abbrev main_v30 : Ref sig .tc := ⟨.hbm, 55, rfl⟩
abbrev main_v31 : Ref sig .tc := ⟨.hbm, 56, rfl⟩
abbrev main_c_4 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_c_5 : Ref sig .tc := ⟨.hbm, 63, rfl⟩
abbrev main_v37 : Ref sig .tc := ⟨.hbm, 64, rfl⟩
abbrev main_v38 : Ref sig .tc := ⟨.hbm, 65, rfl⟩
abbrev main_c_6 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_cst : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_cst_7 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg8_0 : Ref sig .tc := ⟨.vmem, 24, rfl⟩
abbrev cc1_stg9_0 : Ref sig .tc := ⟨.vmem, 25, rfl⟩
abbrev cc1_stg10_0 : Ref sig .tc := ⟨.vmem, 26, rfl⟩
abbrev cc1_stg10_1 : Ref sig .tc := ⟨.vmem, 27, rfl⟩
abbrev cc2_stg0_0 : Ref sig .tc := ⟨.vmem, 28, rfl⟩
abbrev cc2_stg0_1 : Ref sig .tc := ⟨.vmem, 29, rfl⟩
abbrev cc2_stg1_0 : Ref sig .tc := ⟨.vmem, 30, rfl⟩
abbrev cc2_stg1_1 : Ref sig .tc := ⟨.vmem, 31, rfl⟩
abbrev cc2_stg2_0 : Ref sig .tc := ⟨.vmem, 32, rfl⟩
abbrev cc2_stg3_0 : Ref sig .tc := ⟨.vmem, 33, rfl⟩
abbrev cc2_stg4_0 : Ref sig .tc := ⟨.vmem, 34, rfl⟩
abbrev cc2_stg5_0 : Ref sig .tc := ⟨.vmem, 35, rfl⟩
abbrev cc2_stg6_0 : Ref sig .tc := ⟨.vmem, 36, rfl⟩
abbrev cc2_stg6_1 : Ref sig .tc := ⟨.vmem, 37, rfl⟩
abbrev cc3_stg0_0 : Ref sig .tc := ⟨.vmem, 38, rfl⟩
abbrev cc3_stg0_1 : Ref sig .tc := ⟨.vmem, 39, rfl⟩
abbrev cc3_stg1_0 : Ref sig .tc := ⟨.vmem, 40, rfl⟩
abbrev cc3_stg1_1 : Ref sig .tc := ⟨.vmem, 41, rfl⟩
abbrev cc3_stg2_0 : Ref sig .tc := ⟨.vmem, 42, rfl⟩
abbrev cc3_stg3_0 : Ref sig .tc := ⟨.vmem, 43, rfl⟩
abbrev cc3_stg4_0 : Ref sig .tc := ⟨.vmem, 44, rfl⟩
abbrev cc3_stg5_0 : Ref sig .tc := ⟨.vmem, 45, rfl⟩
abbrev cc3_stg6_0 : Ref sig .tc := ⟨.vmem, 46, rfl⟩
abbrev cc3_stg6_1 : Ref sig .tc := ⟨.vmem, 47, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem7_0 : DmaSem sig := 23
abbrev cc1_sem8_0 : DmaSem sig := 24
abbrev cc1_sem9_0 : DmaSem sig := 25
abbrev cc1_sem10_0 : DmaSem sig := 26
abbrev cc1_sem10_1 : DmaSem sig := 27
abbrev cc2_sem0_0 : DmaSem sig := 28
abbrev cc2_sem0_1 : DmaSem sig := 29
abbrev cc2_sem1_0 : DmaSem sig := 30
abbrev cc2_sem1_1 : DmaSem sig := 31
abbrev cc2_sem2_0 : DmaSem sig := 32
abbrev cc2_sem3_0 : DmaSem sig := 33
abbrev cc2_sem4_0 : DmaSem sig := 34
abbrev cc2_sem5_0 : DmaSem sig := 35
abbrev cc2_sem6_0 : DmaSem sig := 36
abbrev cc2_sem6_1 : DmaSem sig := 37
abbrev cc3_sem0_0 : DmaSem sig := 38
abbrev cc3_sem0_1 : DmaSem sig := 39
abbrev cc3_sem1_0 : DmaSem sig := 40
abbrev cc3_sem1_1 : DmaSem sig := 41
abbrev cc3_sem2_0 : DmaSem sig := 42
abbrev cc3_sem3_0 : DmaSem sig := 43
abbrev cc3_sem4_0 : DmaSem sig := 44
abbrev cc3_sem5_0 : DmaSem sig := 45
abbrev cc3_sem6_0 : DmaSem sig := 46
abbrev cc3_sem6_1 : DmaSem sig := 47

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S384x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S5000x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S384x128 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S5000x128 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

class Facts₀ : Prop where
  transposes_S128x128_S128x128_1_0 : S128x128.Transposes [1, 0] S128x128
  transposes_S128x384_S384x128_1_0 : S128x384.Transposes [1, 0] S384x128
  bitsLt_bf16_f32 : FTy.bits .bf16 < FTy.bits .f32
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S500000_S500000x1_0 : S500000.BroadcastsInDim S500000x1 (![0] : Fin 1 → Fin S500000x1.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  concatenates_S5000x128_S5000x128_S5000x128_S5000x384_d1 : Shape.Concatenates [S5000x128, S5000x128, S5000x128] S5000x384 1
  inb_S384x128_S384x128_0_0 : ∀ a, (![0, 0] : Fin 2 → Nat) a + S384x128.size a ≤ S384x128.size a
  h_S384x128 : 0 < S384x128.numel
  shapeCasts_S384x128_S384x128 : S384x128.ShapeCasts S384x128
  inb_S1x128_S1x128_0_0 : ∀ a, (![0, 0] : Fin 2 → Nat) a + S1x128.size a ≤ S1x128.size a
  h_S1x128 : 0 < S1x128.numel
  reduces_S5000x128_S5000 : S5000x128.Reduces [1] S5000
  shapeCasts_S5000_S5000x1 : S5000.ShapeCasts S5000x1
  inb_S1_S1_0 : ∀ a, (![0] : Fin 1 → Nat) a + S1.size a ≤ S1.size a
  h_S1 : 0 < S1.numel
  shapeCasts_S1_S1x1 : S1.ShapeCasts S1x1
  broadcasts_S1x1_S5000x1 : S1x1.Broadcasts S5000x1
  broadcasts_S5000x1_S5000x128 : S5000x1.Broadcasts S5000x128
  packedbf16_S5000x128_S5000x128_0_0 : (Rect.unit (s := S5000x128) ![0, 0] S5000x128.size inb_S5000x128_S5000x128_0_0).PackedRows (EltTy.packing .bf16)
  bcast_S_S50000x128 : S_.BroadcastsInDim S50000x128 (![] : Fin 0 → Fin S50000x128.rank)
  gather_S50000x128_S500000x1_S500000x128_1_0_n_n_0_1_1128_wf : GatherDims.WF S50000x128 S500000x1 S500000x128 [1] [0] [] [0] [] 1 ![1, 128]
  dot_S5000x128_S128x128_S5000x128_1_0_0_1_n_n_wf : DotDims.WF S5000x128 S128x128 S5000x128 [1] [0] [0] [1] [] []
  dot_S5000x384_S384x128_S5000x128_1_0_0_1_n_n_wf : DotDims.WF S5000x384 S384x128 S5000x128 [1] [0] [0] [1] [] []
  scatter_S50000x128_S500000x1_S500000x128_1_0_0_1_wf : ScatterDims.WF S50000x128 S500000x1 S500000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S500000x128.size a
  hwx0_0 : ∀ i : grid0.Coords, EltTy.bits .f32 = 32 ∨ (Rect.block (s := S500000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S500000x128.size a
  hwx0_1 : ∀ i : grid0.Coords, EltTy.bits .f32 = 32 ∨ (Rect.block (s := S500000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S384x128.size a ≤ S384x128.size a
  hwx0_6 : ∀ i : grid0.Coords, EltTy.bits .bf16 = 32 ∨ (Rect.block (s := S384x128) S384x128.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128.size a ≤ S128.size a
  hwx0_7 : ∀ i : grid0.Coords, EltTy.bits .f32 = 32 ∨ (Rect.block (s := S128) S128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1.size a ≤ S1.size a
  hwx0_9 : ∀ i : grid0.Coords, EltTy.bits .f32 = 32 ∨ (Rect.block (s := S1) S1.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S5000x128.size a ≤ S500000x128.size a
  hwx0_10 : ∀ i : grid0.Coords, EltTy.bits .bf16 = 32 ∨ (Rect.block (s := S500000x128) S5000x128.size (cc0_transform_10 i) (hinb0_10 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S500000x128.size a
  hwx1_0 : ∀ i : grid1.Coords, EltTy.bits .f32 = 32 ∨ (Rect.block (s := S500000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S500000x128.size a
  hwx1_1 : ∀ i : grid1.Coords, EltTy.bits .f32 = 32 ∨ (Rect.block (s := S500000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S384x128.size a ≤ S384x128.size a
  hwx1_6 : ∀ i : grid1.Coords, EltTy.bits .bf16 = 32 ∨ (Rect.block (s := S384x128) S384x128.size (cc1_transform_6 i) (hinb1_6 i)).WholeWords (EltTy.packing .bf16)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128.size a ≤ S128.size a
  hwx1_7 : ∀ i : grid1.Coords, EltTy.bits .f32 = 32 ∨ (Rect.block (s := S128) S128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1.size a ≤ S1.size a
  hwx1_9 : ∀ i : grid1.Coords, EltTy.bits .f32 = 32 ∨ (Rect.block (s := S1) S1.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S5000x128.size a ≤ S500000x128.size a
  hwx1_10 : ∀ i : grid1.Coords, EltTy.bits .bf16 = 32 ∨ (Rect.block (s := S500000x128) S5000x128.size (cc1_transform_10 i) (hinb1_10 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128.size a ≤ S128.size a
  hwx2_3 : ∀ i : grid2.Coords, EltTy.bits .f32 = 32 ∨ (Rect.block (s := S128) S128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128.size a ≤ S128.size a
  hwx2_5 : ∀ i : grid2.Coords, EltTy.bits .f32 = 32 ∨ (Rect.block (s := S128) S128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S50000x128.size a
  hwx2_6 : ∀ i : grid2.Coords, EltTy.bits .f32 = 32 ∨ (Rect.block (s := S50000x128) S5000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128.size a ≤ S128.size a
  hwx3_3 : ∀ i : grid3.Coords, EltTy.bits .f32 = 32 ∨ (Rect.block (s := S128) S128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128.size a ≤ S128.size a
  hwx3_5 : ∀ i : grid3.Coords, EltTy.bits .f32 = 32 ∨ (Rect.block (s := S128) S128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x128.size a ≤ S50000x128.size a
  hwx3_6 : ∀ i : grid3.Coords, EltTy.bits .f32 = 32 ∨ (Rect.block (s := S50000x128) S5000x128.size (cc3_transform_6 i) (hinb3_6 i)).WholeWords (EltTy.packing .f32)

variable [Facts₀]

def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x384_S384x128_S5000x128_1_0_0_1_n_n : DotDims S5000x384 S384x128 S5000x128 where
  lhsContracting := [1]
  rhsContracting := [0]
  lhsNonContracting := [0]
  rhsNonContracting := [1]
  lhsBatch := []
  rhsBatch := []
  wf := dot_S5000x384_S384x128_S5000x128_1_0_0_1_n_n_wf
def scatter_S50000x128_S500000x1_S500000x128_1_0_0_1 : ScatterDims S50000x128 S500000x1 S500000x128 where
  updateWindowDims := [1]
  insertedWindowDims := [0]
  scatterDimsToOperandDims := [0]
  indexVectorDim := 1
  wf := scatter_S50000x128_S500000x1_S500000x128_1_0_0_1_wf

abbrev win0_0 : Pipeline.Window sig grid0 :=
  Pipeline.Window.ofSpec (Memref.whole main_v22) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v29) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S384x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v44) S5000x128.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_v36) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v43) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v1) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg5) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v3) S384x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg7) S128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg8) S1x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_arg9) S1.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v45) S5000x128.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

abbrev win2_0 : Pipeline.Window sig grid2 :=
  Pipeline.Window.ofSpec (Memref.whole main_v49) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg1) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v4) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg11) S128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v5) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg13) S128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v54) S5000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v53) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg0) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v6) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg15) S128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v7) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg17) S128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v55) S5000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

class Facts : Prop extends Facts₀ where

variable [Facts]
-- ==== ReferenceIdeal.lean ====
abbrev S50000x128 : Shape := ⟨2, ![50000, 128]⟩
abbrev S128x128 : Shape := ⟨2, ![128, 128]⟩
abbrev S128 : Shape := ⟨1, ![128]⟩
abbrev S128x384 : Shape := ⟨2, ![128, 384]⟩
abbrev S1x128 : Shape := ⟨2, ![1, 128]⟩
abbrev S1 : Shape := ⟨1, ![1]⟩
abbrev S2x500000 : Shape := ⟨2, ![2, 500000]⟩
abbrev S1x500000 : Shape := ⟨2, ![1, 500000]⟩
abbrev S500000 : Shape := ⟨1, ![500000]⟩
abbrev S_ : Shape := ⟨0, ![]⟩
abbrev S500000x1 : Shape := ⟨2, ![500000, 1]⟩
abbrev S500000x128 : Shape := ⟨2, ![500000, 128]⟩
abbrev S500000x384 : Shape := ⟨2, ![500000, 384]⟩
abbrev S384x128 : Shape := ⟨2, ![384, 128]⟩
abbrev S128x1 : Shape := ⟨2, ![128, 1]⟩
abbrev S1x1 : Shape := ⟨2, ![1, 1]⟩

abbrev nBuf : Space → Nat
  | .hbm => 206
  | .vmem => 0
  | .smem => 0
  | _ => 0

abbrev hbmTy0_0 (i : Nat) : BufTy := match i % 128 with
  | 0 => ⟨S50000x128, .f32⟩
  | 1 => ⟨S50000x128, .f32⟩
  | 2 => ⟨S128x128, .f32⟩
  | 3 => ⟨S128, .f32⟩
  | 4 => ⟨S128x128, .f32⟩
  | 5 => ⟨S128, .f32⟩
  | 6 => ⟨S128x384, .f32⟩
  | 7 => ⟨S128, .f32⟩
  | 8 => ⟨S1x128, .f32⟩
  | 9 => ⟨S1, .f32⟩
  | 10 => ⟨S128x128, .f32⟩
  | 11 => ⟨S128, .f32⟩
  | 12 => ⟨S128x128, .f32⟩
  | 13 => ⟨S128, .f32⟩
  | 14 => ⟨S128x128, .f32⟩
  | 15 => ⟨S128, .f32⟩
  | 16 => ⟨S128x128, .f32⟩
  | 17 => ⟨S128, .f32⟩
  | 18 => ⟨S2x500000, .i32⟩
  | 19 => ⟨S2x500000, .i32⟩
  | 20 => ⟨S1x500000, .i32⟩
  | 21 => ⟨S500000, .i32⟩
  | 22 => ⟨S_, .i32⟩
  | 23 => ⟨S500000, .i32⟩
  | 24 => ⟨S500000, .i1⟩
  | 25 => ⟨S_, .i32⟩
  | 26 => ⟨S500000, .i32⟩
  | 27 => ⟨S500000, .i32⟩
  | 28 => ⟨S500000, .i32⟩
  | 29 => ⟨S500000x1, .i32⟩
  | 30 => ⟨S500000x128, .f32⟩
  | 31 => ⟨S1x500000, .i32⟩
  | 32 => ⟨S500000, .i32⟩
  | 33 => ⟨S_, .i32⟩
  | 34 => ⟨S500000, .i32⟩
  | 35 => ⟨S500000, .i1⟩
  | 36 => ⟨S_, .i32⟩
  | 37 => ⟨S500000, .i32⟩
  | 38 => ⟨S500000, .i32⟩
  | 39 => ⟨S500000, .i32⟩
  | 40 => ⟨S500000x1, .i32⟩
  | 41 => ⟨S500000x128, .f32⟩
  | 42 => ⟨S128x128, .f32⟩
  | 43 => ⟨S500000x128, .f32⟩
  | 44 => ⟨S1x128, .f32⟩
  | 45 => ⟨S500000x128, .f32⟩
  | 46 => ⟨S500000x128, .f32⟩
  | 47 => ⟨S_, .f32⟩
  | 48 => ⟨S_, .f32⟩
  | 49 => ⟨S500000x128, .f32⟩
  | 50 => ⟨S500000x128, .i1⟩
  | 51 => ⟨S_, .f32⟩
  | 52 => ⟨S500000x128, .f32⟩
  | 53 => ⟨S500000x128, .f32⟩
  | 54 => ⟨S500000x128, .f32⟩
  | 55 => ⟨S128x128, .f32⟩
  | 56 => ⟨S500000x128, .f32⟩
  | 57 => ⟨S1x128, .f32⟩
  | 58 => ⟨S500000x128, .f32⟩
  | 59 => ⟨S500000x128, .f32⟩
  | 60 => ⟨S_, .f32⟩
  | 61 => ⟨S_, .f32⟩
  | 62 => ⟨S500000x128, .f32⟩
  | 63 => ⟨S500000x128, .i1⟩
  | 64 => ⟨S_, .f32⟩
  | 65 => ⟨S500000x128, .f32⟩
  | 66 => ⟨S500000x128, .f32⟩
  | 67 => ⟨S500000x128, .f32⟩
  | 68 => ⟨S500000x128, .f32⟩
  | 69 => ⟨S500000x128, .f32⟩
  | 70 => ⟨S500000x384, .f32⟩
  | 71 => ⟨S384x128, .f32⟩
  | 72 => ⟨S500000x128, .f32⟩
  | 73 => ⟨S1x128, .f32⟩
  | 74 => ⟨S500000x128, .f32⟩
  | 75 => ⟨S500000x128, .f32⟩
  | 76 => ⟨S_, .f32⟩
  | 77 => ⟨S500000x128, .f32⟩
  | 78 => ⟨S500000x128, .f32⟩
  | 79 => ⟨S128x1, .f32⟩
  | 80 => ⟨S500000x1, .f32⟩
  | 81 => ⟨S1x1, .f32⟩
  | 82 => ⟨S500000x1, .f32⟩
  | 83 => ⟨S500000x1, .f32⟩
  | 84 => ⟨S500000x1, .f32⟩
  | 85 => ⟨S500000x1, .f32⟩
  | 86 => ⟨S_, .f32⟩
  | 87 => ⟨S500000x1, .f32⟩
  | 88 => ⟨S500000x1, .f32⟩
  | 89 => ⟨S_, .f32⟩
  | 90 => ⟨S500000x1, .f32⟩
  | 91 => ⟨S500000x1, .f32⟩
  | 92 => ⟨S500000, .f32⟩
  | 93 => ⟨S500000x1, .f32⟩
  | 94 => ⟨S500000x128, .f32⟩
  | 95 => ⟨S500000x128, .f32⟩
  | 96 => ⟨S1x500000, .i32⟩
  | 97 => ⟨S500000, .i32⟩
  | 98 => ⟨S_, .f32⟩
  | 99 => ⟨S50000x128, .f32⟩
  | 100 => ⟨S500000x1, .i32⟩
  | 101 => ⟨S50000x128, .f32⟩
  | 102 => ⟨S128x128, .f32⟩
  | 103 => ⟨S50000x128, .f32⟩
  | 104 => ⟨S1x128, .f32⟩
  | 105 => ⟨S50000x128, .f32⟩
  | 106 => ⟨S50000x128, .f32⟩
  | 107 => ⟨S128x128, .f32⟩
  | 108 => ⟨S50000x128, .f32⟩
  | 109 => ⟨S50000x128, .f32⟩
  | 110 => ⟨S1x128, .f32⟩
  | 111 => ⟨S50000x128, .f32⟩
  | 112 => ⟨S50000x128, .f32⟩
  | 113 => ⟨S1x500000, .i32⟩
  | 114 => ⟨S500000, .i32⟩
  | 115 => ⟨S_, .i32⟩
  | 116 => ⟨S500000, .i32⟩
  | 117 => ⟨S500000, .i1⟩
  | 118 => ⟨S_, .i32⟩
  | 119 => ⟨S500000, .i32⟩
  | 120 => ⟨S500000, .i32⟩
  | 121 => ⟨S500000, .i32⟩
  | 122 => ⟨S500000x1, .i32⟩
  | 123 => ⟨S500000x128, .f32⟩
  | 124 => ⟨S1x500000, .i32⟩
  | 125 => ⟨S500000, .i32⟩
  | 126 => ⟨S_, .i32⟩
  | 127 => ⟨S500000, .i32⟩
  | _ => ⟨S50000x128, .f32⟩

abbrev hbmTy0_1 (i : Nat) : BufTy := match i % 128 with
  | 0 => ⟨S500000, .i1⟩
  | 1 => ⟨S_, .i32⟩
  | 2 => ⟨S500000, .i32⟩
  | 3 => ⟨S500000, .i32⟩
  | 4 => ⟨S500000, .i32⟩
  | 5 => ⟨S500000x1, .i32⟩
  | 6 => ⟨S500000x128, .f32⟩
  | 7 => ⟨S128x128, .f32⟩
  | 8 => ⟨S500000x128, .f32⟩
  | 9 => ⟨S1x128, .f32⟩
  | 10 => ⟨S500000x128, .f32⟩
  | 11 => ⟨S500000x128, .f32⟩
  | 12 => ⟨S_, .f32⟩
  | 13 => ⟨S_, .f32⟩
  | 14 => ⟨S500000x128, .f32⟩
  | 15 => ⟨S500000x128, .i1⟩
  | 16 => ⟨S_, .f32⟩
  | 17 => ⟨S500000x128, .f32⟩
  | 18 => ⟨S500000x128, .f32⟩
  | 19 => ⟨S500000x128, .f32⟩
  | 20 => ⟨S128x128, .f32⟩
  | 21 => ⟨S500000x128, .f32⟩
  | 22 => ⟨S1x128, .f32⟩
  | 23 => ⟨S500000x128, .f32⟩
  | 24 => ⟨S500000x128, .f32⟩
  | 25 => ⟨S_, .f32⟩
  | 26 => ⟨S_, .f32⟩
  | 27 => ⟨S500000x128, .f32⟩
  | 28 => ⟨S500000x128, .i1⟩
  | 29 => ⟨S_, .f32⟩
  | 30 => ⟨S500000x128, .f32⟩
  | 31 => ⟨S500000x128, .f32⟩
  | 32 => ⟨S500000x128, .f32⟩
  | 33 => ⟨S500000x128, .f32⟩
  | 34 => ⟨S500000x128, .f32⟩
  | 35 => ⟨S500000x384, .f32⟩
  | 36 => ⟨S384x128, .f32⟩
  | 37 => ⟨S500000x128, .f32⟩
  | 38 => ⟨S1x128, .f32⟩
  | 39 => ⟨S500000x128, .f32⟩
  | 40 => ⟨S500000x128, .f32⟩
  | 41 => ⟨S_, .f32⟩
  | 42 => ⟨S500000x128, .f32⟩
  | 43 => ⟨S500000x128, .f32⟩
  | 44 => ⟨S128x1, .f32⟩
  | 45 => ⟨S500000x1, .f32⟩
  | 46 => ⟨S1x1, .f32⟩
  | 47 => ⟨S500000x1, .f32⟩
  | 48 => ⟨S500000x1, .f32⟩
  | 49 => ⟨S500000x1, .f32⟩
  | 50 => ⟨S500000x1, .f32⟩
  | 51 => ⟨S_, .f32⟩
  | 52 => ⟨S500000x1, .f32⟩
  | 53 => ⟨S500000x1, .f32⟩
  | 54 => ⟨S_, .f32⟩
  | 55 => ⟨S500000x1, .f32⟩
  | 56 => ⟨S500000x1, .f32⟩
  | 57 => ⟨S500000, .f32⟩
  | 58 => ⟨S500000x1, .f32⟩
  | 59 => ⟨S500000x128, .f32⟩
  | 60 => ⟨S500000x128, .f32⟩
  | 61 => ⟨S1x500000, .i32⟩
  | 62 => ⟨S500000, .i32⟩
  | 63 => ⟨S_, .f32⟩
  | 64 => ⟨S50000x128, .f32⟩
  | 65 => ⟨S500000x1, .i32⟩
  | 66 => ⟨S50000x128, .f32⟩
  | 67 => ⟨S128x128, .f32⟩
  | 68 => ⟨S50000x128, .f32⟩
  | 69 => ⟨S1x128, .f32⟩
  | 70 => ⟨S50000x128, .f32⟩
  | 71 => ⟨S50000x128, .f32⟩
  | 72 => ⟨S128x128, .f32⟩
  | 73 => ⟨S50000x128, .f32⟩
  | 74 => ⟨S50000x128, .f32⟩
  | 75 => ⟨S1x128, .f32⟩
  | 76 => ⟨S50000x128, .f32⟩
  | 77 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_c : Ref sig .tc := ⟨.hbm, 22, rfl⟩
abbrev main_v2 : Ref sig .tc := ⟨.hbm, 23, rfl⟩
abbrev main_v3 : Ref sig .tc := ⟨.hbm, 24, rfl⟩
abbrev main_c_0 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_c_1 : Ref sig .tc := ⟨.hbm, 33, rfl⟩
abbrev main_v11 : Ref sig .tc := ⟨.hbm, 34, rfl⟩
abbrev main_v12 : Ref sig .tc := ⟨.hbm, 35, rfl⟩
abbrev main_c_2 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_cst : Ref sig .tc := ⟨.hbm, 47, rfl⟩
abbrev main_call0_cst : Ref sig .tc := ⟨.hbm, 48, rfl⟩
abbrev main_call0_v0 : Ref sig .tc := ⟨.hbm, 49, rfl⟩
abbrev main_call0_v1 : Ref sig .tc := ⟨.hbm, 50, rfl⟩
abbrev main_call0_v2 : Ref sig .tc := ⟨.hbm, 51, rfl⟩
abbrev main_call0_v3 : Ref sig .tc := ⟨.hbm, 52, rfl⟩
abbrev main_call0_v4 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_cst_3 : Ref sig .tc := ⟨.hbm, 60, rfl⟩
abbrev main_call1_cst : Ref sig .tc := ⟨.hbm, 61, rfl⟩
abbrev main_call1_v0 : Ref sig .tc := ⟨.hbm, 62, rfl⟩
abbrev main_call1_v1 : Ref sig .tc := ⟨.hbm, 63, rfl⟩
abbrev main_call1_v2 : Ref sig .tc := ⟨.hbm, 64, rfl⟩
abbrev main_call1_v3 : Ref sig .tc := ⟨.hbm, 65, rfl⟩
abbrev main_call1_v4 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_call2_cst : Ref sig .tc := ⟨.hbm, 76, rfl⟩
abbrev main_call2_v0 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_cst_4 : Ref sig .tc := ⟨.hbm, 86, rfl⟩
abbrev main_v46 : Ref sig .tc := ⟨.hbm, 87, rfl⟩
abbrev main_v47 : Ref sig .tc := ⟨.hbm, 88, rfl⟩
abbrev main_cst_5 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_cst_6 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_c_7 : Ref sig .tc := ⟨.hbm, 115, rfl⟩
abbrev main_v72 : Ref sig .tc := ⟨.hbm, 116, rfl⟩
abbrev main_v73 : Ref sig .tc := ⟨.hbm, 117, rfl⟩
abbrev main_c_8 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_c_9 : Ref sig .tc := ⟨.hbm, 126, rfl⟩
abbrev main_v81 : Ref sig .tc := ⟨.hbm, 127, rfl⟩
abbrev main_v82 : Ref sig .tc := ⟨.hbm, 128, rfl⟩
abbrev main_c_10 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_cst_11 : Ref sig .tc := ⟨.hbm, 140, rfl⟩
abbrev main_call3_cst : Ref sig .tc := ⟨.hbm, 141, rfl⟩
abbrev main_call3_v0 : Ref sig .tc := ⟨.hbm, 142, rfl⟩
abbrev main_call3_v1 : Ref sig .tc := ⟨.hbm, 143, rfl⟩
abbrev main_call3_v2 : Ref sig .tc := ⟨.hbm, 144, rfl⟩
abbrev main_call3_v3 : Ref sig .tc := ⟨.hbm, 145, rfl⟩
abbrev main_call3_v4 : Ref sig .tc := ⟨.hbm, 146, rfl⟩
abbrev main_v93 : Ref sig .tc := ⟨.hbm, 147, rfl⟩
abbrev main_v94 : Ref sig .tc := ⟨.hbm, 148, rfl⟩
abbrev main_v95 : Ref sig .tc := ⟨.hbm, 149, rfl⟩
abbrev main_v96 : Ref sig .tc := ⟨.hbm, 150, rfl⟩
abbrev main_v97 : Ref sig .tc := ⟨.hbm, 151, rfl⟩
abbrev main_v98 : Ref sig .tc := ⟨.hbm, 152, rfl⟩
abbrev main_cst_12 : Ref sig .tc := ⟨.hbm, 153, rfl⟩
abbrev main_call4_cst : Ref sig .tc := ⟨.hbm, 154, rfl⟩
abbrev main_call4_v0 : Ref sig .tc := ⟨.hbm, 155, rfl⟩
abbrev main_call4_v1 : Ref sig .tc := ⟨.hbm, 156, rfl⟩
abbrev main_call4_v2 : Ref sig .tc := ⟨.hbm, 157, rfl⟩
abbrev main_call4_v3 : Ref sig .tc := ⟨.hbm, 158, rfl⟩
abbrev main_call4_v4 : Ref sig .tc := ⟨.hbm, 159, rfl⟩
abbrev main_v99 : Ref sig .tc := ⟨.hbm, 160, rfl⟩
abbrev main_v100 : Ref sig .tc := ⟨.hbm, 161, rfl⟩
abbrev main_v101 : Ref sig .tc := ⟨.hbm, 162, rfl⟩
abbrev main_v102 : Ref sig .tc := ⟨.hbm, 163, rfl⟩
abbrev main_v103 : Ref sig .tc := ⟨.hbm, 164, rfl⟩
abbrev main_v104 : Ref sig .tc := ⟨.hbm, 165, rfl⟩
abbrev main_v105 : Ref sig .tc := ⟨.hbm, 166, rfl⟩
abbrev main_v106 : Ref sig .tc := ⟨.hbm, 167, rfl⟩
abbrev main_v107 : Ref sig .tc := ⟨.hbm, 168, rfl⟩
abbrev main_call5_cst : Ref sig .tc := ⟨.hbm, 169, rfl⟩
abbrev main_call5_v0 : Ref sig .tc := ⟨.hbm, 170, rfl⟩
abbrev main_v108 : Ref sig .tc := ⟨.hbm, 171, rfl⟩
abbrev main_v109 : Ref sig .tc := ⟨.hbm, 172, rfl⟩
abbrev main_v110 : Ref sig .tc := ⟨.hbm, 173, rfl⟩
abbrev main_v111 : Ref sig .tc := ⟨.hbm, 174, rfl⟩
abbrev main_v112 : Ref sig .tc := ⟨.hbm, 175, rfl⟩
abbrev main_v113 : Ref sig .tc := ⟨.hbm, 176, rfl⟩
abbrev main_v114 : Ref sig .tc := ⟨.hbm, 177, rfl⟩
abbrev main_v115 : Ref sig .tc := ⟨.hbm, 178, rfl⟩
abbrev main_cst_13 : Ref sig .tc := ⟨.hbm, 179, rfl⟩
abbrev main_v116 : Ref sig .tc := ⟨.hbm, 180, rfl⟩
abbrev main_v117 : Ref sig .tc := ⟨.hbm, 181, rfl⟩
abbrev main_cst_14 : Ref sig .tc := ⟨.hbm, 182, rfl⟩
abbrev main_v118 : Ref sig .tc := ⟨.hbm, 183, rfl⟩
abbrev main_v119 : Ref sig .tc := ⟨.hbm, 184, rfl⟩
abbrev main_v120 : Ref sig .tc := ⟨.hbm, 185, rfl⟩
abbrev main_v121 : Ref sig .tc := ⟨.hbm, 186, rfl⟩
abbrev main_v122 : Ref sig .tc := ⟨.hbm, 187, rfl⟩
abbrev main_v123 : Ref sig .tc := ⟨.hbm, 188, rfl⟩
abbrev main_v124 : Ref sig .tc := ⟨.hbm, 189, rfl⟩
abbrev main_v125 : Ref sig .tc := ⟨.hbm, 190, rfl⟩
abbrev main_cst_15 : Ref sig .tc := ⟨.hbm, 191, rfl⟩
abbrev main_v126 : Ref sig .tc := ⟨.hbm, 192, rfl⟩
abbrev main_v127 : Ref sig .tc := ⟨.hbm, 193, rfl⟩
abbrev main_v128 : Ref sig .tc := ⟨.hbm, 194, rfl⟩
abbrev main_v129 : Ref sig .tc := ⟨.hbm, 195, rfl⟩
abbrev main_v130 : Ref sig .tc := ⟨.hbm, 196, rfl⟩
abbrev main_v131 : Ref sig .tc := ⟨.hbm, 197, rfl⟩
abbrev main_v132 : Ref sig .tc := ⟨.hbm, 198, rfl⟩
abbrev main_v133 : Ref sig .tc := ⟨.hbm, 199, rfl⟩
abbrev main_v134 : Ref sig .tc := ⟨.hbm, 200, rfl⟩
abbrev main_v135 : Ref sig .tc := ⟨.hbm, 201, rfl⟩
abbrev main_v136 : Ref sig .tc := ⟨.hbm, 202, rfl⟩
abbrev main_v137 : Ref sig .tc := ⟨.hbm, 203, rfl⟩
abbrev main_v138 : Ref sig .tc := ⟨.hbm, 204, rfl⟩
abbrev main_v139 : Ref sig .tc := ⟨.hbm, 205, rfl⟩

abbrev nD : Nat := 1
abbrev τ : Topo := Topo.v7x

variable {F : FTy → Type} [FloatOps F]

class Facts₀ : Prop where
  slices_S2x500000_S1x500000_0_0 : S2x500000.Slices ![0, 0] S1x500000
  shapeCasts_S1x500000_S500000 : S1x500000.ShapeCasts S500000
  bcast_S_S500000 : S_.BroadcastsInDim S500000 (![] : Fin 0 → Fin S500000.rank)
  bcast_S500000_S500000x1_0 : S500000.BroadcastsInDim S500000x1 (![0] : Fin 1 → Fin S500000x1.rank)
  slices_S2x500000_S1x500000_1_0 : S2x500000.Slices ![1, 0] S1x500000
  transposes_S128x128_S128x128_1_0 : S128x128.Transposes [1, 0] S128x128
  bcast_S128_S1x128_1 : S128.BroadcastsInDim S1x128 (![1] : Fin 1 → Fin S1x128.rank)
  bcast_S1x128_S500000x128_0_1 : S1x128.BroadcastsInDim S500000x128 (![0, 1] : Fin 2 → Fin S500000x128.rank)
  bcast_S_S500000x128 : S_.BroadcastsInDim S500000x128 (![] : Fin 0 → Fin S500000x128.rank)
  concatenates_S500000x128_S500000x128_S500000x128_S500000x384_d1 : Shape.Concatenates [S500000x128, S500000x128, S500000x128] S500000x384 1
  transposes_S128x384_S384x128_1_0 : S128x384.Transposes [1, 0] S384x128
  transposes_S1x128_S128x1_1_0 : S1x128.Transposes [1, 0] S128x1
  bcast_S1_S1x1_1 : S1.BroadcastsInDim S1x1 (![1] : Fin 1 → Fin S1x1.rank)
  bcast_S1x1_S500000x1_0_1 : S1x1.BroadcastsInDim S500000x1 (![0, 1] : Fin 2 → Fin S500000x1.rank)
  bcast_S_S500000x1 : S_.BroadcastsInDim S500000x1 (![] : Fin 0 → Fin S500000x1.rank)
  shapeCasts_S500000x1_S500000 : S500000x1.ShapeCasts S500000
  bcast_S500000x1_S500000x128_0_1 : S500000x1.BroadcastsInDim S500000x128 (![0, 1] : Fin 2 → Fin S500000x128.rank)
  bcast_S_S50000x128 : S_.BroadcastsInDim S50000x128 (![] : Fin 0 → Fin S50000x128.rank)
  bcast_S1x128_S50000x128_0_1 : S1x128.BroadcastsInDim S50000x128 (![0, 1] : Fin 2 → Fin S50000x128.rank)
  gather_S50000x128_S500000x1_S500000x128_1_0_n_n_0_1_1128_wf : GatherDims.WF S50000x128 S500000x1 S500000x128 [1] [0] [] [0] [] 1 ![1, 128]
  dot_S500000x128_S128x128_S500000x128_1_0_0_1_n_n_wf : DotDims.WF S500000x128 S128x128 S500000x128 [1] [0] [0] [1] [] []
  dot_S500000x384_S384x128_S500000x128_1_0_0_1_n_n_wf : DotDims.WF S500000x384 S384x128 S500000x128 [1] [0] [0] [1] [] []
  dot_S500000x128_S128x1_S500000x1_1_0_0_1_n_n_wf : DotDims.WF S500000x128 S128x1 S500000x1 [1] [0] [0] [1] [] []
  scatter_S50000x128_S500000x1_S500000x128_1_0_0_1_wf : ScatterDims.WF S50000x128 S500000x1 S500000x128 [1] [0] [0] 1
  dot_S50000x128_S128x128_S50000x128_1_0_0_1_n_n_wf : DotDims.WF S50000x128 S128x128 S50000x128 [1] [0] [0] [1] [] []

variable [Facts₀]

def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def dot_S500000x128_S128x128_S500000x128_1_0_0_1_n_n : DotDims S500000x128 S128x128 S500000x128 where
  lhsContracting := [1]
  rhsContracting := [0]
  lhsNonContracting := [0]
  rhsNonContracting := [1]
  lhsBatch := []
  rhsBatch := []
  wf := dot_S500000x128_S128x128_S500000x128_1_0_0_1_n_n_wf
def dot_S500000x384_S384x128_S500000x128_1_0_0_1_n_n : DotDims S500000x384 S384x128 S500000x128 where
  lhsContracting := [1]
  rhsContracting := [0]
  lhsNonContracting := [0]
  rhsNonContracting := [1]
  lhsBatch := []
  rhsBatch := []
  wf := dot_S500000x384_S384x128_S500000x128_1_0_0_1_n_n_wf
def dot_S500000x128_S128x1_S500000x1_1_0_0_1_n_n : DotDims S500000x128 S128x1 S500000x1 where
  lhsContracting := [1]
  rhsContracting := [0]
  lhsNonContracting := [0]
  rhsNonContracting := [1]
  lhsBatch := []
  rhsBatch := []
  wf := dot_S500000x128_S128x1_S500000x1_1_0_0_1_n_n_wf
def scatter_S50000x128_S500000x1_S500000x128_1_0_0_1 : ScatterDims S50000x128 S500000x1 S500000x128 where
  updateWindowDims := [1]
  insertedWindowDims := [0]
  scatterDimsToOperandDims := [0]
  indexVectorDim := 1
  wf := scatter_S50000x128_S500000x1_S500000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.Spec.lean ====
/-
  The value both programs compute, row by row, on the extended reals.

  One edge (a row `par` of the source table, a row `cld` of the destination table) gives a weighted message
  `par · g`, the gate `g = 1 / (1 + e^(-z))` of `z = Σ_k h_k · w2_k + b2`, where `h = max (feat · W1ᵀ + b1, 0)` and
  `feat` is three rows of 128 laid end to end: the leaky encoder `lrelu (par · Wpᵀ + bp)`, the leaky encoder
  `lrelu (cld · Wcᵀ + bc)`, and `|par - cld|`. One node gives `((msg · Wrelᵀ + brel) + x · Wrootᵀ) + broot`.
  Sums are finite sums of extended reals in the operands' order; nothing here needs finiteness.
-/
import Idealize.ShloMosaic.PureOps.Ideal
import Idealize.ShloMosaic.Lib.ValueIdx

noncomputable section

namespace Cert.Spec

open Idealize.ShloMosaic

/-- The leaky rectifier with the slope the programs carry as an f32 literal: `x` where `x ≥ 0`, slope times `x` elsewhere. -/
def lrelu (x : EReal) : EReal :=
  Scalar.select (Ideal.cmp .oge x (Ideal.ofBits .f32 0x00000000#32)) x (Ideal.ofBits .f32 0x3C23D70A#32 * x)

/-- Three rows of 128 entries laid end to end. -/
def cat3 (a b c : Fin 128 → EReal) (q : Fin 384) : EReal :=
  if h : q.val < 128 then a ⟨q.val, h⟩
  else if h' : q.val < 256 then b ⟨q.val - 128, by omega⟩
  else c ⟨q.val - 256, by omega⟩

/-- An encoder: the leaky rectifier of `v · WT + b`, at output position `q`. -/
def enc (WT : Fin 128 → Fin 128 → EReal) (b : Fin 128 → EReal) (v : Fin 128 → EReal) (q : Fin 128) : EReal :=
  lrelu ((∑ p : Fin 128, v p * WT p q) + b q)

/-- The features of one edge: the two encodings and the absolute difference of the two rows. -/
def feat (par cld : Fin 128 → EReal) (WpT : Fin 128 → Fin 128 → EReal) (bp : Fin 128 → EReal)
    (WcT : Fin 128 → Fin 128 → EReal) (bc : Fin 128 → EReal) : Fin 384 → EReal :=
  cat3 (enc WpT bp par) (enc WcT bc cld) (fun p => max (par p - cld p) (-(par p - cld p)))

/-- The hidden layer at position `k`: the rectified `feat · W1T + b1`. -/
def hidden (par cld : Fin 128 → EReal) (WpT : Fin 128 → Fin 128 → EReal) (bp : Fin 128 → EReal)
    (WcT : Fin 128 → Fin 128 → EReal) (bc : Fin 128 → EReal) (W1T : Fin 384 → Fin 128 → EReal) (b1 : Fin 128 → EReal)
    (k : Fin 128) : EReal :=
  max ((∑ q : Fin 384, feat par cld WpT bp WcT bc q * W1T q k) + b1 k) (Ideal.ofBits .f32 0x00000000#32)

/-- The edge's gate: the logistic function of the hidden layer's weighted sum plus `b2`. -/
def gate (par cld : Fin 128 → EReal) (WpT : Fin 128 → Fin 128 → EReal) (bp : Fin 128 → EReal)
    (WcT : Fin 128 → Fin 128 → EReal) (bc : Fin 128 → EReal) (W1T : Fin 384 → Fin 128 → EReal) (b1 : Fin 128 → EReal)
    (w2 : Fin 128 → EReal) (b2 : EReal) : EReal :=
  Ideal.logistic ((∑ k : Fin 128, hidden par cld WpT bp WcT bc W1T b1 k * w2 k) + b2)

/-- The edge's weighted message at position `j`: the source row times the gate. -/
def edgeRow (par cld : Fin 128 → EReal) (WpT : Fin 128 → Fin 128 → EReal) (bp : Fin 128 → EReal)
    (WcT : Fin 128 → Fin 128 → EReal) (bc : Fin 128 → EReal) (W1T : Fin 384 → Fin 128 → EReal) (b1 : Fin 128 → EReal)
    (w2 : Fin 128 → EReal) (b2 : EReal) (j : Fin 128) : EReal :=
  par j * gate par cld WpT bp WcT bc W1T b1 w2 b2

/-- A node's new row at position `j` from its aggregated message row and its own row. -/
def combRow (msg x : Fin 128 → EReal) (WrelT : Fin 128 → Fin 128 → EReal) (brel : Fin 128 → EReal)
    (WrootT : Fin 128 → Fin 128 → EReal) (broot : Fin 128 → EReal) (j : Fin 128) : EReal :=
  (((∑ k : Fin 128, msg k * WrelT k j) + brel j) + ∑ k : Fin 128, x k * WrootT k j) + broot j

end Cert.Spec

end
-- ==== Proof.KDefs.lean ====
/-
  The two kernel stages as functions of whole arrays, index by index, on the extended reals.

  An index of a rank-2 array splits into its row and its column. Row `e` of the edge stage is the weighted message of
  row `e` of the two endpoint arrays; row `n` of the node stage is the update of row `n` of the summed messages and of
  the node table. The weights enter already transposed.
-/
import proofs.«405005_j47493748359690_4_alg».proof.KernelIdeal
import proofs.«405005_j47493748359690_4_alg».proof.Proof.Spec
import Idealize.ShloMosaic.Lib.ValueIdx

noncomputable section

namespace Cert.KernelIdeal.Hand

open Idealize.ShloMosaic Idealize.ShloMosaic.ValueIdx Cert.KernelIdeal

/-- The row of an index of a rank-2 array. -/
def row2 {n0 n1 : Nat} (i : (⟨2, ![n0, n1]⟩ : Shape).Idx) : Fin n0 := ⟨(i 0).val, idx2_lt0 i⟩
/-- The column of an index of a rank-2 array. -/
def col2 {n0 n1 : Nat} (i : (⟨2, ![n0, n1]⟩ : Shape).Idx) : Fin n1 := ⟨(i 1).val, idx2_lt1 i⟩

theorem row2_ix2 {n0 n1 : Nat} (r : Fin n0) (j : Fin n1) : row2 (ix2 r j) = r := rfl
theorem col2_ix2 {n0 n1 : Nat} (r : Fin n0) (j : Fin n1) : col2 (ix2 r j) = j := rfl

theorem hz2 : (![0, 0] : Fin 2 → Nat) = fun _ => 0 := funext fun a => by fin_cases a <;> rfl
theorem hz1 : (![0] : Fin 1 → Nat) = fun _ => 0 := funext fun a => by fin_cases a <;> rfl

/-- The edge network as one function of whole arrays: row `e` of the result is the weighted message of row `e` of
    the two endpoint arrays. -/
def Gedge (A B : S500000x128.Idx → EReal) (WpT : S128x128.Idx → EReal) (bp : S128.Idx → EReal)
    (WcT : S128x128.Idx → EReal) (bc : S128.Idx → EReal) (W1T : S384x128.Idx → EReal) (b1 : S128.Idx → EReal)
    (w2 : S1x128.Idx → EReal) (b2 : S1.Idx → EReal) : S500000x128.Idx → EReal :=
  fun i => Cert.Spec.edgeRow (fun p => A (ix2 (row2 i) p)) (fun p => B (ix2 (row2 i) p)) (fun p q => WpT (ix2 p q))
    (fun q => bp (ix1 q)) (fun p q => WcT (ix2 p q)) (fun q => bc (ix1 q)) (fun q k => W1T (ix2 q k)) (fun k => b1 (ix1 k))
    (fun k => w2 (ix2 0 k)) (b2 (ix1 0)) (col2 i)

/-- The node update as one function of whole arrays: row `n` of the result is the update of row `n` of the summed
    messages and of the node table. -/
def Gcomb (A X : S50000x128.Idx → EReal) (WrelT : S128x128.Idx → EReal) (brel : S128.Idx → EReal)
    (WrootT : S128x128.Idx → EReal) (broot : S128.Idx → EReal) : S50000x128.Idx → EReal :=
  fun i => Cert.Spec.combRow (fun k => A (ix2 (row2 i) k)) (fun k => X (ix2 (row2 i) k)) (fun k q => WrelT (ix2 k q))
    (fun q => brel (ix1 q)) (fun k q => WrootT (ix2 k q)) (fun q => broot (ix1 q)) (col2 i)

end Cert.KernelIdeal.Hand

end
-- ==== Proof.LibMatmulPlain.lean ====
/-
  A plain matrix product, read at an index.

  For dimension numbers that contract the left operand's axis 1 with the right operand's axis 0, keep the left operand's
  axis 0 and the right operand's axis 1, and have no batch axis, the product of `l : [M, K]` and `r : [K, N]` into a zero
  accumulator is, at `(p, q)`, the sum over `k < K` of `l (p, k) · r (k, q)` on the extended reals. The contraction
  index set has one axis of extent `K`; the sum over it is re-indexed by its one coordinate.
-/
import Idealize.ShloMosaic.PureOps.Ideal.Laws
import Idealize.ShloMosaic.Lib.ValueIdx

noncomputable section

namespace Cert.Lib.MatmulPlain

open Idealize.ShloMosaic Idealize.ShloMosaic.ValueIdx

variable {M K N : Nat} (d : DotDims ⟨2, ![M, K]⟩ ⟨2, ![K, N]⟩ ⟨2, ![M, N]⟩)

/-- The contraction index set has one axis. -/
theorem contr_rank (hlc : d.lhsContracting = [1]) : d.contr.rank = 1 := by
  rw [d.rank_contr, hlc]; rfl

/-- Its extent is the contracted extent `K`. -/
theorem contr_size (hlc : d.lhsContracting = [1]) :
    d.contr.size ⟨0, by rw [contr_rank d hlc]; exact Nat.one_pos⟩ = K := by
  have key : ∀ (L : List (Fin 2)) (h : L = [1]) (hp : 0 < (Shape.ofList (L.map (⟨2, ![M, K]⟩ : Shape).size)).rank),
      (Shape.ofList (L.map (⟨2, ![M, K]⟩ : Shape).size)).size ⟨0, hp⟩ = K := by
    intro L h hp; subst h; rfl
  exact key _ hlc _

/-- The left operand's row coordinate is the result's row. -/
theorem lhs_0 (hln : d.lhsNonContracting = [0]) (hlb : d.lhsBatch = []) (j : (⟨2, ![M, N]⟩ : Shape).Idx) (k : d.contr.Idx) :
    (d.lhsIdx j k 0).val = (j 0).val := by
  unfold DotDims.lhsIdx
  rw [dif_neg (by rw [hlb]; exact List.not_mem_nil), dif_pos (by rw [hln]; exact List.mem_singleton.mpr rfl)]
  simp only [Fin.val_cast]
  have key : ∀ (p q : Nat) (hp : p < 2) (hq : q < 2), p = q →
      (j ⟨p, hp⟩).val = (j ⟨q, hq⟩).val := fun p q hp hq h => by subst h; rfl
  exact key _ _ _ _ (by simp [hlb, hln])

/-- The left operand's column coordinate is the contraction position. -/
theorem lhs_1 (hlc : d.lhsContracting = [1]) (j : (⟨2, ![M, N]⟩ : Shape).Idx) (k : d.contr.Idx) :
    (d.lhsIdx j k 1).val = (k ⟨0, by rw [contr_rank d hlc]; exact Nat.one_pos⟩).val :=
  d.lhsIdx_val_of_single hlc j k

/-- The right operand's row coordinate is the contraction position. -/
theorem rhs_0 (hlc : d.lhsContracting = [1]) (hrc : d.rhsContracting = [0]) (j : (⟨2, ![M, N]⟩ : Shape).Idx) (k : d.contr.Idx) :
    (d.rhsIdx j k 0).val = (k ⟨0, by rw [contr_rank d hlc]; exact Nat.one_pos⟩).val :=
  d.rhsIdx_val_of_single hrc j k

/-- The right operand's column coordinate is the result's column. -/
theorem rhs_1 (hrn : d.rhsNonContracting = [1]) (hln : d.lhsNonContracting = [0]) (hlb : d.lhsBatch = []) (hrb : d.rhsBatch = [])
    (j : (⟨2, ![M, N]⟩ : Shape).Idx) (k : d.contr.Idx) :
    (d.rhsIdx j k 1).val = (j 1).val := by
  unfold DotDims.rhsIdx
  rw [dif_neg (by rw [hrb]; exact List.not_mem_nil), dif_pos (by rw [hrn]; exact List.mem_singleton.mpr rfl)]
  simp only [Fin.val_cast]
  have key : ∀ (p q : Nat) (hp : p < 2) (hq : q < 2), p = q →
      (j ⟨p, hp⟩).val = (j ⟨q, hq⟩).val := fun p q hp hq h => by subst h; rfl
  exact key _ _ _ _ (by simp [hlb, hln, hrn])

/-- THE PRODUCT AT `(p, q)`: the sum over the contracted coordinate of the operands' products. -/
theorem matmul_zero_apply {φ₁ φ₂ : FTy} (hlc : d.lhsContracting = [1]) (hrc : d.rhsContracting = [0])
    (hln : d.lhsNonContracting = [0]) (hrn : d.rhsNonContracting = [1]) (hlb : d.lhsBatch = []) (hrb : d.rhsBatch = [])
    (prec : Option ContractPrecision) (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q)
      = ∑ k : Fin K, l (ix2 p k) * r (ix2 k q) := by
  rw [Ideal.matmul_constant_zero_apply]
  rw [← Equiv.sum_comp (contrEquiv1 d K (contr_rank d hlc) (contr_size d hlc)).symm]
  refine Finset.sum_congr rfl fun k _ => ?_
  have hk := contrEquiv1_symm_val d K (contr_rank d hlc) (contr_size d hlc) k
  have el : d.lhsIdx (ix2 p q) ((contrEquiv1 d K (contr_rank d hlc) (contr_size d hlc)).symm k) = ix2 p k := by
    funext a; apply Fin.ext
    match a with
    | ⟨0, _⟩ => exact lhs_0 d hln hlb _ _
    | ⟨1, _⟩ => exact (lhs_1 d hlc _ _).trans hk
  have er : d.rhsIdx (ix2 p q) ((contrEquiv1 d K (contr_rank d hlc) (contr_size d hlc)).symm k) = ix2 k q := by
    funext a; apply Fin.ext
    match a with
    | ⟨0, _⟩ => exact (rhs_0 d hlc hrc _ _).trans hk
    | ⟨1, _⟩ => exact rhs_1 d hrn hln hlb hrb _ _
  rw [el, er]

end Cert.Lib.MatmulPlain

end
-- ==== Proof.KBlocksLib.lean ====
/-
  Readings at an index shared by the four kernel bodies, at the ideal values.

  The two matrix products of the program (a [5000,128] block by a [128,128] matrix, and a [5000,384] block by a
  [384,128] matrix, each into a zero accumulator) are plain sums over the contracted coordinate. A vector of 128
  entries viewed as one row and spread over 5000 rows reads its entry at the column. A lane sum of a [5000,128] block
  is, at row r, the sum over the 128 columns. A vector viewed as a column, one entry viewed as a column of 5000, and
  a column spread over 128 lanes each read the one entry their row names.
-/
import proofs.«405005_j47493748359690_4_alg».proof.Proof.Gen.KernelIdeal
import proofs.«405005_j47493748359690_4_alg».proof.Proof.LibMatmulPlain
import Idealize.ShloMosaic.Lib.ValueLayout
import Idealize.ShloMosaic.PureOps.Ideal.Laws

noncomputable section

namespace Cert.KernelIdeal.Hand

open Idealize.ShloMosaic Idealize.ShloMosaic.ValueIdx Cert.KernelIdeal Cert.KernelIdeal.Gen

/-! ## The two matrix products -/

/-- A [5000,128] block times a [128,128] matrix into zero, at (p, q): the sum over k of l(p,k) · r(k,q). -/
theorem mm128_apply {φ₁ φ₂ : FTy} (prec : Option ContractPrecision) (l : FVec Ideal S5000x128 φ₁) (r : FVec Ideal S128x128 φ₂)
    (p : Fin 5000) (q : Fin 128) :
    matmul dot_S5000x128_S128x128_S5000x128_1_0_0_1_n_n prec l r (constant S5000x128 .f32 0x00000000#32) (ix2 p q)
      = ∑ k : Fin 128, l (ix2 p k) * r (ix2 k q) :=
  Cert.Lib.MatmulPlain.matmul_zero_apply dot_S5000x128_S128x128_S5000x128_1_0_0_1_n_n rfl rfl rfl rfl rfl rfl prec l r p q

/-- A [5000,384] block times a [384,128] matrix into zero, at (p, q): the sum over k of l(p,k) · r(k,q). -/
theorem mm384_apply {φ₁ φ₂ : FTy} (prec : Option ContractPrecision) (l : FVec Ideal S5000x384 φ₁) (r : FVec Ideal S384x128 φ₂)
    (p : Fin 5000) (q : Fin 128) :
    matmul dot_S5000x384_S384x128_S5000x128_1_0_0_1_n_n prec l r (constant S5000x128 .f32 0x00000000#32) (ix2 p q)
      = ∑ k : Fin 384, l (ix2 p k) * r (ix2 k q) :=
  Cert.Lib.MatmulPlain.matmul_zero_apply dot_S5000x384_S384x128_S5000x128_1_0_0_1_n_n rfl rfl rfl rfl rfl rfl prec l r p q

/-! ## Rows and columns -/

section Layout
variable {α : Type}

/-- A vector of b entries viewed as one row and spread over a rows reads, at (p, c), its entry c. -/
theorem rowOf_apply {a b : ℕ} (v : (⟨1, ![b]⟩ : Shape).Idx → α) (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ v h1) h2 (ix2 p c) = v (ix1 c) :=
  (broadcastTo_1b_ab_apply _ h2 p c).trans (shapeCast_a_1a_apply v h1 0 c)

/-- A vector of a entries viewed as a column reads, at (i, u), its entry i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column spread over b lanes reads, at (p, c), the column's entry p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- One entry viewed as a [1,1] array and spread down a rows reads, at (p, u), that entry. -/
theorem colOfOne_apply {a : ℕ} (v : (⟨1, ![1]⟩ : Shape).Idx → α) (h1 : (⟨1, ![1]⟩ : Shape).ShapeCasts ⟨2, ![1, 1]⟩)
    (h2 : (⟨2, ![1, 1]⟩ : Shape).Broadcasts ⟨2, ![a, 1]⟩) (p : Fin a) (u : Fin 1) :
    broadcastTo ⟨2, ![a, 1]⟩ (shapeCast ⟨2, ![1, 1]⟩ v h1) h2 (ix2 p u) = v (ix1 (0 : Fin 1)) := by
  obtain rfl : u = 0 := Subsingleton.elim _ _
  exact (broadcastTo_1b_ab_apply _ h2 p 0).trans (shapeCast_a_1a_apply v h1 0 0)

end Layout

/-! ## The lane sum -/

/-- The sum of a [5000,128] block along its lanes, at row r: the sum over the 128 columns of the block's entries. -/
theorem laneSum_apply (src : FVec Ideal S5000x128 .f32) (acc : BitVec 32) (h : S5000x128.Reduces [1] S5000)
    (hφ : FKind.Formats .f32) (hacc : acc = FKind.add.neutral .f32 hφ) (r : Fin 5000) :
    multiReduction (F := Ideal) .add [1] S5000 src acc h hφ hacc (ix1 r) = ∑ k : Fin 128, src (ix2 r k) := by
  refine (Ideal.multiReduction_add_single src acc h hφ hacc (ix1 r)).trans ?_
  show ∑ k : Fin 128, src (h.lift (ix1 r) k) = _
  refine Finset.sum_congr rfl fun k _ => congrArg src ?_
  funext a
  match a with
  | ⟨0, _⟩ => exact Fin.ext rfl
  | ⟨1, _⟩ => exact Fin.ext rfl

end Cert.KernelIdeal.Hand

end
-- ==== Proof.LibCat3.lean ====
/-
  Three pieces of one width laid side by side, read at an index.

  Three arrays of shape [M, 128] concatenated along axis 1 give an array of shape [M, 384]; at row `r` and column `q` it
  holds the first piece's entry (r, q) when q < 128, the second's entry (r, q − 128) when 128 ≤ q < 256, and the
  third's entry (r, q − 256) otherwise: the pieces before the one that holds column q have 0, 128 and 256 columns.
-/
import Idealize.ShloMosaic.Lib.Pipeline.Value
import Idealize.ShloMosaic.Lib.ValueIdx

noncomputable section

namespace Cert.Lib.Cat3

open Idealize.ShloMosaic Idealize.ShloMosaic.ValueIdx

variable {α : Type} {M : Nat}

/-- The three-piece concatenation along axis 1 at `(r, q)`, by the range column `q` falls in. -/
theorem concat3_apply (a b c : (⟨2, ![M, 128]⟩ : Shape).Idx → α)
    (h : Shape.Concatenates (([⟨⟨2, ![M, 128]⟩, a⟩, ⟨⟨2, ![M, 128]⟩, b⟩, ⟨⟨2, ![M, 128]⟩, c⟩] :
      List ((s : Shape) × (s.Idx → α))).map (·.1)) ⟨2, ![M, 384]⟩ 1)
    (r : Fin M) (q : Fin 384) :
    concatenate ⟨2, ![M, 384]⟩ 1 [⟨⟨2, ![M, 128]⟩, a⟩, ⟨⟨2, ![M, 128]⟩, b⟩, ⟨⟨2, ![M, 128]⟩, c⟩] h (ix2 r q)
      = if h1 : q.val < 128 then a (ix2 r ⟨q.val, h1⟩)
        else if h2 : q.val < 256 then b (ix2 r ⟨q.val - 128, by omega⟩)
        else c (ix2 r ⟨q.val - 256, by omega⟩) := by
  have hq := q.isLt
  by_cases h1 : q.val < 128
  · rw [dif_pos h1]
    refine concatenate_apply_piece (1 : Fin 2) _ h (ix2 r q) 0 (by show (0 : Nat) < 3; omega) ⟨2, ![M, 128]⟩ a rfl rfl 0 rfl
      (ix2 r ⟨q.val, h1⟩) ?_ ?_
    · intro d hd
      match d with
      | ⟨0, _⟩ => rfl
      | ⟨1, _⟩ => exact absurd rfl hd
    · show 0 + q.val = q.val; omega
  · rw [dif_neg h1]
    by_cases h2 : q.val < 256
    · rw [dif_pos h2]
      refine concatenate_apply_piece (1 : Fin 2) _ h (ix2 r q) 1 (by show (1 : Nat) < 3; omega) ⟨2, ![M, 128]⟩ b rfl rfl 128 rfl
        (ix2 r ⟨q.val - 128, by omega⟩) ?_ ?_
      · intro d hd
        match d with
        | ⟨0, _⟩ => rfl
        | ⟨1, _⟩ => exact absurd rfl hd
      · show 128 + (q.val - 128) = q.val; omega
    · rw [dif_neg h2]
      refine concatenate_apply_piece (1 : Fin 2) _ h (ix2 r q) 2 (by show (2 : Nat) < 3; omega) ⟨2, ![M, 128]⟩ c rfl rfl 256 rfl
        (ix2 r ⟨q.val - 256, by omega⟩) ?_ ?_
      · intro d hd
        match d with
        | ⟨0, _⟩ => rfl
        | ⟨1, _⟩ => exact absurd rfl hd
      · show 256 + (q.val - 256) = q.val; omega

end Cert.Lib.Cat3

end
-- ==== Proof.KBlocksEdge.lean ====
/-
  The edge network read at an index, at the ideal values.

  On a block of 5000 edges the body encodes the source rows and the destination rows (a linear layer and the leaky
  rectifier each), lays the two encodings and |par − cld| side by side as 384 features, applies the hidden layer
  (a linear layer on the features, rectified at zero), weighs the hidden row by w2 and sums it along the lanes, adds
  b2, takes the logistic function, and multiplies the source rows by that gate. Each stage is read at an index over
  variables; the body at row r and column j is then the specification's row formula on row r of the two blocks.
  The second edge body has the same text.
-/
import proofs.«405005_j47493748359690_4_alg».proof.Proof.Gen.KernelIdeal.Skeleton
import proofs.«405005_j47493748359690_4_alg».proof.Proof.Spec
import proofs.«405005_j47493748359690_4_alg».proof.Proof.KBlocksLib
import proofs.«405005_j47493748359690_4_alg».proof.Proof.LibCat3

noncomputable section

namespace Cert.KernelIdeal.Hand

open Idealize.ShloMosaic Idealize.ShloMosaic.ValueIdx Cert.KernelIdeal Cert.KernelIdeal.Gen

/-! ## The stages, over variables -/

/-- A linear layer on a block: at (r, q), row r times column q of the matrix, plus the bias entry q. -/
theorem linear_apply (prec : Option ContractPrecision) (x : FVec Ideal S5000x128 .f32) (w : FVec Ideal S128x128 .f32)
    (b : Vec Ideal S128 .f32) (h1 : S128.ShapeCasts S1x128) (h2 : S1x128.Broadcasts S5000x128) (r : Fin 5000) (q : Fin 128) :
    (addf (matmul dot_S5000x128_S128x128_S5000x128_1_0_0_1_n_n prec x w (constant S5000x128 .f32 0x00000000#32)) (broadcastTo S5000x128 (shapeCast S1x128 b h1) h2)) (ix2 r q)
      = (∑ p : Fin 128, x (ix2 r p) * w (ix2 p q)) + b (ix1 q) :=
  congrArg₂ (· + ·) (mm128_apply prec x w r q) (rowOf_apply b h1 h2 r q)

/-- The leaky rectifier of a block, entry by entry. -/
theorem leaky_apply (v : FVec Ideal S5000x128 .f32) (i : S5000x128.Idx) :
    (select (cmpf .oge v (broadcast S5000x128 (Scalar.ofBits (F := Ideal) .f32 0x00000000#32))) v (mulf (broadcast S5000x128 (Scalar.ofBits (F := Ideal) .f32 0x3C23D70A#32)) v)) i = Cert.Spec.lrelu (v i) := rfl

/-- An encoder on a block: at (r, q) the specification's encoder of row r. -/
theorem encBlock_apply (prec : Option ContractPrecision) (x : FVec Ideal S5000x128 .f32) (w : FVec Ideal S128x128 .f32)
    (b : Vec Ideal S128 .f32) (h1 : S128.ShapeCasts S1x128) (h2 : S1x128.Broadcasts S5000x128) (r : Fin 5000) (q : Fin 128) :
    (select (cmpf .oge (addf (matmul dot_S5000x128_S128x128_S5000x128_1_0_0_1_n_n prec x w (constant S5000x128 .f32 0x00000000#32)) (broadcastTo S5000x128 (shapeCast S1x128 b h1) h2)) (broadcast S5000x128 (Scalar.ofBits (F := Ideal) .f32 0x00000000#32))) (addf (matmul dot_S5000x128_S128x128_S5000x128_1_0_0_1_n_n prec x w (constant S5000x128 .f32 0x00000000#32)) (broadcastTo S5000x128 (shapeCast S1x128 b h1) h2)) (mulf (broadcast S5000x128 (Scalar.ofBits (F := Ideal) .f32 0x3C23D70A#32)) (addf (matmul dot_S5000x128_S128x128_S5000x128_1_0_0_1_n_n prec x w (constant S5000x128 .f32 0x00000000#32)) (broadcastTo S5000x128 (shapeCast S1x128 b h1) h2)))) (ix2 r q)
      = Cert.Spec.enc (fun p q => w (ix2 p q)) (fun q => b (ix1 q)) (fun p => x (ix2 r p)) q :=
  (leaky_apply _ _).trans (congrArg Cert.Spec.lrelu (linear_apply prec x w b h1 h2 r q))

/-- Three blocks laid side by side, at (r, q): the three rows laid end to end. -/
theorem catBlock_apply (A B C : FVec Ideal S5000x128 .f32)
    (hc : Shape.Concatenates [S5000x128, S5000x128, S5000x128] S5000x384 1) (r : Fin 5000) (q : Fin 384)
    (a b c : Fin 128 → EReal) (hA : ∀ p, A (ix2 r p) = a p) (hB : ∀ p, B (ix2 r p) = b p) (hC : ∀ p, C (ix2 r p) = c p) :
    concatenate S5000x384 1 [⟨S5000x128, A⟩, ⟨S5000x128, B⟩, ⟨S5000x128, C⟩] hc (ix2 r q) = Cert.Spec.cat3 a b c q := by
  refine (Cert.Lib.Cat3.concat3_apply A B C hc r q).trans ?_
  unfold Cert.Spec.cat3
  by_cases h1 : q.val < 128
  · rw [dif_pos h1, dif_pos h1]; exact hA _
  · rw [dif_neg h1, dif_neg h1]
    by_cases h2 : q.val < 256
    · rw [dif_pos h2, dif_pos h2]; exact hB _
    · rw [dif_neg h2, dif_neg h2]; exact hC _

/-- The hidden layer before its rectifier: at (r, k), the 384 features of row r times column k of the matrix, plus
    the bias entry k. The features enter the product in the narrower format, which changes nothing here. -/
theorem hiddenPre_apply (A B C : FVec Ideal S5000x128 .f32) (w : FVec Ideal S384x128 .bf16) (b7 : Vec Ideal S128 .f32)
    (hc : Shape.Concatenates [S5000x128, S5000x128, S5000x128] S5000x384 1) (hb : FTy.bits .bf16 < FTy.bits .f32)
    (h1 : S128.ShapeCasts S1x128) (h2 : S1x128.Broadcasts S5000x128) (r : Fin 5000) (k : Fin 128)
    (a b c : Fin 128 → EReal) (hA : ∀ p, A (ix2 r p) = a p) (hB : ∀ p, B (ix2 r p) = b p) (hC : ∀ p, C (ix2 r p) = c p) :
    (addf (matmul dot_S5000x384_S384x128_S5000x128_1_0_0_1_n_n none
        (truncf .bf16 (concatenate S5000x384 1 [⟨S5000x128, A⟩, ⟨S5000x128, B⟩, ⟨S5000x128, C⟩] hc) hb) w
        (constant S5000x128 .f32 0x00000000#32)) (broadcastTo S5000x128 (shapeCast S1x128 b7 h1) h2)) (ix2 r k)
      = (∑ q : Fin 384, Cert.Spec.cat3 a b c q * w (ix2 q k)) + b7 (ix1 k) :=
  congrArg₂ (· + ·)
    ((mm384_apply none _ w r k).trans (Finset.sum_congr rfl fun q _ =>
      congrArg (· * w (ix2 q k)) (catBlock_apply A B C hc r q a b c hA hB hC)))
    (rowOf_apply b7 h1 h2 r k)

/-- The hidden row rectified at zero, weighed by the row w2 and summed along the lanes, at row r. -/
theorem weighted_apply (v38 : FVec Ideal S5000x128 .f32) (v41 : Vec Ideal S1x128 .f32) (hbc : S1x128.Broadcasts S5000x128)
    (hr : S5000x128.Reduces [1] S5000) (hφ : FKind.Formats .f32) (hacc : (0x00000000#32 : BitVec 32) = FKind.add.neutral .f32 hφ)
    (r : Fin 5000) :
    multiReduction (F := Ideal) .add [1] S5000
        (mulf (maximumf v38 (broadcast S5000x128 (Scalar.ofBits (F := Ideal) .f32 0x00000000#32))) (broadcastTo S5000x128 v41 hbc))
        0x00000000#32 hr hφ hacc (ix1 r)
      = ∑ k : Fin 128, max (v38 (ix2 r k)) (Ideal.ofBits .f32 0x00000000#32) * v41 (ix2 (0 : Fin 1) k) := by
  refine (laneSum_apply _ _ hr hφ hacc r).trans (Finset.sum_congr rfl fun k _ => ?_)
  show max (v38 (ix2 r k)) (Ideal.ofBits .f32 0x00000000#32) * broadcastTo S5000x128 v41 hbc (ix2 r k) = _
  rw [broadcastTo_1b_ab_apply]

/-- The gate as a column: the logistic function of the lane sums plus the one entry b2, at row r. -/
theorem gateCol_apply (s : FVec Ideal S5000 .f32) (c : Vec Ideal S1 .f32) (h1 : S5000.ShapeCasts S5000x1)
    (h2 : S1.ShapeCasts S1x1) (h3 : S1x1.Broadcasts S5000x1) (r : Fin 5000) (u : Fin 1) :
    logistic (addf (shapeCast S5000x1 s h1) (broadcastTo S5000x1 (shapeCast S1x1 c h2) h3)) (ix2 r u)
      = Ideal.logistic (s (ix1 r) + c (ix1 (0 : Fin 1))) := by
  show Ideal.logistic (shapeCast S5000x1 s h1 (ix2 r u) + broadcastTo S5000x1 (shapeCast S1x1 c h2) h3 (ix2 r u)) = _
  rw [shapeCast_a_a1_apply, colOfOne_apply]

/-- The source block times the gate column spread over the lanes, narrowed (which changes nothing here), at (r, j). -/
theorem gateMul_apply (v1 : FVec Ideal S5000x128 .f32) (g : FVec Ideal S5000x1 .f32) (hbc : S5000x1.Broadcasts S5000x128)
    (hb : FTy.bits .bf16 < FTy.bits .f32) (r : Fin 5000) (j : Fin 128) :
    truncf .bf16 (mulf v1 (broadcastTo S5000x128 g hbc)) hb (ix2 r j) = v1 (ix2 r j) * g (ix2 r (0 : Fin 1)) := by
  rw [truncf_apply, mulf_apply, broadcastTo_a1_ab_apply]

/-! ## The first edge body -/

/-- The source block enters unchanged. -/
theorem pay2_eq (x0 : Vec Ideal S5000x128 .f32) : k0_pay2 x0 = x0 := by
  unfold k0_pay2
  exact shapeCast_self _ _

/-- The gated product at (r, j), from the hidden layer's block before its rectifier. -/
theorem pay1_apply (v1 v38 : FVec Ideal S5000x128 .f32) (v41 : Vec Ideal S1x128 .f32) (v46 : Vec Ideal S1 .f32)
    (r : Fin 5000) (j : Fin 128) :
    k0_pay1 v1 v38 v41 v46 (ix2 r j)
      = v1 (ix2 r j) * Ideal.logistic ((∑ k : Fin 128, max (v38 (ix2 r k)) (Ideal.ofBits .f32 0x00000000#32) * v41 (ix2 (0 : Fin 1) k))
          + v46 (ix1 (0 : Fin 1))) := by
  unfold k0_pay1
  exact (gateMul_apply v1 _ _ _ r j).trans (congrArg (v1 (ix2 r j) * ·)
    ((gateCol_apply _ v46 _ _ _ r 0).trans
      (congrArg (fun s => Ideal.logistic (s + v46 (ix1 (0 : Fin 1)))) (weighted_apply v38 v41 _ _ _ _ r))))

/-- The hidden layer's block before its rectifier at (r, k). -/
theorem pay3_apply (x0 x1 : Vec Ideal S5000x128 .f32) (x2 : Vec Ideal S128x128 .f32) (x3 : Vec Ideal S128 .f32)
    (x4 : Vec Ideal S128x128 .f32) (x5 : Vec Ideal S128 .f32) (x6 : Vec Ideal S384x128 .bf16) (x7 : Vec Ideal S128 .f32)
    (r : Fin 5000) (k : Fin 128) :
    k0_pay3 x0 x1 x2 x3 x4 x5 x6 x7 (ix2 r k)
      = (∑ q : Fin 384, Cert.Spec.feat (fun p => x0 (ix2 r p)) (fun p => x1 (ix2 r p)) (fun p q => x2 (ix2 p q))
            (fun q => x3 (ix1 q)) (fun p q => x4 (ix2 p q)) (fun q => x5 (ix1 q)) q * x6 (ix2 q k)) + x7 (ix1 k) := by
  unfold k0_pay3 Cert.Spec.feat
  rw [pay2_eq, shapeCast_self x1, shapeCast_self x2, shapeCast_self x4, shapeCast_self x6]
  exact hiddenPre_apply _ _ _ x6 x7 _ _ _ _ r k _ _ _
    (fun p => encBlock_apply _ x0 x2 x3 _ _ r p) (fun p => encBlock_apply _ x1 x4 x5 _ _ r p) (fun _ => rfl)

/-- THE FIRST EDGE BODY at (r, j): the specification's weighted message of row r. -/
theorem edge_pay0_apply (x0 x1 : Vec Ideal S5000x128 .f32) (x2 : Vec Ideal S128x128 .f32) (x3 : Vec Ideal S128 .f32)
    (x4 : Vec Ideal S128x128 .f32) (x5 : Vec Ideal S128 .f32) (x6 : Vec Ideal S384x128 .bf16) (x7 : Vec Ideal S128 .f32)
    (x8 : Vec Ideal S1x128 .f32) (x9 : Vec Ideal S1 .f32) (r : Fin 5000) (j : Fin 128) :
    k0_pay1 (k0_pay2 x0) (k0_pay3 x0 x1 x2 x3 x4 x5 x6 x7) x8 x9 (ix2 r j)
      = Cert.Spec.edgeRow (fun p => x0 (ix2 r p)) (fun p => x1 (ix2 r p)) (fun p q => x2 (ix2 p q)) (fun q => x3 (ix1 q))
          (fun p q => x4 (ix2 p q)) (fun q => x5 (ix1 q)) (fun q k => x6 (ix2 q k)) (fun k => x7 (ix1 k))
          (fun k => x8 (ix2 0 k)) (x9 (ix1 0)) j := by
  unfold Cert.Spec.edgeRow Cert.Spec.gate Cert.Spec.hidden
  refine (pay1_apply _ _ x8 x9 r j).trans ?_
  rw [pay2_eq]
  refine congrArg (fun s => x0 (ix2 r j) * Ideal.logistic (s + x9 (ix1 (0 : Fin 1)))) ?_
  exact Finset.sum_congr rfl fun k _ =>
    congrArg (fun h => max h (Ideal.ofBits .f32 0x00000000#32) * x8 (ix2 (0 : Fin 1) k)) (pay3_apply x0 x1 x2 x3 x4 x5 x6 x7 r k)

/-! ## The second edge body -/

/-- The two edge bodies are one function, piece by piece. -/
theorem k1_pay1_eq : @k1_pay1 = @k0_pay1 := rfl
theorem k1_pay2_eq : @k1_pay2 = @k0_pay2 := rfl
theorem k1_pay3_eq : @k1_pay3 = @k0_pay3 := rfl

/-- THE SECOND EDGE BODY at (r, j). -/
theorem edge_pay1_apply (x0 x1 : Vec Ideal S5000x128 .f32) (x2 : Vec Ideal S128x128 .f32) (x3 : Vec Ideal S128 .f32)
    (x4 : Vec Ideal S128x128 .f32) (x5 : Vec Ideal S128 .f32) (x6 : Vec Ideal S384x128 .bf16) (x7 : Vec Ideal S128 .f32)
    (x8 : Vec Ideal S1x128 .f32) (x9 : Vec Ideal S1 .f32) (r : Fin 5000) (j : Fin 128) :
    k1_pay1 (k1_pay2 x0) (k1_pay3 x0 x1 x2 x3 x4 x5 x6 x7) x8 x9 (ix2 r j)
      = Cert.Spec.edgeRow (fun p => x0 (ix2 r p)) (fun p => x1 (ix2 r p)) (fun p q => x2 (ix2 p q)) (fun q => x3 (ix1 q))
          (fun p q => x4 (ix2 p q)) (fun q => x5 (ix1 q)) (fun q k => x6 (ix2 q k)) (fun k => x7 (ix1 k))
          (fun k => x8 (ix2 0 k)) (x9 (ix1 0)) j := by
  rw [k1_pay1_eq, k1_pay2_eq, k1_pay3_eq]
  exact edge_pay0_apply x0 x1 x2 x3 x4 x5 x6 x7 x8 x9 r j

end Cert.KernelIdeal.Hand

end
-- ==== Proof.KEdge0.lean ====
/-
  Region 0 (the edge network for the first edge type) in closed form.

  At grid point `t` the region reads rows `5000 t … 5000 t + 4999` of the two endpoint arrays and the eight weight and
  bias arrays whole; what it writes back is those rows of the edge network of the arrays it found. The hundred blocks
  tile the output array, so after the region the output array is the edge network, whole.
-/
import proofs.«405005_j47493748359690_4_alg».proof.Proof.KernelIdealFrame
import proofs.«405005_j47493748359690_4_alg».proof.Proof.KDefs
import proofs.«405005_j47493748359690_4_alg».proof.Proof.KBlocksEdge
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.ValueIdx Cert.KernelIdeal Cert.KernelIdeal.Gen Cert.KernelIdeal.GenP
open Idealize.SL.Sem
open Idealize.ShloMosaic.Pipeline (Dat Cfg Window)

variable (V : (c : Dev nD) → (b : Ref sig .tc) → Buf (Elt Ideal) ((c : Thread nD τ).loc b))

/-- The printed index maps of region 0, decided over its hundred grid points. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = 0 ∧ win0_6.index t (1 : Fin 2) = 0
    ∧ win0_7.index t (0 : Fin 1) = 0
    ∧ win0_8.index t (0 : Fin 2) = 0 ∧ win0_8.index t (1 : Fin 2) = 0
    ∧ win0_9.index t (0 : Fin 1) = 0
    ∧ win0_10.index t (0 : Fin 2) = t.val ∧ win0_10.index t (1 : Fin 2) = 0 :=
  (by decide +kernel : ∀ t : Fin grid0.N, _)

/-! Each input window's block at a point, read at the array index its rectangle names. -/

theorem rd0_0 (c : Dev nD) (t : Fin cfg0.N) (r : Fin 5000) (k : Fin 128) (e : Fin 500000) (he : e.val = t.val * 5000 + r.val) :
    iblk0 V c 0 t (ix2 r k) = V c main_v22 (ix2 e k) := by
  obtain ⟨e00, e01, e10, e11, -⟩ := idx_facts0 t
  show V c main_v22 (((cfg0.win 0).blk t).view.emb (ix2 r k)) = _
  refine congrArg (V c main_v22) ?_
  funext a; apply Fin.ext
  match a with
  | ⟨0, _⟩ => show win0_0.index t (0 : Fin 2) * 5000 + 1 * r.val = e.val; omega
  | ⟨1, _⟩ => show win0_0.index t (1 : Fin 2) * 128 + 1 * k.val = k.val; omega

theorem rd0_1 (c : Dev nD) (t : Fin cfg0.N) (r : Fin 5000) (k : Fin 128) (e : Fin 500000) (he : e.val = t.val * 5000 + r.val) :
    iblk0 V c 1 t (ix2 r k) = V c main_v29 (ix2 e k) := by
  obtain ⟨e00, e01, e10, e11, -⟩ := idx_facts0 t
  show V c main_v29 (((cfg0.win 1).blk t).view.emb (ix2 r k)) = _
  refine congrArg (V c main_v29) ?_
  funext a; apply Fin.ext
  match a with
  | ⟨0, _⟩ => show win0_1.index t (0 : Fin 2) * 5000 + 1 * r.val = e.val; omega
  | ⟨1, _⟩ => show win0_1.index t (1 : Fin 2) * 128 + 1 * k.val = k.val; omega

theorem rd0_2 (c : Dev nD) (t : Fin cfg0.N) (p : Fin 128) (q : Fin 128) :
    iblk0 V c 2 t (ix2 p q) = V c main_v0 (ix2 p q) := by
  obtain ⟨-, -, -, -, e20, e21, -, e40, e41, -, e60, e61, -, e80, e81, -⟩ := idx_facts0 t
  show V c main_v0 (((cfg0.win 2).blk t).view.emb (ix2 p q)) = _
  refine congrArg (V c main_v0) ?_
  funext a; apply Fin.ext
  match a with
  | ⟨0, _⟩ => show win0_2.index t (0 : Fin 2) * 128 + 1 * p.val = p.val; omega
  | ⟨1, _⟩ => show win0_2.index t (1 : Fin 2) * 128 + 1 * q.val = q.val; omega

theorem rd0_3 (c : Dev nD) (t : Fin cfg0.N) (q : Fin 128) :
    iblk0 V c 3 t (ix1 q) = V c main_arg3 (ix1 q) := by
  obtain ⟨-, -, -, -, -, -, e30, -, -, e50, -, -, e70, -, -, e90, -⟩ := idx_facts0 t
  show V c main_arg3 (((cfg0.win 3).blk t).view.emb (ix1 q)) = _
  refine congrArg (V c main_arg3) ?_
  funext a; apply Fin.ext
  match a with
  | ⟨0, _⟩ => show win0_3.index t (0 : Fin 1) * 128 + 1 * q.val = q.val; omega

theorem rd0_4 (c : Dev nD) (t : Fin cfg0.N) (p : Fin 128) (q : Fin 128) :
    iblk0 V c 4 t (ix2 p q) = V c main_v1 (ix2 p q) := by
  obtain ⟨-, -, -, -, e20, e21, -, e40, e41, -, e60, e61, -, e80, e81, -⟩ := idx_facts0 t
  show V c main_v1 (((cfg0.win 4).blk t).view.emb (ix2 p q)) = _
  refine congrArg (V c main_v1) ?_
  funext a; apply Fin.ext
  match a with
  | ⟨0, _⟩ => show win0_4.index t (0 : Fin 2) * 128 + 1 * p.val = p.val; omega
  | ⟨1, _⟩ => show win0_4.index t (1 : Fin 2) * 128 + 1 * q.val = q.val; omega

theorem rd0_5 (c : Dev nD) (t : Fin cfg0.N) (q : Fin 128) :
    iblk0 V c 5 t (ix1 q) = V c main_arg5 (ix1 q) := by
  obtain ⟨-, -, -, -, -, -, e30, -, -, e50, -, -, e70, -, -, e90, -⟩ := idx_facts0 t
  show V c main_arg5 (((cfg0.win 5).blk t).view.emb (ix1 q)) = _
  refine congrArg (V c main_arg5) ?_
  funext a; apply Fin.ext
  match a with
  | ⟨0, _⟩ => show win0_5.index t (0 : Fin 1) * 128 + 1 * q.val = q.val; omega

theorem rd0_6 (c : Dev nD) (t : Fin cfg0.N) (p : Fin 384) (q : Fin 128) :
    iblk0 V c 6 t (ix2 p q) = V c main_v3 (ix2 p q) := by
  obtain ⟨-, -, -, -, e20, e21, -, e40, e41, -, e60, e61, -, e80, e81, -⟩ := idx_facts0 t
  show V c main_v3 (((cfg0.win 6).blk t).view.emb (ix2 p q)) = _
  refine congrArg (V c main_v3) ?_
  funext a; apply Fin.ext
  match a with
  | ⟨0, _⟩ => show win0_6.index t (0 : Fin 2) * 384 + 1 * p.val = p.val; omega
  | ⟨1, _⟩ => show win0_6.index t (1 : Fin 2) * 128 + 1 * q.val = q.val; omega

theorem rd0_7 (c : Dev nD) (t : Fin cfg0.N) (q : Fin 128) :
    iblk0 V c 7 t (ix1 q) = V c main_arg7 (ix1 q) := by
  obtain ⟨-, -, -, -, -, -, e30, -, -, e50, -, -, e70, -, -, e90, -⟩ := idx_facts0 t
  show V c main_arg7 (((cfg0.win 7).blk t).view.emb (ix1 q)) = _
  refine congrArg (V c main_arg7) ?_
  funext a; apply Fin.ext
  match a with
  | ⟨0, _⟩ => show win0_7.index t (0 : Fin 1) * 128 + 1 * q.val = q.val; omega

theorem rd0_8 (c : Dev nD) (t : Fin cfg0.N) (p : Fin 1) (q : Fin 128) :
    iblk0 V c 8 t (ix2 p q) = V c main_arg8 (ix2 p q) := by
  obtain ⟨-, -, -, -, e20, e21, -, e40, e41, -, e60, e61, -, e80, e81, -⟩ := idx_facts0 t
  show V c main_arg8 (((cfg0.win 8).blk t).view.emb (ix2 p q)) = _
  refine congrArg (V c main_arg8) ?_
  funext a; apply Fin.ext
  match a with
  | ⟨0, _⟩ => show win0_8.index t (0 : Fin 2) * 1 + 1 * p.val = p.val; omega
  | ⟨1, _⟩ => show win0_8.index t (1 : Fin 2) * 128 + 1 * q.val = q.val; omega

theorem rd0_9 (c : Dev nD) (t : Fin cfg0.N) (q : Fin 1) :
    iblk0 V c 9 t (ix1 q) = V c main_arg9 (ix1 q) := by
  obtain ⟨-, -, -, -, -, -, e30, -, -, e50, -, -, e70, -, -, e90, -⟩ := idx_facts0 t
  show V c main_arg9 (((cfg0.win 9).blk t).view.emb (ix1 q)) = _
  refine congrArg (V c main_arg9) ?_
  funext a; apply Fin.ext
  match a with
  | ⟨0, _⟩ => show win0_9.index t (0 : Fin 1) * 1 + 1 * q.val = q.val; omega

/-- What point `t` writes back is block `t` of the edge network of the arrays the region finds. -/
theorem flushed0_eq (c : Dev nD) (t : Fin cfg0.N) :
    (dat0 V c).flushed 10 t = ((cfg0.win 10).blk t).view.read (Elt Ideal)
      (Gedge (V c main_v22) (V c main_v29) (V c main_v0) (V c main_arg3) (V c main_v1) (V c main_arg5) (V c main_v3)
        (V c main_arg7) (V c main_arg8) (V c main_arg9)) := by
  show (cfg0.win 10).cut (grid0.coords t) ((dat0 V c).after 10 t) = _
  rw [after0_10]
  unfold out0_10
  rw [View.canon_unit_zero hz2]
  simp only [View.ld_unit_zero (S := S5000x128) hz2, View.ld_unit_zero (S := S128x128) hz2, View.ld_unit_zero (S := S128) hz1,
    View.ld_unit_zero (S := S384x128) hz2, View.ld_unit_zero (S := S1x128) hz2, View.ld_unit_zero (S := S1) hz1]
  funext y
  obtain ⟨r, j, rfl⟩ : ∃ (r : Fin 5000) (j : Fin 128), y = ix2 r j := ⟨y 0, y 1, eq_ix2 y⟩
  show k0_pay1 (k0_pay2 (iblk0 V c 0 t)) (k0_pay3 (iblk0 V c 0 t) (iblk0 V c 1 t) (iblk0 V c 2 t) (iblk0 V c 3 t) (iblk0 V c 4 t) (iblk0 V c 5 t) (iblk0 V c 6 t) (iblk0 V c 7 t)) (iblk0 V c 8 t) (iblk0 V c 9 t) (ix2 r j)
    = Gedge (V c main_v22) (V c main_v29) (V c main_v0) (V c main_arg3) (V c main_v1) (V c main_arg5) (V c main_v3)
        (V c main_arg7) (V c main_arg8) (V c main_arg9) (((cfg0.win 10).blk t).view.emb (ix2 r j))
  refine (edge_pay0_apply (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) r j).trans ?_
  obtain ⟨-, -, -, -, -, -, -, -, -, -, -, -, -, -, -, -, eA0, eA1⟩ := idx_facts0 t
  have hcol : col2 (((cfg0.win 10).blk t).view.emb (ix2 r j)) = j :=
    Fin.ext (show win0_10.index t (1 : Fin 2) * 128 + 1 * j.val = j.val by omega)
  have hrow : (row2 (((cfg0.win 10).blk t).view.emb (ix2 r j))).val = t.val * 5000 + r.val :=
    show win0_10.index t (0 : Fin 2) * 5000 + 1 * r.val = t.val * 5000 + r.val by omega
  unfold Gedge
  rw [hcol]
  simp only [rd0_0 V c t r _ _ hrow, rd0_1 V c t r _ _ hrow, rd0_2 V c t, rd0_3 V c t, rd0_4 V c t, rd0_5 V c t, rd0_6 V c t,
    rd0_7 V c t, rd0_8 V c t, rd0_9 V c t]

/-- An index of the output array is in point `t`'s block iff each coordinate is in the block's range on its axis. -/
theorem mem_blk0_10 (t : Fin cfg0.N) (i : S500000x128.Idx) :
    i ∈ ((cfg0.win 10).blk t).view.set ↔ ∀ a : Fin 2, win0_10.index t a * S5000x128.size a ≤ (i a).val ∧ (i a).val < win0_10.index t a * S5000x128.size a + S5000x128.size a := by
  show i ∈ ((View.whole main_v44).slice (win0_10.rect t)).set ↔ _
  rw [View.set_slice_whole, Rect.mem_set_unit]
  exact Iff.rfl

/-- Every index of the output array lies in the block of the point its row's quotient by 5000 names. -/
theorem covered0_10 (i : S500000x128.Idx) : ∃ t : Fin cfg0.N, (cfg0.win 10).flush t = true ∧ i ∈ ((cfg0.win 10).blk t).view.set := by
  have hi0 : (i 0).val < 500000 := (i 0).isLt
  have hi1 : (i 1).val < 128 := (i 1).isLt
  have hN : cfg0.N = 100 := N_0
  refine ⟨⟨(i 0).val / 5000, by rw [hN]; omega⟩, flush0_10 _, ?_⟩
  rw [mem_blk0_10]
  obtain ⟨-, -, -, -, -, -, -, -, -, -, -, -, -, -, -, -, eA0, eA1⟩ := idx_facts0 ⟨(i 0).val / 5000, by rw [hN]; omega⟩
  intro a
  match a with
  | ⟨0, _⟩ =>
    show win0_10.index _ (0 : Fin 2) * 5000 ≤ (i 0).val ∧ (i 0).val < win0_10.index _ (0 : Fin 2) * 5000 + 5000
    rw [eA0]; show (i 0).val / 5000 * 5000 ≤ (i 0).val ∧ (i 0).val < (i 0).val / 5000 * 5000 + 5000; omega
  | ⟨1, _⟩ =>
    show win0_10.index _ (1 : Fin 2) * 128 ≤ (i 1).val ∧ (i 1).val < win0_10.index _ (1 : Fin 2) * 128 + 128
    rw [eA1]; omega

/-- Region 0's output array after the region: the edge network of the arrays the region finds. -/
theorem final0 (c : Dev nD) :
    (dat0 V c).arrAt 10 cfg0.N = Gedge (V c main_v22) (V c main_v29) (V c main_v0) (V c main_arg3) (V c main_v1) (V c main_arg5)
      (V c main_v3) (V c main_arg7) (V c main_arg8) (V c main_arg9) :=
  (dat0 V c).arrAt_eq_of_cover 10 _ (fun t _ => flushed0_eq V c t) covered0_10

end Cert.KernelIdeal.Hand
end
-- ==== Proof.KEdge1.lean ====
/-
  Region 1 (the edge network for the second edge type) in closed form.

  At grid point `t` the region reads rows `5000 t … 5000 t + 4999` of the two endpoint arrays and the eight weight and
  bias arrays whole; what it writes back is those rows of the edge network of the arrays it found. The hundred blocks
  tile the output array, so after the region the output array is the edge network, whole.
-/
import proofs.«405005_j47493748359690_4_alg».proof.Proof.KernelIdealFrame
import proofs.«405005_j47493748359690_4_alg».proof.Proof.KDefs
import proofs.«405005_j47493748359690_4_alg».proof.Proof.KBlocksEdge
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.ValueIdx Cert.KernelIdeal Cert.KernelIdeal.Gen Cert.KernelIdeal.GenP
open Idealize.SL.Sem
open Idealize.ShloMosaic.Pipeline (Dat Cfg Window)

variable (V : (c : Dev nD) → (b : Ref sig .tc) → Buf (Elt Ideal) ((c : Thread nD τ).loc b))

/-- The printed index maps of region 1, decided over its hundred grid points. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 1) = 0
    ∧ win1_6.index t (0 : Fin 2) = 0 ∧ win1_6.index t (1 : Fin 2) = 0
    ∧ win1_7.index t (0 : Fin 1) = 0
    ∧ win1_8.index t (0 : Fin 2) = 0 ∧ win1_8.index t (1 : Fin 2) = 0
    ∧ win1_9.index t (0 : Fin 1) = 0
    ∧ win1_10.index t (0 : Fin 2) = t.val ∧ win1_10.index t (1 : Fin 2) = 0 :=
  (by decide +kernel : ∀ t : Fin grid1.N, _)

/-! Each input window's block at a point, read at the array index its rectangle names. -/

theorem rd1_0 (c : Dev nD) (t : Fin cfg1.N) (r : Fin 5000) (k : Fin 128) (e : Fin 500000) (he : e.val = t.val * 5000 + r.val) :
    iblk1 V c 0 t (ix2 r k) = V c main_v36 (ix2 e k) := by
  obtain ⟨e00, e01, e10, e11, -⟩ := idx_facts1 t
  show V c main_v36 (((cfg1.win 0).blk t).view.emb (ix2 r k)) = _
  refine congrArg (V c main_v36) ?_
  funext a; apply Fin.ext
  match a with
  | ⟨0, _⟩ => show win1_0.index t (0 : Fin 2) * 5000 + 1 * r.val = e.val; omega
  | ⟨1, _⟩ => show win1_0.index t (1 : Fin 2) * 128 + 1 * k.val = k.val; omega

theorem rd1_1 (c : Dev nD) (t : Fin cfg1.N) (r : Fin 5000) (k : Fin 128) (e : Fin 500000) (he : e.val = t.val * 5000 + r.val) :
    iblk1 V c 1 t (ix2 r k) = V c main_v43 (ix2 e k) := by
  obtain ⟨e00, e01, e10, e11, -⟩ := idx_facts1 t
  show V c main_v43 (((cfg1.win 1).blk t).view.emb (ix2 r k)) = _
  refine congrArg (V c main_v43) ?_
  funext a; apply Fin.ext
  match a with
  | ⟨0, _⟩ => show win1_1.index t (0 : Fin 2) * 5000 + 1 * r.val = e.val; omega
  | ⟨1, _⟩ => show win1_1.index t (1 : Fin 2) * 128 + 1 * k.val = k.val; omega

theorem rd1_2 (c : Dev nD) (t : Fin cfg1.N) (p : Fin 128) (q : Fin 128) :
    iblk1 V c 2 t (ix2 p q) = V c main_v0 (ix2 p q) := by
  obtain ⟨-, -, -, -, e20, e21, -, e40, e41, -, e60, e61, -, e80, e81, -⟩ := idx_facts1 t
  show V c main_v0 (((cfg1.win 2).blk t).view.emb (ix2 p q)) = _
  refine congrArg (V c main_v0) ?_
  funext a; apply Fin.ext
  match a with
  | ⟨0, _⟩ => show win1_2.index t (0 : Fin 2) * 128 + 1 * p.val = p.val; omega
  | ⟨1, _⟩ => show win1_2.index t (1 : Fin 2) * 128 + 1 * q.val = q.val; omega

theorem rd1_3 (c : Dev nD) (t : Fin cfg1.N) (q : Fin 128) :
    iblk1 V c 3 t (ix1 q) = V c main_arg3 (ix1 q) := by
  obtain ⟨-, -, -, -, -, -, e30, -, -, e50, -, -, e70, -, -, e90, -⟩ := idx_facts1 t
  show V c main_arg3 (((cfg1.win 3).blk t).view.emb (ix1 q)) = _
  refine congrArg (V c main_arg3) ?_
  funext a; apply Fin.ext
  match a with
  | ⟨0, _⟩ => show win1_3.index t (0 : Fin 1) * 128 + 1 * q.val = q.val; omega

theorem rd1_4 (c : Dev nD) (t : Fin cfg1.N) (p : Fin 128) (q : Fin 128) :
    iblk1 V c 4 t (ix2 p q) = V c main_v1 (ix2 p q) := by
  obtain ⟨-, -, -, -, e20, e21, -, e40, e41, -, e60, e61, -, e80, e81, -⟩ := idx_facts1 t
  show V c main_v1 (((cfg1.win 4).blk t).view.emb (ix2 p q)) = _
  refine congrArg (V c main_v1) ?_
  funext a; apply Fin.ext
  match a with
  | ⟨0, _⟩ => show win1_4.index t (0 : Fin 2) * 128 + 1 * p.val = p.val; omega
  | ⟨1, _⟩ => show win1_4.index t (1 : Fin 2) * 128 + 1 * q.val = q.val; omega

theorem rd1_5 (c : Dev nD) (t : Fin cfg1.N) (q : Fin 128) :
    iblk1 V c 5 t (ix1 q) = V c main_arg5 (ix1 q) := by
  obtain ⟨-, -, -, -, -, -, e30, -, -, e50, -, -, e70, -, -, e90, -⟩ := idx_facts1 t
  show V c main_arg5 (((cfg1.win 5).blk t).view.emb (ix1 q)) = _
  refine congrArg (V c main_arg5) ?_
  funext a; apply Fin.ext
  match a with
  | ⟨0, _⟩ => show win1_5.index t (0 : Fin 1) * 128 + 1 * q.val = q.val; omega

theorem rd1_6 (c : Dev nD) (t : Fin cfg1.N) (p : Fin 384) (q : Fin 128) :
    iblk1 V c 6 t (ix2 p q) = V c main_v3 (ix2 p q) := by
  obtain ⟨-, -, -, -, e20, e21, -, e40, e41, -, e60, e61, -, e80, e81, -⟩ := idx_facts1 t
  show V c main_v3 (((cfg1.win 6).blk t).view.emb (ix2 p q)) = _
  refine congrArg (V c main_v3) ?_
  funext a; apply Fin.ext
  match a with
  | ⟨0, _⟩ => show win1_6.index t (0 : Fin 2) * 384 + 1 * p.val = p.val; omega
  | ⟨1, _⟩ => show win1_6.index t (1 : Fin 2) * 128 + 1 * q.val = q.val; omega

theorem rd1_7 (c : Dev nD) (t : Fin cfg1.N) (q : Fin 128) :
    iblk1 V c 7 t (ix1 q) = V c main_arg7 (ix1 q) := by
  obtain ⟨-, -, -, -, -, -, e30, -, -, e50, -, -, e70, -, -, e90, -⟩ := idx_facts1 t
  show V c main_arg7 (((cfg1.win 7).blk t).view.emb (ix1 q)) = _
  refine congrArg (V c main_arg7) ?_
  funext a; apply Fin.ext
  match a with
  | ⟨0, _⟩ => show win1_7.index t (0 : Fin 1) * 128 + 1 * q.val = q.val; omega

theorem rd1_8 (c : Dev nD) (t : Fin cfg1.N) (p : Fin 1) (q : Fin 128) :
    iblk1 V c 8 t (ix2 p q) = V c main_arg8 (ix2 p q) := by
  obtain ⟨-, -, -, -, e20, e21, -, e40, e41, -, e60, e61, -, e80, e81, -⟩ := idx_facts1 t
  show V c main_arg8 (((cfg1.win 8).blk t).view.emb (ix2 p q)) = _
  refine congrArg (V c main_arg8) ?_
  funext a; apply Fin.ext
  match a with
  | ⟨0, _⟩ => show win1_8.index t (0 : Fin 2) * 1 + 1 * p.val = p.val; omega
  | ⟨1, _⟩ => show win1_8.index t (1 : Fin 2) * 128 + 1 * q.val = q.val; omega

theorem rd1_9 (c : Dev nD) (t : Fin cfg1.N) (q : Fin 1) :
    iblk1 V c 9 t (ix1 q) = V c main_arg9 (ix1 q) := by
  obtain ⟨-, -, -, -, -, -, e30, -, -, e50, -, -, e70, -, -, e90, -⟩ := idx_facts1 t
  show V c main_arg9 (((cfg1.win 9).blk t).view.emb (ix1 q)) = _
  refine congrArg (V c main_arg9) ?_
  funext a; apply Fin.ext
  match a with
  | ⟨0, _⟩ => show win1_9.index t (0 : Fin 1) * 1 + 1 * q.val = q.val; omega

/-- What point `t` writes back is block `t` of the edge network of the arrays the region finds. -/
theorem flushed1_eq (c : Dev nD) (t : Fin cfg1.N) :
    (dat1 V c).flushed 10 t = ((cfg1.win 10).blk t).view.read (Elt Ideal)
      (Gedge (V c main_v36) (V c main_v43) (V c main_v0) (V c main_arg3) (V c main_v1) (V c main_arg5) (V c main_v3)
        (V c main_arg7) (V c main_arg8) (V c main_arg9)) := by
  show (cfg1.win 10).cut (grid1.coords t) ((dat1 V c).after 10 t) = _
  rw [after1_10]
  unfold out1_10
  rw [View.canon_unit_zero hz2]
  simp only [View.ld_unit_zero (S := S5000x128) hz2, View.ld_unit_zero (S := S128x128) hz2, View.ld_unit_zero (S := S128) hz1,
    View.ld_unit_zero (S := S384x128) hz2, View.ld_unit_zero (S := S1x128) hz2, View.ld_unit_zero (S := S1) hz1]
  funext y
  obtain ⟨r, j, rfl⟩ : ∃ (r : Fin 5000) (j : Fin 128), y = ix2 r j := ⟨y 0, y 1, eq_ix2 y⟩
  show k1_pay1 (k1_pay2 (iblk1 V c 0 t)) (k1_pay3 (iblk1 V c 0 t) (iblk1 V c 1 t) (iblk1 V c 2 t) (iblk1 V c 3 t) (iblk1 V c 4 t) (iblk1 V c 5 t) (iblk1 V c 6 t) (iblk1 V c 7 t)) (iblk1 V c 8 t) (iblk1 V c 9 t) (ix2 r j)
    = Gedge (V c main_v36) (V c main_v43) (V c main_v0) (V c main_arg3) (V c main_v1) (V c main_arg5) (V c main_v3)
        (V c main_arg7) (V c main_arg8) (V c main_arg9) (((cfg1.win 10).blk t).view.emb (ix2 r j))
  refine (edge_pay1_apply (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) r j).trans ?_
  obtain ⟨-, -, -, -, -, -, -, -, -, -, -, -, -, -, -, -, eA0, eA1⟩ := idx_facts1 t
  have hcol : col2 (((cfg1.win 10).blk t).view.emb (ix2 r j)) = j :=
    Fin.ext (show win1_10.index t (1 : Fin 2) * 128 + 1 * j.val = j.val by omega)
  have hrow : (row2 (((cfg1.win 10).blk t).view.emb (ix2 r j))).val = t.val * 5000 + r.val :=
    show win1_10.index t (0 : Fin 2) * 5000 + 1 * r.val = t.val * 5000 + r.val by omega
  unfold Gedge
  rw [hcol]
  simp only [rd1_0 V c t r _ _ hrow, rd1_1 V c t r _ _ hrow, rd1_2 V c t, rd1_3 V c t, rd1_4 V c t, rd1_5 V c t, rd1_6 V c t,
    rd1_7 V c t, rd1_8 V c t, rd1_9 V c t]

/-- An index of the output array is in point `t`'s block iff each coordinate is in the block's range on its axis. -/
theorem mem_blk1_10 (t : Fin cfg1.N) (i : S500000x128.Idx) :
    i ∈ ((cfg1.win 10).blk t).view.set ↔ ∀ a : Fin 2, win1_10.index t a * S5000x128.size a ≤ (i a).val ∧ (i a).val < win1_10.index t a * S5000x128.size a + S5000x128.size a := by
  show i ∈ ((View.whole main_v45).slice (win1_10.rect t)).set ↔ _
  rw [View.set_slice_whole, Rect.mem_set_unit]
  exact Iff.rfl

/-- Every index of the output array lies in the block of the point its row's quotient by 5000 names. -/
theorem covered1_10 (i : S500000x128.Idx) : ∃ t : Fin cfg1.N, (cfg1.win 10).flush t = true ∧ i ∈ ((cfg1.win 10).blk t).view.set := by
  have hi0 : (i 0).val < 500000 := (i 0).isLt
  have hi1 : (i 1).val < 128 := (i 1).isLt
  have hN : cfg1.N = 100 := N_1
  refine ⟨⟨(i 0).val / 5000, by rw [hN]; omega⟩, flush1_10 _, ?_⟩
  rw [mem_blk1_10]
  obtain ⟨-, -, -, -, -, -, -, -, -, -, -, -, -, -, -, -, eA0, eA1⟩ := idx_facts1 ⟨(i 0).val / 5000, by rw [hN]; omega⟩
  intro a
  match a with
  | ⟨0, _⟩ =>
    show win1_10.index _ (0 : Fin 2) * 5000 ≤ (i 0).val ∧ (i 0).val < win1_10.index _ (0 : Fin 2) * 5000 + 5000
    rw [eA0]; show (i 0).val / 5000 * 5000 ≤ (i 0).val ∧ (i 0).val < (i 0).val / 5000 * 5000 + 5000; omega
  | ⟨1, _⟩ =>
    show win1_10.index _ (1 : Fin 2) * 128 ≤ (i 1).val ∧ (i 1).val < win1_10.index _ (1 : Fin 2) * 128 + 128
    rw [eA1]; omega

/-- Region 1's output array after the region: the edge network of the arrays the region finds. -/
theorem final1 (c : Dev nD) :
    (dat1 V c).arrAt 10 cfg1.N = Gedge (V c main_v36) (V c main_v43) (V c main_v0) (V c main_arg3) (V c main_v1) (V c main_arg5)
      (V c main_v3) (V c main_arg7) (V c main_arg8) (V c main_arg9) :=
  (dat1 V c).arrAt_eq_of_cover 10 _ (fun t _ => flushed1_eq V c t) covered1_10

end Cert.KernelIdeal.Hand
end
-- ==== Proof.KBlocksComb.lean ====
/-
  The node update read at an index, at the ideal values.

  On a block of 5000 nodes the body forms msg · WrelT + brel, adds x · WrootT and then broot: two plain matrix
  products into zero accumulators, two bias rows spread over the rows, three additions. At row r and column j that is
  the specification's row formula on row r of the two blocks. The second node-update body has the same text.
-/
import proofs.«405005_j47493748359690_4_alg».proof.Proof.Gen.KernelIdeal.Skeleton
import proofs.«405005_j47493748359690_4_alg».proof.Proof.Spec
import proofs.«405005_j47493748359690_4_alg».proof.Proof.KBlocksLib

noncomputable section

namespace Cert.KernelIdeal.Hand

open Idealize.ShloMosaic Idealize.ShloMosaic.ValueIdx Cert.KernelIdeal Cert.KernelIdeal.Gen

/-- The first node-update body at (r, j). -/
theorem comb_pay2_apply (x0 x1 : Vec Ideal S5000x128 .f32) (x2 : Vec Ideal S128x128 .f32) (x3 : Vec Ideal S128 .f32)
    (x4 : Vec Ideal S128x128 .f32) (x5 : Vec Ideal S128 .f32) (r : Fin 5000) (j : Fin 128) :
    k2_pay1 x0 x1 x2 x3 x4 x5 (ix2 r j)
      = Cert.Spec.combRow (fun k => x0 (ix2 r k)) (fun k => x1 (ix2 r k)) (fun k q => x2 (ix2 k q)) (fun q => x3 (ix1 q))
          (fun k q => x4 (ix2 k q)) (fun q => x5 (ix1 q)) j := by
  unfold k2_pay1
  simp only [shapeCast_self]
  exact congrArg₂ (· + ·) (congrArg₂ (· + ·) (congrArg₂ (· + ·) (mm128_apply _ x0 x2 r j) (rowOf_apply x3 _ _ r j))
    (mm128_apply _ x1 x4 r j)) (rowOf_apply x5 _ _ r j)

/-- The two node-update bodies are one function. -/
theorem k3_pay1_eq : @k3_pay1 = @k2_pay1 := rfl

/-- The second node-update body at (r, j). -/
theorem comb_pay3_apply (x0 x1 : Vec Ideal S5000x128 .f32) (x2 : Vec Ideal S128x128 .f32) (x3 : Vec Ideal S128 .f32)
    (x4 : Vec Ideal S128x128 .f32) (x5 : Vec Ideal S128 .f32) (r : Fin 5000) (j : Fin 128) :
    k3_pay1 x0 x1 x2 x3 x4 x5 (ix2 r j)
      = Cert.Spec.combRow (fun k => x0 (ix2 r k)) (fun k => x1 (ix2 r k)) (fun k q => x2 (ix2 k q)) (fun q => x3 (ix1 q))
          (fun k q => x4 (ix2 k q)) (fun q => x5 (ix1 q)) j := by
  rw [k3_pay1_eq]
  exact comb_pay2_apply x0 x1 x2 x3 x4 x5 r j

end Cert.KernelIdeal.Hand

end
-- ==== Proof.KComb2.lean ====
/-
  Region 2 (the node update for the first edge type) in closed form.

  At grid point `t` the region reads rows `5000 t … 5000 t + 4999` of the summed messages and of the node table, and the
  four weight and bias arrays whole; what it writes back is those rows of the node update of the arrays it found. The
  ten blocks tile the output array, so after the region the output array is the node update, whole.
-/
import proofs.«405005_j47493748359690_4_alg».proof.Proof.KernelIdealFrame
import proofs.«405005_j47493748359690_4_alg».proof.Proof.KDefs
import proofs.«405005_j47493748359690_4_alg».proof.Proof.KBlocksComb
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.ValueIdx Cert.KernelIdeal Cert.KernelIdeal.Gen Cert.KernelIdeal.GenP
open Idealize.SL.Sem
open Idealize.ShloMosaic.Pipeline (Dat Cfg Window)

variable (V : (c : Dev nD) → (b : Ref sig .tc) → Buf (Elt Ideal) ((c : Thread nD τ).loc b))

/-- The printed index maps of region 2, decided over its ten grid points. -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 1) = 0
    ∧ win2_4.index t (0 : Fin 2) = 0 ∧ win2_4.index t (1 : Fin 2) = 0
    ∧ win2_5.index t (0 : Fin 1) = 0
    ∧ win2_6.index t (0 : Fin 2) = t.val ∧ win2_6.index t (1 : Fin 2) = 0 :=
  (by decide +kernel : ∀ t : Fin grid2.N, _)

theorem flushed2_eq (c : Dev nD) (t : Fin cfg2.N) :
    (dat2 V c).flushed 6 t = ((cfg2.win 6).blk t).view.read (Elt Ideal)
      (Gcomb (V c main_v49) (V c main_arg1) (V c main_v4) (V c main_arg11) (V c main_v5) (V c main_arg13)) := by
  show (cfg2.win 6).cut (grid2.coords t) ((dat2 V c).after 6 t) = _
  rw [after2_6]
  unfold out2_6
  rw [View.canon_unit_zero hz2]
  simp only [View.ld_unit_zero (S := S5000x128) hz2, View.ld_unit_zero (S := S128x128) hz2, View.ld_unit_zero (S := S128) hz1]
  obtain ⟨e00, e01, e10, e11, e20, e21, e30, e40, e41, e50, e60, e61⟩ := idx_facts2 t
  funext y
  obtain ⟨r, j, rfl⟩ : ∃ (r : Fin 5000) (j : Fin 128), y = ix2 r j := ⟨y 0, y 1, eq_ix2 y⟩
  show k2_pay1 (iblk2 V c 0 t) (iblk2 V c 1 t) (iblk2 V c 2 t) (iblk2 V c 3 t) (iblk2 V c 4 t) (iblk2 V c 5 t) (ix2 r j)
    = Gcomb (V c main_v49) (V c main_arg1) (V c main_v4) (V c main_arg11) (V c main_v5) (V c main_arg13)
        (((cfg2.win 6).blk t).view.emb (ix2 r j))
  refine (comb_pay2_apply (iblk2 V c 0 t) (iblk2 V c 1 t) (iblk2 V c 2 t) (iblk2 V c 3 t) (iblk2 V c 4 t) (iblk2 V c 5 t) r j).trans ?_
  have hcol : col2 (((cfg2.win 6).blk t).view.emb (ix2 r j)) = j :=
    Fin.ext (show win2_6.index t (1 : Fin 2) * 128 + 1 * j.val = j.val by omega)
  have b0 : ∀ k : Fin 128, iblk2 V c 0 t (ix2 r k) = V c main_v49 (ix2 (row2 (((cfg2.win 6).blk t).view.emb (ix2 r j))) k) := by
    intro k
    show V c main_v49 (((cfg2.win 0).blk t).view.emb (ix2 r k)) = _
    refine congrArg (V c main_v49) ?_
    funext a; apply Fin.ext
    match a with
    | ⟨0, _⟩ => show win2_0.index t (0 : Fin 2) * 5000 + 1 * r.val = win2_6.index t (0 : Fin 2) * 5000 + 1 * r.val; omega
    | ⟨1, _⟩ => show win2_0.index t (1 : Fin 2) * 128 + 1 * k.val = k.val; omega
  have b1 : ∀ k : Fin 128, iblk2 V c 1 t (ix2 r k) = V c main_arg1 (ix2 (row2 (((cfg2.win 6).blk t).view.emb (ix2 r j))) k) := by
    intro k
    show V c main_arg1 (((cfg2.win 1).blk t).view.emb (ix2 r k)) = _
    refine congrArg (V c main_arg1) ?_
    funext a; apply Fin.ext
    match a with
    | ⟨0, _⟩ => show win2_1.index t (0 : Fin 2) * 5000 + 1 * r.val = win2_6.index t (0 : Fin 2) * 5000 + 1 * r.val; omega
    | ⟨1, _⟩ => show win2_1.index t (1 : Fin 2) * 128 + 1 * k.val = k.val; omega
  have b2 : ∀ (k q : Fin 128), iblk2 V c 2 t (ix2 k q) = V c main_v4 (ix2 k q) := by
    intro k q
    show V c main_v4 (((cfg2.win 2).blk t).view.emb (ix2 k q)) = _
    refine congrArg (V c main_v4) ?_
    funext a; apply Fin.ext
    match a with
    | ⟨0, _⟩ => show win2_2.index t (0 : Fin 2) * 128 + 1 * k.val = k.val; omega
    | ⟨1, _⟩ => show win2_2.index t (1 : Fin 2) * 128 + 1 * q.val = q.val; omega
  have b3 : ∀ q : Fin 128, iblk2 V c 3 t (ix1 q) = V c main_arg11 (ix1 q) := by
    intro q
    show V c main_arg11 (((cfg2.win 3).blk t).view.emb (ix1 q)) = _
    refine congrArg (V c main_arg11) ?_
    funext a; apply Fin.ext
    match a with
    | ⟨0, _⟩ => show win2_3.index t (0 : Fin 1) * 128 + 1 * q.val = q.val; omega
  have b4 : ∀ (k q : Fin 128), iblk2 V c 4 t (ix2 k q) = V c main_v5 (ix2 k q) := by
    intro k q
    show V c main_v5 (((cfg2.win 4).blk t).view.emb (ix2 k q)) = _
    refine congrArg (V c main_v5) ?_
    funext a; apply Fin.ext
    match a with
    | ⟨0, _⟩ => show win2_4.index t (0 : Fin 2) * 128 + 1 * k.val = k.val; omega
    | ⟨1, _⟩ => show win2_4.index t (1 : Fin 2) * 128 + 1 * q.val = q.val; omega
  have b5 : ∀ q : Fin 128, iblk2 V c 5 t (ix1 q) = V c main_arg13 (ix1 q) := by
    intro q
    show V c main_arg13 (((cfg2.win 5).blk t).view.emb (ix1 q)) = _
    refine congrArg (V c main_arg13) ?_
    funext a; apply Fin.ext
    match a with
    | ⟨0, _⟩ => show win2_5.index t (0 : Fin 1) * 128 + 1 * q.val = q.val; omega
  unfold Gcomb
  simp only [b0, b1, b2, b3, b4, b5, hcol]

/-- An index of the output array is in point `t`'s block iff each coordinate is in the block's range on its axis. -/
theorem mem_blk2_6 (t : Fin cfg2.N) (i : S50000x128.Idx) :
    i ∈ ((cfg2.win 6).blk t).view.set ↔ ∀ a : Fin 2, win2_6.index t a * S5000x128.size a ≤ (i a).val ∧ (i a).val < win2_6.index t a * S5000x128.size a + S5000x128.size a := by
  show i ∈ ((View.whole main_v54).slice (win2_6.rect t)).set ↔ _
  rw [View.set_slice_whole, Rect.mem_set_unit]
  exact Iff.rfl

/-- Every index of the output array lies in the block of the point its row's quotient by 5000 names. -/
theorem cover2_6 (i : S50000x128.Idx) : ∃ t : Fin cfg2.N, (cfg2.win 6).flush t = true ∧ i ∈ ((cfg2.win 6).blk t).view.set := by
  have hi0 : (i 0).val < 50000 := (i 0).isLt
  have hi1 : (i 1).val < 128 := (i 1).isLt
  have hN : cfg2.N = 10 := N_2
  refine ⟨⟨(i 0).val / 5000, by rw [hN]; omega⟩, flush2_6 _, ?_⟩
  rw [mem_blk2_6]
  obtain ⟨-, -, -, -, -, -, -, -, -, -, e60, e61⟩ := idx_facts2 ⟨(i 0).val / 5000, by rw [hN]; omega⟩
  intro a
  match a with
  | ⟨0, _⟩ =>
    show win2_6.index _ (0 : Fin 2) * 5000 ≤ (i 0).val ∧ (i 0).val < win2_6.index _ (0 : Fin 2) * 5000 + 5000
    rw [e60]; show (i 0).val / 5000 * 5000 ≤ (i 0).val ∧ (i 0).val < (i 0).val / 5000 * 5000 + 5000; omega
  | ⟨1, _⟩ =>
    show win2_6.index _ (1 : Fin 2) * 128 ≤ (i 1).val ∧ (i 1).val < win2_6.index _ (1 : Fin 2) * 128 + 128
    rw [e61]; omega

/-- Region 2's output array after the region: the node update of the arrays the region finds. -/
theorem final2 (c : Dev nD) :
    (dat2 V c).arrAt 6 cfg2.N = Gcomb (V c main_v49) (V c main_arg1) (V c main_v4) (V c main_arg11) (V c main_v5) (V c main_arg13) :=
  (dat2 V c).arrAt_eq_of_cover 6 _ (fun t _ => flushed2_eq V c t) cover2_6

end Cert.KernelIdeal.Hand
end
-- ==== Proof.KComb3.lean ====
/-
  Region 3 (the node update for the second edge type) in closed form.

  At grid point `t` the region reads rows `5000 t … 5000 t + 4999` of the summed messages and of the node table, and the
  four weight and bias arrays whole; what it writes back is those rows of the node update of the arrays it found. The
  ten blocks tile the output array, so after the region the output array is the node update, whole.
-/
import proofs.«405005_j47493748359690_4_alg».proof.Proof.KernelIdealFrame
import proofs.«405005_j47493748359690_4_alg».proof.Proof.KDefs
import proofs.«405005_j47493748359690_4_alg».proof.Proof.KBlocksComb
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.ValueIdx Cert.KernelIdeal Cert.KernelIdeal.Gen Cert.KernelIdeal.GenP
open Idealize.SL.Sem
open Idealize.ShloMosaic.Pipeline (Dat Cfg Window)

variable (V : (c : Dev nD) → (b : Ref sig .tc) → Buf (Elt Ideal) ((c : Thread nD τ).loc b))

/-- The printed index maps of region 3, decided over its ten grid points. -/
theorem idx_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 1) = 0
    ∧ win3_4.index t (0 : Fin 2) = 0 ∧ win3_4.index t (1 : Fin 2) = 0
    ∧ win3_5.index t (0 : Fin 1) = 0
    ∧ win3_6.index t (0 : Fin 2) = t.val ∧ win3_6.index t (1 : Fin 2) = 0 :=
  (by decide +kernel : ∀ t : Fin grid3.N, _)

theorem flushed3_eq (c : Dev nD) (t : Fin cfg3.N) :
    (dat3 V c).flushed 6 t = ((cfg3.win 6).blk t).view.read (Elt Ideal)
      (Gcomb (V c main_v53) (V c main_arg0) (V c main_v6) (V c main_arg15) (V c main_v7) (V c main_arg17)) := by
  show (cfg3.win 6).cut (grid3.coords t) ((dat3 V c).after 6 t) = _
  rw [after3_6]
  unfold out3_6
  rw [View.canon_unit_zero hz2]
  simp only [View.ld_unit_zero (S := S5000x128) hz2, View.ld_unit_zero (S := S128x128) hz2, View.ld_unit_zero (S := S128) hz1]
  obtain ⟨e00, e01, e10, e11, e20, e21, e30, e40, e41, e50, e60, e61⟩ := idx_facts3 t
  funext y
  obtain ⟨r, j, rfl⟩ : ∃ (r : Fin 5000) (j : Fin 128), y = ix2 r j := ⟨y 0, y 1, eq_ix2 y⟩
  show k3_pay1 (iblk3 V c 0 t) (iblk3 V c 1 t) (iblk3 V c 2 t) (iblk3 V c 3 t) (iblk3 V c 4 t) (iblk3 V c 5 t) (ix2 r j)
    = Gcomb (V c main_v53) (V c main_arg0) (V c main_v6) (V c main_arg15) (V c main_v7) (V c main_arg17)
        (((cfg3.win 6).blk t).view.emb (ix2 r j))
  refine (comb_pay3_apply (iblk3 V c 0 t) (iblk3 V c 1 t) (iblk3 V c 2 t) (iblk3 V c 3 t) (iblk3 V c 4 t) (iblk3 V c 5 t) r j).trans ?_
  have hcol : col2 (((cfg3.win 6).blk t).view.emb (ix2 r j)) = j :=
    Fin.ext (show win3_6.index t (1 : Fin 2) * 128 + 1 * j.val = j.val by omega)
  have b0 : ∀ k : Fin 128, iblk3 V c 0 t (ix2 r k) = V c main_v53 (ix2 (row2 (((cfg3.win 6).blk t).view.emb (ix2 r j))) k) := by
    intro k
    show V c main_v53 (((cfg3.win 0).blk t).view.emb (ix2 r k)) = _
    refine congrArg (V c main_v53) ?_
    funext a; apply Fin.ext
    match a with
    | ⟨0, _⟩ => show win3_0.index t (0 : Fin 2) * 5000 + 1 * r.val = win3_6.index t (0 : Fin 2) * 5000 + 1 * r.val; omega
    | ⟨1, _⟩ => show win3_0.index t (1 : Fin 2) * 128 + 1 * k.val = k.val; omega
  have b1 : ∀ k : Fin 128, iblk3 V c 1 t (ix2 r k) = V c main_arg0 (ix2 (row2 (((cfg3.win 6).blk t).view.emb (ix2 r j))) k) := by
    intro k
    show V c main_arg0 (((cfg3.win 1).blk t).view.emb (ix2 r k)) = _
    refine congrArg (V c main_arg0) ?_
    funext a; apply Fin.ext
    match a with
    | ⟨0, _⟩ => show win3_1.index t (0 : Fin 2) * 5000 + 1 * r.val = win3_6.index t (0 : Fin 2) * 5000 + 1 * r.val; omega
    | ⟨1, _⟩ => show win3_1.index t (1 : Fin 2) * 128 + 1 * k.val = k.val; omega
  have b2 : ∀ (k q : Fin 128), iblk3 V c 2 t (ix2 k q) = V c main_v6 (ix2 k q) := by
    intro k q
    show V c main_v6 (((cfg3.win 2).blk t).view.emb (ix2 k q)) = _
    refine congrArg (V c main_v6) ?_
    funext a; apply Fin.ext
    match a with
    | ⟨0, _⟩ => show win3_2.index t (0 : Fin 2) * 128 + 1 * k.val = k.val; omega
    | ⟨1, _⟩ => show win3_2.index t (1 : Fin 2) * 128 + 1 * q.val = q.val; omega
  have b3 : ∀ q : Fin 128, iblk3 V c 3 t (ix1 q) = V c main_arg15 (ix1 q) := by
    intro q
    show V c main_arg15 (((cfg3.win 3).blk t).view.emb (ix1 q)) = _
    refine congrArg (V c main_arg15) ?_
    funext a; apply Fin.ext
    match a with
    | ⟨0, _⟩ => show win3_3.index t (0 : Fin 1) * 128 + 1 * q.val = q.val; omega
  have b4 : ∀ (k q : Fin 128), iblk3 V c 4 t (ix2 k q) = V c main_v7 (ix2 k q) := by
    intro k q
    show V c main_v7 (((cfg3.win 4).blk t).view.emb (ix2 k q)) = _
    refine congrArg (V c main_v7) ?_
    funext a; apply Fin.ext
    match a with
    | ⟨0, _⟩ => show win3_4.index t (0 : Fin 2) * 128 + 1 * k.val = k.val; omega
    | ⟨1, _⟩ => show win3_4.index t (1 : Fin 2) * 128 + 1 * q.val = q.val; omega
  have b5 : ∀ q : Fin 128, iblk3 V c 5 t (ix1 q) = V c main_arg17 (ix1 q) := by
    intro q
    show V c main_arg17 (((cfg3.win 5).blk t).view.emb (ix1 q)) = _
    refine congrArg (V c main_arg17) ?_
    funext a; apply Fin.ext
    match a with
    | ⟨0, _⟩ => show win3_5.index t (0 : Fin 1) * 128 + 1 * q.val = q.val; omega
  unfold Gcomb
  simp only [b0, b1, b2, b3, b4, b5, hcol]

/-- An index of the output array is in point `t`'s block iff each coordinate is in the block's range on its axis. -/
theorem mem_blk3_6 (t : Fin cfg3.N) (i : S50000x128.Idx) :
    i ∈ ((cfg3.win 6).blk t).view.set ↔ ∀ a : Fin 2, win3_6.index t a * S5000x128.size a ≤ (i a).val ∧ (i a).val < win3_6.index t a * S5000x128.size a + S5000x128.size a := by
  show i ∈ ((View.whole main_v55).slice (win3_6.rect t)).set ↔ _
  rw [View.set_slice_whole, Rect.mem_set_unit]
  exact Iff.rfl

/-- Every index of the output array lies in the block of the point its row's quotient by 5000 names. -/
theorem cover3_6 (i : S50000x128.Idx) : ∃ t : Fin cfg3.N, (cfg3.win 6).flush t = true ∧ i ∈ ((cfg3.win 6).blk t).view.set := by
  have hi0 : (i 0).val < 50000 := (i 0).isLt
  have hi1 : (i 1).val < 128 := (i 1).isLt
  have hN : cfg3.N = 10 := N_3
  refine ⟨⟨(i 0).val / 5000, by rw [hN]; omega⟩, flush3_6 _, ?_⟩
  rw [mem_blk3_6]
  obtain ⟨-, -, -, -, -, -, -, -, -, -, e60, e61⟩ := idx_facts3 ⟨(i 0).val / 5000, by rw [hN]; omega⟩
  intro a
  match a with
  | ⟨0, _⟩ =>
    show win3_6.index _ (0 : Fin 2) * 5000 ≤ (i 0).val ∧ (i 0).val < win3_6.index _ (0 : Fin 2) * 5000 + 5000
    rw [e60]; show (i 0).val / 5000 * 5000 ≤ (i 0).val ∧ (i 0).val < (i 0).val / 5000 * 5000 + 5000; omega
  | ⟨1, _⟩ =>
    show win3_6.index _ (1 : Fin 2) * 128 ≤ (i 1).val ∧ (i 1).val < win3_6.index _ (1 : Fin 2) * 128 + 128
    rw [e61]; omega

/-- Region 3's output array after the region: the node update of the arrays the region finds. -/
theorem final3 (c : Dev nD) :
    (dat3 V c).arrAt 6 cfg3.N = Gcomb (V c main_v53) (V c main_arg0) (V c main_v6) (V c main_arg15) (V c main_v7) (V c main_arg17) :=
  (dat3 V c).arrAt_eq_of_cover 6 _ (fun t _ => flushed3_eq V c t) cover3_6

end Cert.KernelIdeal.Hand
end
-- ==== Proof.RefTerm.lean ====
/-
  The reference program's stages as functions of arrays, in the host operations it is printed in.

  An edge table's two rows are vectors of node ids; a vector of ids selects rows of a node table (a negative id has
  the table's length added first); the edge network maps the selected source and destination rows to one weighted
  message row per edge; the messages are summed into their destination nodes; a node's new row is a linear map of
  its summed messages plus a linear map of its own row, with two biases. One edge type is these stages composed,
  and the program runs them for two edge types.
-/
import proofs.«405005_j47493748359690_4_alg».proof.ReferenceIdeal

noncomputable section

namespace Cert.ReferenceIdeal.Hand

open Idealize.ShloMosaic Cert.ReferenceIdeal

variable {F : FTy → Type} [FloatOps F] [Facts]

open Facts₀ Facts

/-- Row 0 of an edge table: the source node ids. -/
def row0 (ei : IVec S2x500000 32) : IVec S500000 32 :=
  shapeCast S500000 (extractStridedSlice S1x500000 ![0, 0] ei slices_S2x500000_S1x500000_0_0) shapeCasts_S1x500000_S500000

/-- Row 1 of an edge table: the destination node ids. -/
def row1 (ei : IVec S2x500000 32) : IVec S500000 32 :=
  shapeCast S500000 (extractStridedSlice S1x500000 ![1, 0] ei slices_S2x500000_S1x500000_1_0) shapeCasts_S1x500000_S500000

/-- Node ids as the start indices of a row selection: a negative id has the table's 50000 rows added. -/
def startIdx (r : IVec S500000 32) : IVec S500000x1 32 :=
  broadcastInDim S500000x1 ![0] bcast_S500000_S500000x1_0
    (select (cmpi .slt r (broadcastInDim S500000 ![] bcast_S_S500000 (constantI S_ 32 0#32)))
      (addi r (broadcastInDim S500000 ![] bcast_S_S500000 (constantI S_ 32 50000#32))) r)

/-- The rows of a node table that a vector of node ids selects. -/
def rows (x : FVec F S50000x128 .f32) (r : IVec S500000 32) : FVec F S500000x128 .f32 :=
  Host.gather gather_S50000x128_S500000x1_S500000x128_1_0_n_n_0_1_1128 x (startIdx r)

/-- A bias vector repeated down the 500000 edges. -/
def biasEdges (b : FVec F S128 .f32) : FVec F S500000x128 .f32 :=
  broadcastInDim S500000x128 ![0, 1] bcast_S1x128_S500000x128_0_1 (broadcastInDim S1x128 ![1] bcast_S128_S1x128_1 b)

/-- The leaky rectifier, entry by entry: `x` where `x ≥ 0`, the slope literal times `x` elsewhere. -/
def leaky (x : FVec F S500000x128 .f32) : FVec F S500000x128 .f32 :=
  select (cmpf .oge x (broadcastInDim S500000x128 ![] bcast_S_S500000x128 (constant S_ .f32 0x00000000#32))) x
    (mulf (broadcastInDim S500000x128 ![] bcast_S_S500000x128 (constant S_ .f32 0x3C23D70A#32)) x)

/-- An encoder: the leaky rectifier of `v · Wᵀ + b`. -/
def encode (v : FVec F S500000x128 .f32) (W : FVec F S128x128 .f32) (b : FVec F S128 .f32) : FVec F S500000x128 .f32 :=
  leaky (addf (Host.dotGeneral dot_S500000x128_S128x128_S500000x128_1_0_0_1_n_n none v
    (transpose S128x128 [1, 0] W transposes_S128x128_S128x128_1_0)) (biasEdges b))

/-- The edge features: the two encodings and the absolute difference, side by side. -/
def features (par cld : FVec F S500000x128 .f32) (Wp : FVec F S128x128 .f32) (bp : FVec F S128 .f32)
    (Wc : FVec F S128x128 .f32) (bc : FVec F S128 .f32) : FVec F S500000x384 .f32 :=
  concatenate S500000x384 1 [⟨S500000x128, encode par Wp bp⟩, ⟨S500000x128, encode cld Wc bc⟩,
    ⟨S500000x128, Host.absf (subf par cld)⟩] concatenates_S500000x128_S500000x128_S500000x128_S500000x384_d1

/-- The hidden layer: the rectified `features · W1ᵀ + b1`. -/
def hiddenLayer (ft : FVec F S500000x384 .f32) (W1 : FVec F S128x384 .f32) (b1 : FVec F S128 .f32) : FVec F S500000x128 .f32 :=
  maximumf (addf (Host.dotGeneral dot_S500000x384_S384x128_S500000x128_1_0_0_1_n_n none ft
    (transpose S384x128 [1, 0] W1 transposes_S128x384_S384x128_1_0)) (biasEdges b1))
    (broadcastInDim S500000x128 ![] bcast_S_S500000x128 (constant S_ .f32 0x00000000#32))

/-- The gate's argument: `hidden · W2ᵀ + b2`, one number per edge. -/
def gateLogit (h : FVec F S500000x128 .f32) (W2 : FVec F S1x128 .f32) (b2 : FVec F S1 .f32) : FVec F S500000x1 .f32 :=
  addf (Host.dotGeneral dot_S500000x128_S128x1_S500000x1_1_0_0_1_n_n none h
    (transpose S128x1 [1, 0] W2 transposes_S1x128_S128x1_1_0))
    (broadcastInDim S500000x1 ![0, 1] bcast_S1x1_S500000x1_0_1 (broadcastInDim S1x1 ![1] bcast_S1_S1x1_1 b2))

/-- The gate `1 / (1 + e^(-z))` as the reference spells it, repeated across the 128 columns. -/
def gateCols (z : FVec F S500000x1 .f32) : FVec F S500000x128 .f32 :=
  broadcastInDim S500000x128 ![0, 1] bcast_S500000x1_S500000x128_0_1
    (broadcastInDim S500000x1 ![0] bcast_S500000_S500000x1_0
      (shapeCast S500000
        (Host.divf (broadcastInDim S500000x1 ![] bcast_S_S500000x1 (constant S_ .f32 0x3F800000#32))
          (addf (broadcastInDim S500000x1 ![] bcast_S_S500000x1 (constant S_ .f32 0x3F800000#32)) (Host.exp (Host.negf z))))
        shapeCasts_S500000x1_S500000))

/-- The edge network: the source rows times the gate. -/
def refEdge (par cld : FVec F S500000x128 .f32) (Wp : FVec F S128x128 .f32) (bp : FVec F S128 .f32)
    (Wc : FVec F S128x128 .f32) (bc : FVec F S128 .f32) (W1 : FVec F S128x384 .f32) (b1 : FVec F S128 .f32)
    (W2 : FVec F S1x128 .f32) (b2 : FVec F S1 .f32) : FVec F S500000x128 .f32 :=
  mulf par (gateCols (gateLogit (hiddenLayer (features par cld Wp bp Wc bc) W1 b1) W2 b2))

/-- The messages summed into their destination nodes, from a table of zeros. -/
def segSum (r : IVec S500000 32) (u : FVec F S500000x128 .f32) : FVec F S50000x128 .f32 :=
  Host.scatterAdd scatter_S50000x128_S500000x1_S500000x128_1_0_0_1
    (broadcastInDim S50000x128 ![] bcast_S_S50000x128 (constant S_ .f32 0x00000000#32))
    (broadcastInDim S500000x1 ![0] bcast_S500000_S500000x1_0 r) u

/-- A bias vector repeated down the 50000 nodes. -/
def biasNodes (b : FVec F S128 .f32) : FVec F S50000x128 .f32 :=
  broadcastInDim S50000x128 ![0, 1] bcast_S1x128_S50000x128_0_1 (broadcastInDim S1x128 ![1] bcast_S128_S1x128_1 b)

/-- The node update: `((msg · Wrelᵀ + brel) + x · Wrootᵀ) + broot`. -/
def refComb (msg x : FVec F S50000x128 .f32) (Wrel : FVec F S128x128 .f32) (brel : FVec F S128 .f32)
    (Wroot : FVec F S128x128 .f32) (broot : FVec F S128 .f32) : FVec F S50000x128 .f32 :=
  addf (addf (addf (Host.dotGeneral dot_S50000x128_S128x128_S50000x128_1_0_0_1_n_n none msg
      (transpose S128x128 [1, 0] Wrel transposes_S128x128_S128x128_1_0)) (biasNodes brel))
    (Host.dotGeneral dot_S50000x128_S128x128_S50000x128_1_0_0_1_n_n none x
      (transpose S128x128 [1, 0] Wroot transposes_S128x128_S128x128_1_0))) (biasNodes broot)

/-- One edge type, whole: select the rows, run the edge network, sum into the destinations, update the nodes. -/
def refConv (xsrc xdst : FVec F S50000x128 .f32) (ei : IVec S2x500000 32) (Wp : FVec F S128x128 .f32) (bp : FVec F S128 .f32)
    (Wc : FVec F S128x128 .f32) (bc : FVec F S128 .f32) (W1 : FVec F S128x384 .f32) (b1 : FVec F S128 .f32)
    (W2 : FVec F S1x128 .f32) (b2 : FVec F S1 .f32) (Wrel : FVec F S128x128 .f32) (brel : FVec F S128 .f32)
    (Wroot : FVec F S128x128 .f32) (broot : FVec F S128 .f32) : FVec F S50000x128 .f32 :=
  refComb (segSum (row1 ei) (refEdge (rows xsrc (row0 ei)) (rows xdst (row1 ei)) Wp bp Wc bc W1 b1 W2 b2)) xdst Wrel brel Wroot broot

end Cert.ReferenceIdeal.Hand

end
-- ==== Proof.KFoldHost.lean ====
/-
  The two stretches of host operations of the idealized kernel program, read at the buffers its regions use.

  The first stretch transposes the weight matrices, takes the two rows of each edge table, and selects the endpoint rows
  of the node tables; the second widens the two message arrays and sums them into their destination nodes. Each buffer
  after a stretch is stated as a function of the contents before it; a buffer no operation of the stretch writes keeps
  its contents. The row selections and the sums are the same host operations the reference program applies, so they
  are stated in the reference's functions.
-/
import proofs.«405005_j47493748359690_4_alg».proof.Proof.KernelIdealLaunch
import proofs.«405005_j47493748359690_4_alg».proof.Proof.RefTerm
import proofs.«405005_j47493748359690_4_alg».proof.Proof.Gen.ReferenceIdeal
import Idealize.ShloMosaic.Lib.StableHlo.Run

set_option maxRecDepth 16384

noncomputable section

namespace Cert.KernelIdeal.Hand

open Idealize.ShloMosaic Idealize.ShloMosaic.TcCoe Cert.KernelIdeal Cert.KernelIdeal.Gen Cert.KernelIdeal.GenP
open Idealize.SL.Sem Idealize.ShloMosaic.StableHlo
open Facts₀ Facts

variable {F : FTy → Type} [FloatOps F] (W : Valuation τ sig (Elt F))

/-! ## The first stretch -/

set_option maxHeartbeats 4000000 in
/-- The source rows of the first edge type: rows of the first node table at row 0 of the first edge table. -/
theorem h0_v22 : StableHlo.after hostOps0 W (Proc.devRef .tc main_v22 : DevRef τ sig) = Cert.ReferenceIdeal.Hand.rows (W (Proc.devRef .tc main_arg0 : DevRef τ sig)) (Cert.ReferenceIdeal.Hand.row0 (W (Proc.devRef .tc main_arg18 : DevRef τ sig))) := by
  after_results_simp
  rfl

set_option maxHeartbeats 4000000 in
/-- The destination rows of the first edge type: rows of the second node table at row 1 of the first edge table. -/
theorem h0_v29 : StableHlo.after hostOps0 W (Proc.devRef .tc main_v29 : DevRef τ sig) = Cert.ReferenceIdeal.Hand.rows (W (Proc.devRef .tc main_arg1 : DevRef τ sig)) (Cert.ReferenceIdeal.Hand.row1 (W (Proc.devRef .tc main_arg18 : DevRef τ sig))) := by
  after_results_simp
  rfl

set_option maxHeartbeats 4000000 in
/-- The source rows of the second edge type: rows of the second node table at row 0 of the second edge table. -/
theorem h0_v36 : StableHlo.after hostOps0 W (Proc.devRef .tc main_v36 : DevRef τ sig) = Cert.ReferenceIdeal.Hand.rows (W (Proc.devRef .tc main_arg1 : DevRef τ sig)) (Cert.ReferenceIdeal.Hand.row0 (W (Proc.devRef .tc main_arg19 : DevRef τ sig))) := by
  after_results_simp
  rfl

set_option maxHeartbeats 4000000 in
/-- The destination rows of the second edge type: rows of the first node table at row 1 of the second edge table. -/
theorem h0_v43 : StableHlo.after hostOps0 W (Proc.devRef .tc main_v43 : DevRef τ sig) = Cert.ReferenceIdeal.Hand.rows (W (Proc.devRef .tc main_arg0 : DevRef τ sig)) (Cert.ReferenceIdeal.Hand.row1 (W (Proc.devRef .tc main_arg19 : DevRef τ sig))) := by
  after_results_simp
  rfl

set_option maxHeartbeats 4000000 in
/-- The destination node ids of the first edge type. -/
theorem h0_v11 : StableHlo.after hostOps0 W (Proc.devRef .tc main_v11 : DevRef τ sig) = Cert.ReferenceIdeal.Hand.row1 (W (Proc.devRef .tc main_arg18 : DevRef τ sig)) := by
  after_results_simp
  rfl

set_option maxHeartbeats 4000000 in
/-- The destination node ids of the second edge type. -/
theorem h0_v15 : StableHlo.after hostOps0 W (Proc.devRef .tc main_v15 : DevRef τ sig) = Cert.ReferenceIdeal.Hand.row1 (W (Proc.devRef .tc main_arg19 : DevRef τ sig)) := by
  after_results_simp
  rfl

set_option maxHeartbeats 4000000 in
/-- The parent encoder's weights, transposed. -/
theorem h0_v0 : StableHlo.after hostOps0 W (Proc.devRef .tc main_v0 : DevRef τ sig) = transpose S128x128 [1, 0] (W (Proc.devRef .tc main_arg2 : DevRef τ sig)) Facts₀.transposes_S128x128_S128x128_1_0 := by
  after_results_simp

set_option maxHeartbeats 4000000 in
/-- The child encoder's weights, transposed. -/
theorem h0_v1 : StableHlo.after hostOps0 W (Proc.devRef .tc main_v1 : DevRef τ sig) = transpose S128x128 [1, 0] (W (Proc.devRef .tc main_arg4 : DevRef τ sig)) Facts₀.transposes_S128x128_S128x128_1_0 := by
  after_results_simp

set_option maxHeartbeats 4000000 in
/-- The hidden layer's weights, transposed and narrowed. -/
theorem h0_v3 : StableHlo.after hostOps0 W (Proc.devRef .tc main_v3 : DevRef τ sig) = truncf .bf16 (transpose S384x128 [1, 0] (W (Proc.devRef .tc main_arg6 : DevRef τ sig)) Facts₀.transposes_S128x384_S384x128_1_0) Facts₀.bitsLt_bf16_f32 := by
  after_results_simp

set_option maxHeartbeats 4000000 in
/-- The first edge type's message weights, transposed. -/
theorem h0_v4 : StableHlo.after hostOps0 W (Proc.devRef .tc main_v4 : DevRef τ sig) = transpose S128x128 [1, 0] (W (Proc.devRef .tc main_arg10 : DevRef τ sig)) Facts₀.transposes_S128x128_S128x128_1_0 := by
  after_results_simp

set_option maxHeartbeats 4000000 in
/-- The first edge type's root weights, transposed. -/
theorem h0_v5 : StableHlo.after hostOps0 W (Proc.devRef .tc main_v5 : DevRef τ sig) = transpose S128x128 [1, 0] (W (Proc.devRef .tc main_arg12 : DevRef τ sig)) Facts₀.transposes_S128x128_S128x128_1_0 := by
  after_results_simp

set_option maxHeartbeats 4000000 in
/-- The second edge type's message weights, transposed. -/
theorem h0_v6 : StableHlo.after hostOps0 W (Proc.devRef .tc main_v6 : DevRef τ sig) = transpose S128x128 [1, 0] (W (Proc.devRef .tc main_arg14 : DevRef τ sig)) Facts₀.transposes_S128x128_S128x128_1_0 := by
  after_results_simp

set_option maxHeartbeats 4000000 in
/-- The second edge type's root weights, transposed. -/
theorem h0_v7 : StableHlo.after hostOps0 W (Proc.devRef .tc main_v7 : DevRef τ sig) = transpose S128x128 [1, 0] (W (Proc.devRef .tc main_arg16 : DevRef τ sig)) Facts₀.transposes_S128x128_S128x128_1_0 := by
  after_results_simp

/-! The first stretch writes no argument. -/

theorem h0_arg0 : StableHlo.after hostOps0 W (Proc.devRef .tc main_arg0 : DevRef τ sig) = W (Proc.devRef .tc main_arg0 : DevRef τ sig) := by
  after_results

theorem h0_arg1 : StableHlo.after hostOps0 W (Proc.devRef .tc main_arg1 : DevRef τ sig) = W (Proc.devRef .tc main_arg1 : DevRef τ sig) := by
  after_results

theorem h0_arg3 : StableHlo.after hostOps0 W (Proc.devRef .tc main_arg3 : DevRef τ sig) = W (Proc.devRef .tc main_arg3 : DevRef τ sig) := by
  after_results

theorem h0_arg5 : StableHlo.after hostOps0 W (Proc.devRef .tc main_arg5 : DevRef τ sig) = W (Proc.devRef .tc main_arg5 : DevRef τ sig) := by
  after_results

theorem h0_arg7 : StableHlo.after hostOps0 W (Proc.devRef .tc main_arg7 : DevRef τ sig) = W (Proc.devRef .tc main_arg7 : DevRef τ sig) := by
  after_results

theorem h0_arg8 : StableHlo.after hostOps0 W (Proc.devRef .tc main_arg8 : DevRef τ sig) = W (Proc.devRef .tc main_arg8 : DevRef τ sig) := by
  after_results

theorem h0_arg9 : StableHlo.after hostOps0 W (Proc.devRef .tc main_arg9 : DevRef τ sig) = W (Proc.devRef .tc main_arg9 : DevRef τ sig) := by
  after_results

theorem h0_arg11 : StableHlo.after hostOps0 W (Proc.devRef .tc main_arg11 : DevRef τ sig) = W (Proc.devRef .tc main_arg11 : DevRef τ sig) := by
  after_results

theorem h0_arg13 : StableHlo.after hostOps0 W (Proc.devRef .tc main_arg13 : DevRef τ sig) = W (Proc.devRef .tc main_arg13 : DevRef τ sig) := by
  after_results

theorem h0_arg15 : StableHlo.after hostOps0 W (Proc.devRef .tc main_arg15 : DevRef τ sig) = W (Proc.devRef .tc main_arg15 : DevRef τ sig) := by
  after_results

theorem h0_arg17 : StableHlo.after hostOps0 W (Proc.devRef .tc main_arg17 : DevRef τ sig) = W (Proc.devRef .tc main_arg17 : DevRef τ sig) := by
  after_results

/-! ## The second stretch -/

/-- The first edge type's messages, widened and summed into their destination nodes. -/
theorem h2_v49 : StableHlo.after hostOps2 W (Proc.devRef .tc main_v49 : DevRef τ sig)
    = Cert.ReferenceIdeal.Hand.segSum (W (Proc.devRef .tc main_v11 : DevRef τ sig)) (extf .f32 (W (Proc.devRef .tc main_v44 : DevRef τ sig)) Facts₀.bitsLt_bf16_f32) := by
  after_results
  rfl

/-- The second edge type's messages, widened and summed into their destination nodes. -/
theorem h2_v53 : StableHlo.after hostOps2 W (Proc.devRef .tc main_v53 : DevRef τ sig)
    = Cert.ReferenceIdeal.Hand.segSum (W (Proc.devRef .tc main_v15 : DevRef τ sig)) (extf .f32 (W (Proc.devRef .tc main_v45 : DevRef τ sig)) Facts₀.bitsLt_bf16_f32) := by
  after_results
  rfl

/-! The second stretch writes none of the other buffers the last two regions read. -/

theorem h2_arg0 : StableHlo.after hostOps2 W (Proc.devRef .tc main_arg0 : DevRef τ sig) = W (Proc.devRef .tc main_arg0 : DevRef τ sig) := by
  after_results

theorem h2_arg1 : StableHlo.after hostOps2 W (Proc.devRef .tc main_arg1 : DevRef τ sig) = W (Proc.devRef .tc main_arg1 : DevRef τ sig) := by
  after_results

theorem h2_v4 : StableHlo.after hostOps2 W (Proc.devRef .tc main_v4 : DevRef τ sig) = W (Proc.devRef .tc main_v4 : DevRef τ sig) := by
  after_results

theorem h2_v5 : StableHlo.after hostOps2 W (Proc.devRef .tc main_v5 : DevRef τ sig) = W (Proc.devRef .tc main_v5 : DevRef τ sig) := by
  after_results

theorem h2_v6 : StableHlo.after hostOps2 W (Proc.devRef .tc main_v6 : DevRef τ sig) = W (Proc.devRef .tc main_v6 : DevRef τ sig) := by
  after_results

theorem h2_v7 : StableHlo.after hostOps2 W (Proc.devRef .tc main_v7 : DevRef τ sig) = W (Proc.devRef .tc main_v7 : DevRef τ sig) := by
  after_results

theorem h2_arg11 : StableHlo.after hostOps2 W (Proc.devRef .tc main_arg11 : DevRef τ sig) = W (Proc.devRef .tc main_arg11 : DevRef τ sig) := by
  after_results

theorem h2_arg13 : StableHlo.after hostOps2 W (Proc.devRef .tc main_arg13 : DevRef τ sig) = W (Proc.devRef .tc main_arg13 : DevRef τ sig) := by
  after_results

theorem h2_arg15 : StableHlo.after hostOps2 W (Proc.devRef .tc main_arg15 : DevRef τ sig) = W (Proc.devRef .tc main_arg15 : DevRef τ sig) := by
  after_results

theorem h2_arg17 : StableHlo.after hostOps2 W (Proc.devRef .tc main_arg17 : DevRef τ sig) = W (Proc.devRef .tc main_arg17 : DevRef τ sig) := by
  after_results

end Cert.KernelIdeal.Hand

end
-- ==== Proof.KFold.lean ====
/-
  The idealized kernel program's two results as functions of its arguments.

  The run's buffer contents at the boundaries between segments are a chain: the launch memory, the first stretch of
  host operations, region 0, region 1, the second stretch, region 2, region 3. A region leaves every buffer that is
  not one of its output arrays as it found it, and its output array at the closed form of the arrays it found; a
  stretch of host operations writes only its own results. Walking the chain backwards from the last boundary, each
  result buffer is the node update of: the messages of its edge type summed into their destination nodes, the node
  table, and the transposed weights; the messages are the edge network of the endpoint rows and the transposed
  weights.
-/
import proofs.«405005_j47493748359690_4_alg».proof.Proof.KernelIdealFrame
import proofs.«405005_j47493748359690_4_alg».proof.Proof.KEdge0
import proofs.«405005_j47493748359690_4_alg».proof.Proof.KEdge1
import proofs.«405005_j47493748359690_4_alg».proof.Proof.KComb2
import proofs.«405005_j47493748359690_4_alg».proof.Proof.KComb3
import proofs.«405005_j47493748359690_4_alg».proof.Proof.KFoldHost

set_option maxRecDepth 16384

noncomputable section

namespace Cert.KernelIdeal.Hand

open Idealize.ShloMosaic Idealize.ShloMosaic.TcCoe Cert.KernelIdeal Cert.KernelIdeal.Gen Cert.KernelIdeal.GenP
open Idealize.SL.Sem Idealize.ShloMosaic.StableHlo
open Cert.ReferenceIdeal.Hand (row0 row1 rows segSum)

variable (m : (ℓ : Loc nD τ sig) → Buf (Elt Ideal) ℓ) (ρ : Dev nD → PrngReg)

/-- An argument's contents at launch. -/
abbrev arg (c : Dev nD) (b : Ref sig .tc) : Buf (Elt Ideal) ((c : Thread nD τ).loc b) := m ((c : Thread nD τ).loc b)

/-! ## At region 0's entry: what the first stretch of host operations leaves -/

theorem V1_v22 (c : Dev nD) : V1 m ρ c main_v22 = rows (F := Ideal) (arg m c main_arg0) (row0 (arg m c main_arg18)) := h0_v22 (W0 m ρ c)
theorem V1_v29 (c : Dev nD) : V1 m ρ c main_v29 = rows (F := Ideal) (arg m c main_arg1) (row1 (arg m c main_arg18)) := h0_v29 (W0 m ρ c)
theorem V1_v36 (c : Dev nD) : V1 m ρ c main_v36 = rows (F := Ideal) (arg m c main_arg1) (row0 (arg m c main_arg19)) := h0_v36 (W0 m ρ c)
theorem V1_v43 (c : Dev nD) : V1 m ρ c main_v43 = rows (F := Ideal) (arg m c main_arg0) (row1 (arg m c main_arg19)) := h0_v43 (W0 m ρ c)
theorem V1_v11 (c : Dev nD) : V1 m ρ c main_v11 = row1 (arg m c main_arg18) := h0_v11 (W0 m ρ c)
theorem V1_v15 (c : Dev nD) : V1 m ρ c main_v15 = row1 (arg m c main_arg19) := h0_v15 (W0 m ρ c)
theorem V1_v0 (c : Dev nD) : V1 m ρ c main_v0 = (transpose S128x128 [1, 0] (arg m c main_arg2) Facts₀.transposes_S128x128_S128x128_1_0) := h0_v0 (W0 m ρ c)
theorem V1_v1 (c : Dev nD) : V1 m ρ c main_v1 = (transpose S128x128 [1, 0] (arg m c main_arg4) Facts₀.transposes_S128x128_S128x128_1_0) := h0_v1 (W0 m ρ c)
theorem V1_v3 (c : Dev nD) : V1 m ρ c main_v3 = (truncf (F := Ideal) .bf16 (transpose S384x128 [1, 0] (arg m c main_arg6) Facts₀.transposes_S128x384_S384x128_1_0) Facts₀.bitsLt_bf16_f32) := h0_v3 (W0 m ρ c)
theorem V1_v4 (c : Dev nD) : V1 m ρ c main_v4 = (transpose S128x128 [1, 0] (arg m c main_arg10) Facts₀.transposes_S128x128_S128x128_1_0) := h0_v4 (W0 m ρ c)
theorem V1_v5 (c : Dev nD) : V1 m ρ c main_v5 = (transpose S128x128 [1, 0] (arg m c main_arg12) Facts₀.transposes_S128x128_S128x128_1_0) := h0_v5 (W0 m ρ c)
theorem V1_v6 (c : Dev nD) : V1 m ρ c main_v6 = (transpose S128x128 [1, 0] (arg m c main_arg14) Facts₀.transposes_S128x128_S128x128_1_0) := h0_v6 (W0 m ρ c)
theorem V1_v7 (c : Dev nD) : V1 m ρ c main_v7 = (transpose S128x128 [1, 0] (arg m c main_arg16) Facts₀.transposes_S128x128_S128x128_1_0) := h0_v7 (W0 m ρ c)
theorem V1_arg0 (c : Dev nD) : V1 m ρ c main_arg0 = (arg m c main_arg0) := h0_arg0 (W0 m ρ c)
theorem V1_arg1 (c : Dev nD) : V1 m ρ c main_arg1 = (arg m c main_arg1) := h0_arg1 (W0 m ρ c)
theorem V1_arg3 (c : Dev nD) : V1 m ρ c main_arg3 = (arg m c main_arg3) := h0_arg3 (W0 m ρ c)
theorem V1_arg5 (c : Dev nD) : V1 m ρ c main_arg5 = (arg m c main_arg5) := h0_arg5 (W0 m ρ c)
theorem V1_arg7 (c : Dev nD) : V1 m ρ c main_arg7 = (arg m c main_arg7) := h0_arg7 (W0 m ρ c)
theorem V1_arg8 (c : Dev nD) : V1 m ρ c main_arg8 = (arg m c main_arg8) := h0_arg8 (W0 m ρ c)
theorem V1_arg9 (c : Dev nD) : V1 m ρ c main_arg9 = (arg m c main_arg9) := h0_arg9 (W0 m ρ c)
theorem V1_arg11 (c : Dev nD) : V1 m ρ c main_arg11 = (arg m c main_arg11) := h0_arg11 (W0 m ρ c)
theorem V1_arg13 (c : Dev nD) : V1 m ρ c main_arg13 = (arg m c main_arg13) := h0_arg13 (W0 m ρ c)
theorem V1_arg15 (c : Dev nD) : V1 m ρ c main_arg15 = (arg m c main_arg15) := h0_arg15 (W0 m ρ c)
theorem V1_arg17 (c : Dev nD) : V1 m ρ c main_arg17 = (arg m c main_arg17) := h0_arg17 (W0 m ρ c)

/-! ## Region 0's output: the first edge type's messages -/

/-- After region 0 its output array holds the edge network of the first edge type's endpoint rows. -/
theorem msg_ab (c : Dev nD) : W2 m ρ c (Proc.devRef .tc main_v44) =
    Gedge (rows (F := Ideal) (arg m c main_arg0) (row0 (arg m c main_arg18))) (rows (F := Ideal) (arg m c main_arg1) (row1 (arg m c main_arg18)))
      (transpose S128x128 [1, 0] (arg m c main_arg2) Facts₀.transposes_S128x128_S128x128_1_0) (arg m c main_arg3) (transpose S128x128 [1, 0] (arg m c main_arg4) Facts₀.transposes_S128x128_S128x128_1_0) (arg m c main_arg5)
      (truncf (F := Ideal) .bf16 (transpose S384x128 [1, 0] (arg m c main_arg6) Facts₀.transposes_S128x384_S384x128_1_0) Facts₀.bitsLt_bf16_f32) (arg m c main_arg7) (arg m c main_arg8) (arg m c main_arg9) := by
  refine (W2_arr m ρ c 10).trans ((final0 (V1 m ρ) c).trans ?_)
  rw [V1_v22 m ρ c, V1_v29 m ρ c, V1_v0 m ρ c, V1_arg3 m ρ c, V1_v1 m ρ c, V1_arg5 m ρ c, V1_v3 m ρ c, V1_arg7 m ρ c,
    V1_arg8 m ρ c, V1_arg9 m ρ c]

/-! ## At region 1's entry: region 0 changed only its output array -/

/-- Region 0 leaves an input window's array as it found it. -/
theorem W2_in (c : Dev nD) (w : Fin cfg0.W) (hin : (cfg0.win w).isOut = false) :
    W2 m ρ c (Proc.devRef .tc (Pipeline.arrRef spec0 w)) = V1 m ρ c (Pipeline.arrRef spec0 w) :=
  (W2_arr m ρ c w).trans (((dat0 (V1 m ρ) c).arrAt_in w hin _).trans (A_eq0 (V1 m ρ) c w))

theorem V2_v36 (c : Dev nD) : V2 m ρ c main_v36 = rows (F := Ideal) (arg m c main_arg1) (row0 (arg m c main_arg19)) :=
  (W2_of_ne m ρ c main_v36 (by decide)).trans (V1_v36 m ρ c)
theorem V2_v43 (c : Dev nD) : V2 m ρ c main_v43 = rows (F := Ideal) (arg m c main_arg0) (row1 (arg m c main_arg19)) :=
  (W2_of_ne m ρ c main_v43 (by decide)).trans (V1_v43 m ρ c)
theorem V2_v0 (c : Dev nD) : V2 m ρ c main_v0 = (transpose S128x128 [1, 0] (arg m c main_arg2) Facts₀.transposes_S128x128_S128x128_1_0) := (W2_in m ρ c 2 rfl).trans (V1_v0 m ρ c)
theorem V2_arg3 (c : Dev nD) : V2 m ρ c main_arg3 = (arg m c main_arg3) := (W2_in m ρ c 3 rfl).trans (V1_arg3 m ρ c)
theorem V2_v1 (c : Dev nD) : V2 m ρ c main_v1 = (transpose S128x128 [1, 0] (arg m c main_arg4) Facts₀.transposes_S128x128_S128x128_1_0) := (W2_in m ρ c 4 rfl).trans (V1_v1 m ρ c)
theorem V2_arg5 (c : Dev nD) : V2 m ρ c main_arg5 = (arg m c main_arg5) := (W2_in m ρ c 5 rfl).trans (V1_arg5 m ρ c)
theorem V2_v3 (c : Dev nD) : V2 m ρ c main_v3 = (truncf (F := Ideal) .bf16 (transpose S384x128 [1, 0] (arg m c main_arg6) Facts₀.transposes_S128x384_S384x128_1_0) Facts₀.bitsLt_bf16_f32) := (W2_in m ρ c 6 rfl).trans (V1_v3 m ρ c)
theorem V2_arg7 (c : Dev nD) : V2 m ρ c main_arg7 = (arg m c main_arg7) := (W2_in m ρ c 7 rfl).trans (V1_arg7 m ρ c)
theorem V2_arg8 (c : Dev nD) : V2 m ρ c main_arg8 = (arg m c main_arg8) := (W2_in m ρ c 8 rfl).trans (V1_arg8 m ρ c)
theorem V2_arg9 (c : Dev nD) : V2 m ρ c main_arg9 = (arg m c main_arg9) := (W2_in m ρ c 9 rfl).trans (V1_arg9 m ρ c)

/-! ## Region 1's output: the second edge type's messages -/

/-- After region 1 its output array holds the edge network of the second edge type's endpoint rows. -/
theorem msg_ba (c : Dev nD) : W3 m ρ c (Proc.devRef .tc main_v45) =
    Gedge (rows (F := Ideal) (arg m c main_arg1) (row0 (arg m c main_arg19))) (rows (F := Ideal) (arg m c main_arg0) (row1 (arg m c main_arg19)))
      (transpose S128x128 [1, 0] (arg m c main_arg2) Facts₀.transposes_S128x128_S128x128_1_0) (arg m c main_arg3) (transpose S128x128 [1, 0] (arg m c main_arg4) Facts₀.transposes_S128x128_S128x128_1_0) (arg m c main_arg5)
      (truncf (F := Ideal) .bf16 (transpose S384x128 [1, 0] (arg m c main_arg6) Facts₀.transposes_S128x384_S384x128_1_0) Facts₀.bitsLt_bf16_f32) (arg m c main_arg7) (arg m c main_arg8) (arg m c main_arg9) := by
  refine (W3_arr m ρ c 10).trans ((final1 (V2 m ρ) c).trans ?_)
  rw [V2_v36 m ρ c, V2_v43 m ρ c, V2_v0 m ρ c, V2_arg3 m ρ c, V2_v1 m ρ c, V2_arg5 m ρ c, V2_v3 m ρ c, V2_arg7 m ρ c,
    V2_arg8 m ρ c, V2_arg9 m ρ c]

/-! ## At the second stretch's entry -/

/-- A buffer that is an array of neither of the first two regions is, after them, as the first stretch left it. -/
theorem W3_by (c : Dev nD) (b : Ref sig .tc) (h0 : ∀ w, Pipeline.arrRef spec0 w ≠ b) (h1 : ∀ w, Pipeline.arrRef spec1 w ≠ b) :
    W3 m ρ c (Proc.devRef .tc b) = V1 m ρ c b :=
  (W3_of_ne m ρ c b h1).trans (W2_of_ne m ρ c b h0)

theorem W3_v44 (c : Dev nD) : W3 m ρ c (Proc.devRef .tc main_v44) =
    Gedge (rows (F := Ideal) (arg m c main_arg0) (row0 (arg m c main_arg18))) (rows (F := Ideal) (arg m c main_arg1) (row1 (arg m c main_arg18)))
      (transpose S128x128 [1, 0] (arg m c main_arg2) Facts₀.transposes_S128x128_S128x128_1_0) (arg m c main_arg3) (transpose S128x128 [1, 0] (arg m c main_arg4) Facts₀.transposes_S128x128_S128x128_1_0) (arg m c main_arg5)
      (truncf (F := Ideal) .bf16 (transpose S384x128 [1, 0] (arg m c main_arg6) Facts₀.transposes_S128x384_S384x128_1_0) Facts₀.bitsLt_bf16_f32) (arg m c main_arg7) (arg m c main_arg8) (arg m c main_arg9) :=
  (W3_of_ne m ρ c main_v44 (by decide)).trans (msg_ab m ρ c)
theorem W3_v11 (c : Dev nD) : W3 m ρ c (Proc.devRef .tc main_v11) = row1 (arg m c main_arg18) :=
  (W3_by m ρ c main_v11 (by decide) (by decide)).trans (V1_v11 m ρ c)
theorem W3_v15 (c : Dev nD) : W3 m ρ c (Proc.devRef .tc main_v15) = row1 (arg m c main_arg19) :=
  (W3_by m ρ c main_v15 (by decide) (by decide)).trans (V1_v15 m ρ c)
theorem W3_v4 (c : Dev nD) : W3 m ρ c (Proc.devRef .tc main_v4) = (transpose S128x128 [1, 0] (arg m c main_arg10) Facts₀.transposes_S128x128_S128x128_1_0) :=
  (W3_by m ρ c main_v4 (by decide) (by decide)).trans (V1_v4 m ρ c)
theorem W3_v5 (c : Dev nD) : W3 m ρ c (Proc.devRef .tc main_v5) = (transpose S128x128 [1, 0] (arg m c main_arg12) Facts₀.transposes_S128x128_S128x128_1_0) :=
  (W3_by m ρ c main_v5 (by decide) (by decide)).trans (V1_v5 m ρ c)
theorem W3_v6 (c : Dev nD) : W3 m ρ c (Proc.devRef .tc main_v6) = (transpose S128x128 [1, 0] (arg m c main_arg14) Facts₀.transposes_S128x128_S128x128_1_0) :=
  (W3_by m ρ c main_v6 (by decide) (by decide)).trans (V1_v6 m ρ c)
theorem W3_v7 (c : Dev nD) : W3 m ρ c (Proc.devRef .tc main_v7) = (transpose S128x128 [1, 0] (arg m c main_arg16) Facts₀.transposes_S128x128_S128x128_1_0) :=
  (W3_by m ρ c main_v7 (by decide) (by decide)).trans (V1_v7 m ρ c)
theorem W3_arg0 (c : Dev nD) : W3 m ρ c (Proc.devRef .tc main_arg0) = (arg m c main_arg0) :=
  (W3_by m ρ c main_arg0 (by decide) (by decide)).trans (V1_arg0 m ρ c)
theorem W3_arg1 (c : Dev nD) : W3 m ρ c (Proc.devRef .tc main_arg1) = (arg m c main_arg1) :=
  (W3_by m ρ c main_arg1 (by decide) (by decide)).trans (V1_arg1 m ρ c)
theorem W3_arg11 (c : Dev nD) : W3 m ρ c (Proc.devRef .tc main_arg11) = (arg m c main_arg11) :=
  (W3_by m ρ c main_arg11 (by decide) (by decide)).trans (V1_arg11 m ρ c)
theorem W3_arg13 (c : Dev nD) : W3 m ρ c (Proc.devRef .tc main_arg13) = (arg m c main_arg13) :=
  (W3_by m ρ c main_arg13 (by decide) (by decide)).trans (V1_arg13 m ρ c)
theorem W3_arg15 (c : Dev nD) : W3 m ρ c (Proc.devRef .tc main_arg15) = (arg m c main_arg15) :=
  (W3_by m ρ c main_arg15 (by decide) (by decide)).trans (V1_arg15 m ρ c)
theorem W3_arg17 (c : Dev nD) : W3 m ρ c (Proc.devRef .tc main_arg17) = (arg m c main_arg17) :=
  (W3_by m ρ c main_arg17 (by decide) (by decide)).trans (V1_arg17 m ρ c)

/-! ## At region 2's entry: what the second stretch leaves -/

/-- The first edge type's messages summed into their destination nodes (widening is the identity on extended reals). -/
theorem V4_v49 (c : Dev nD) : V4 m ρ c main_v49 = segSum (F := Ideal) (row1 (arg m c main_arg18))
    (Gedge (rows (F := Ideal) (arg m c main_arg0) (row0 (arg m c main_arg18))) (rows (F := Ideal) (arg m c main_arg1) (row1 (arg m c main_arg18)))
      (transpose S128x128 [1, 0] (arg m c main_arg2) Facts₀.transposes_S128x128_S128x128_1_0) (arg m c main_arg3) (transpose S128x128 [1, 0] (arg m c main_arg4) Facts₀.transposes_S128x128_S128x128_1_0) (arg m c main_arg5)
      (truncf (F := Ideal) .bf16 (transpose S384x128 [1, 0] (arg m c main_arg6) Facts₀.transposes_S128x384_S384x128_1_0) Facts₀.bitsLt_bf16_f32) (arg m c main_arg7) (arg m c main_arg8) (arg m c main_arg9)) := by
  show StableHlo.after hostOps2 (W3 m ρ c) (Proc.devRef .tc main_v49) = _
  rw [h2_v49, W3_v11 m ρ c, W3_v44 m ρ c]
  rfl

/-- The second edge type's messages summed into their destination nodes. -/
theorem V4_v53 (c : Dev nD) : V4 m ρ c main_v53 = segSum (F := Ideal) (row1 (arg m c main_arg19))
    (Gedge (rows (F := Ideal) (arg m c main_arg1) (row0 (arg m c main_arg19))) (rows (F := Ideal) (arg m c main_arg0) (row1 (arg m c main_arg19)))
      (transpose S128x128 [1, 0] (arg m c main_arg2) Facts₀.transposes_S128x128_S128x128_1_0) (arg m c main_arg3) (transpose S128x128 [1, 0] (arg m c main_arg4) Facts₀.transposes_S128x128_S128x128_1_0) (arg m c main_arg5)
      (truncf (F := Ideal) .bf16 (transpose S384x128 [1, 0] (arg m c main_arg6) Facts₀.transposes_S128x384_S384x128_1_0) Facts₀.bitsLt_bf16_f32) (arg m c main_arg7) (arg m c main_arg8) (arg m c main_arg9)) := by
  show StableHlo.after hostOps2 (W3 m ρ c) (Proc.devRef .tc main_v53) = _
  rw [h2_v53, W3_v15 m ρ c, msg_ba m ρ c]
  rfl

theorem V4_v4 (c : Dev nD) : V4 m ρ c main_v4 = (transpose S128x128 [1, 0] (arg m c main_arg10) Facts₀.transposes_S128x128_S128x128_1_0) :=
  (h2_v4 (W3 m ρ c)).trans (W3_v4 m ρ c)
theorem V4_v5 (c : Dev nD) : V4 m ρ c main_v5 = (transpose S128x128 [1, 0] (arg m c main_arg12) Facts₀.transposes_S128x128_S128x128_1_0) :=
  (h2_v5 (W3 m ρ c)).trans (W3_v5 m ρ c)
theorem V4_v6 (c : Dev nD) : V4 m ρ c main_v6 = (transpose S128x128 [1, 0] (arg m c main_arg14) Facts₀.transposes_S128x128_S128x128_1_0) :=
  (h2_v6 (W3 m ρ c)).trans (W3_v6 m ρ c)
theorem V4_v7 (c : Dev nD) : V4 m ρ c main_v7 = (transpose S128x128 [1, 0] (arg m c main_arg16) Facts₀.transposes_S128x128_S128x128_1_0) :=
  (h2_v7 (W3 m ρ c)).trans (W3_v7 m ρ c)
theorem V4_arg0 (c : Dev nD) : V4 m ρ c main_arg0 = (arg m c main_arg0) :=
  (h2_arg0 (W3 m ρ c)).trans (W3_arg0 m ρ c)
theorem V4_arg1 (c : Dev nD) : V4 m ρ c main_arg1 = (arg m c main_arg1) :=
  (h2_arg1 (W3 m ρ c)).trans (W3_arg1 m ρ c)
theorem V4_arg11 (c : Dev nD) : V4 m ρ c main_arg11 = (arg m c main_arg11) :=
  (h2_arg11 (W3 m ρ c)).trans (W3_arg11 m ρ c)
theorem V4_arg13 (c : Dev nD) : V4 m ρ c main_arg13 = (arg m c main_arg13) :=
  (h2_arg13 (W3 m ρ c)).trans (W3_arg13 m ρ c)
theorem V4_arg15 (c : Dev nD) : V4 m ρ c main_arg15 = (arg m c main_arg15) :=
  (h2_arg15 (W3 m ρ c)).trans (W3_arg15 m ρ c)
theorem V4_arg17 (c : Dev nD) : V4 m ρ c main_arg17 = (arg m c main_arg17) :=
  (h2_arg17 (W3 m ρ c)).trans (W3_arg17 m ρ c)

/-! ## The first result: region 2's output -/

/-- The second node table's new rows: the node update of the first edge type's summed messages. -/
theorem out_b (c : Dev nD) : W6 m ρ c (Proc.devRef .tc main_v54) =
    Gcomb (segSum (F := Ideal) (row1 (arg m c main_arg18)) (Gedge (rows (F := Ideal) (arg m c main_arg0) (row0 (arg m c main_arg18))) (rows (F := Ideal) (arg m c main_arg1) (row1 (arg m c main_arg18)))
      (transpose S128x128 [1, 0] (arg m c main_arg2) Facts₀.transposes_S128x128_S128x128_1_0) (arg m c main_arg3) (transpose S128x128 [1, 0] (arg m c main_arg4) Facts₀.transposes_S128x128_S128x128_1_0) (arg m c main_arg5)
      (truncf (F := Ideal) .bf16 (transpose S384x128 [1, 0] (arg m c main_arg6) Facts₀.transposes_S128x384_S384x128_1_0) Facts₀.bitsLt_bf16_f32) (arg m c main_arg7) (arg m c main_arg8) (arg m c main_arg9)))
      (arg m c main_arg1) (transpose S128x128 [1, 0] (arg m c main_arg10) Facts₀.transposes_S128x128_S128x128_1_0) (arg m c main_arg11) (transpose S128x128 [1, 0] (arg m c main_arg12) Facts₀.transposes_S128x128_S128x128_1_0) (arg m c main_arg13) := by
  refine (W6_of_ne m ρ c main_v54 (by decide)).trans ((W5_arr m ρ c 6).trans ((final2 (V4 m ρ) c).trans ?_))
  rw [V4_v49 m ρ c, V4_arg1 m ρ c, V4_v4 m ρ c, V4_arg11 m ρ c, V4_v5 m ρ c, V4_arg13 m ρ c]

/-! ## At region 3's entry: region 2 changed only its output array -/

/-- A buffer that is no array of region 2 is, after it, as the second stretch left it. -/
theorem V5_by (c : Dev nD) (b : Ref sig .tc) (h2 : ∀ w, Pipeline.arrRef spec2 w ≠ b) : V5 m ρ c b = V4 m ρ c b :=
  W5_of_ne m ρ c b h2

/-! ## The second result: region 3's output -/

/-- The first node table's new rows: the node update of the second edge type's summed messages. -/
theorem out_a (c : Dev nD) : W6 m ρ c (Proc.devRef .tc main_v55) =
    Gcomb (segSum (F := Ideal) (row1 (arg m c main_arg19)) (Gedge (rows (F := Ideal) (arg m c main_arg1) (row0 (arg m c main_arg19))) (rows (F := Ideal) (arg m c main_arg0) (row1 (arg m c main_arg19)))
      (transpose S128x128 [1, 0] (arg m c main_arg2) Facts₀.transposes_S128x128_S128x128_1_0) (arg m c main_arg3) (transpose S128x128 [1, 0] (arg m c main_arg4) Facts₀.transposes_S128x128_S128x128_1_0) (arg m c main_arg5)
      (truncf (F := Ideal) .bf16 (transpose S384x128 [1, 0] (arg m c main_arg6) Facts₀.transposes_S128x384_S384x128_1_0) Facts₀.bitsLt_bf16_f32) (arg m c main_arg7) (arg m c main_arg8) (arg m c main_arg9)))
      (arg m c main_arg0) (transpose S128x128 [1, 0] (arg m c main_arg14) Facts₀.transposes_S128x128_S128x128_1_0) (arg m c main_arg15) (transpose S128x128 [1, 0] (arg m c main_arg16) Facts₀.transposes_S128x128_S128x128_1_0) (arg m c main_arg17) := by
  refine (W6_arr m ρ c 6).trans ((final3 (V5 m ρ) c).trans ?_)
  rw [V5_by m ρ c main_v53 (by decide), V5_by m ρ c main_arg0 (by decide), V5_by m ρ c main_v6 (by decide), V5_by m ρ c main_arg15 (by decide),
    V5_by m ρ c main_v7 (by decide), V5_by m ρ c main_arg17 (by decide),
    V4_v53 m ρ c, V4_arg0 m ρ c, V4_v6 m ρ c, V4_arg15 m ρ c, V4_v7 m ρ c, V4_arg17 m ρ c]

end Cert.KernelIdeal.Hand

end
-- ==== Proof.LibDotPlain.lean ====
/-
  The host's plain matrix product, read at an index.

  For dimension numbers that contract the left operand's axis 1 with the right operand's axis 0, keep the left operand's
  axis 0 and the right operand's axis 1, and have no batch axis, the host's product of `l : [M, K]` and `r : [K, N]` is,
  at `(p, q)`, the sum over `k < K` of `l (p, k) · r (k, q)` on the extended reals: the host's product has no
  accumulator, and its contraction index set has one axis of extent `K`, whose one coordinate re-indexes the sum. The
  four facts about the operands' coordinates are those of the dimension numbers alone and are the ones the accumulating
  product uses.
-/
import Idealize.ShloMosaic.PureOps.Ideal.Laws
import Idealize.ShloMosaic.Lib.ValueIdx
import proofs.«405005_j47493748359690_4_alg».proof.Proof.LibMatmulPlain

noncomputable section

namespace Cert.Lib.DotPlain

open Idealize.ShloMosaic Idealize.ShloMosaic.ValueIdx Cert.Lib.MatmulPlain

variable {M K N : Nat} (d : DotDims ⟨2, ![M, K]⟩ ⟨2, ![K, N]⟩ ⟨2, ![M, N]⟩)

/-- THE HOST'S PRODUCT AT `(p, q)`: the sum over the contracted coordinate of the operands' products. -/
theorem dot_apply {φ₁ φ₂ : FTy} (hlc : d.lhsContracting = [1]) (hrc : d.rhsContracting = [0])
    (hln : d.lhsNonContracting = [0]) (hrn : d.rhsNonContracting = [1]) (hlb : d.lhsBatch = []) (hrb : d.rhsBatch = [])
    (prec : Option ContractPrecision) (l : FVec Ideal ⟨2, ![M, K]⟩ φ₁) (r : FVec Ideal ⟨2, ![K, N]⟩ φ₂) (p : Fin M) (q : Fin N) :
    Host.dotGeneral d prec l r (ix2 p q) = ∑ k : Fin K, l (ix2 p k) * r (ix2 k q) := by
  show FloatOps.dotGeneral d prec HostSchedule.single l r (ix2 p q) = _
  rw [Ideal.dotGeneral_apply]
  rw [← Equiv.sum_comp (contrEquiv1 d K (contr_rank d hlc) (contr_size d hlc)).symm]
  refine Finset.sum_congr rfl fun k _ => ?_
  have hk := contrEquiv1_symm_val d K (contr_rank d hlc) (contr_size d hlc) k
  have el : d.lhsIdx (ix2 p q) ((contrEquiv1 d K (contr_rank d hlc) (contr_size d hlc)).symm k) = ix2 p k := by
    funext a; apply Fin.ext
    match a with
    | ⟨0, _⟩ => exact lhs_0 d hln hlb _ _
    | ⟨1, _⟩ => exact (lhs_1 d hlc _ _).trans hk
  have er : d.rhsIdx (ix2 p q) ((contrEquiv1 d K (contr_rank d hlc) (contr_size d hlc)).symm k) = ix2 k q := by
    funext a; apply Fin.ext
    match a with
    | ⟨0, _⟩ => exact (rhs_0 d hlc hrc _ _).trans hk
    | ⟨1, _⟩ => exact rhs_1 d hrn hln hlb hrb _ _
  rw [el, er]

end Cert.Lib.DotPlain

end
-- ==== Proof.RefValueEnc.lean ====
/-
  The encoders, the features and the hidden layer of the reference, read at an index.

  A bias vector repeated down the edges holds, at `(e, j)`, the vector's entry `j`; the leaky rectifier acts entry by entry;
  a product by a transposed weight matrix holds, at `(e, j)`, the sum over `k` of the row's entry `k` times the weight's
  entry `(j, k)`. So an encoder at `(e, q)` is the specification's encoder of row `e` at `q`; the features at `(e, q)` are the
  first encoder, the second encoder or the absolute difference, by the third of the 384 columns `q` falls in; and the
  hidden layer at `(e, k)` is the rectified weighted sum of the feature row plus the bias.
-/
import proofs.«405005_j47493748359690_4_alg».proof.Proof.RefTerm
import proofs.«405005_j47493748359690_4_alg».proof.Proof.Spec
import proofs.«405005_j47493748359690_4_alg».proof.Proof.Gen.ReferenceIdeal
import proofs.«405005_j47493748359690_4_alg».proof.Proof.LibDotPlain
import proofs.«405005_j47493748359690_4_alg».proof.Proof.LibCat3
import Idealize.ShloMosaic.Lib.ValueIdx
import Idealize.ShloMosaic.Lib.Pipeline.Value
import Idealize.ShloMosaic.Lib.ValueLayout
import Idealize.ShloMosaic.Lib.IdealHost

noncomputable section

namespace Cert.ReferenceIdeal.Hand

open Idealize.ShloMosaic Idealize.ShloMosaic.ValueIdx Cert.ReferenceIdeal

open Facts₀ Facts

/-- A bias vector repeated down the edges: at `(e, j)` the vector's entry `j`. -/
theorem biasEdges_apply (b : FVec Ideal S128 .f32) (e : Fin 500000) (j : Fin 128) :
    biasEdges b (ix2 e j) = b (ix1 j) := by
  unfold biasEdges
  rw [broadcastInDim_apply _ _ _ (ix2 e j) (ix2 (0 : Fin 1) j) (fun a => match a with | ⟨0, _⟩ => rfl | ⟨1, _⟩ => rfl)]
  exact broadcastInDim_apply _ _ _ (ix2 (0 : Fin 1) j) (ix1 j) (fun a => match a with | ⟨0, _⟩ => rfl)

/-- The leaky rectifier at `(e, j)` is the specification's, of the entry there. -/
theorem leaky_apply (x : FVec Ideal S500000x128 .f32) (e : Fin 500000) (j : Fin 128) :
    leaky x (ix2 e j) = Cert.Spec.lrelu (x (ix2 e j)) := by
  unfold leaky Cert.Spec.lrelu
  rw [select_apply, cmpf_apply, mulf_apply, broadcastInDim_scalar_apply, broadcastInDim_scalar_apply, constant_apply,
    constant_apply, Ideal.cmpf_def]

/-- An edge table times a transposed square weight matrix: at `(e, j)` the sum over `k` of `v (e, k) · W (j, k)`. -/
theorem dotT_enc_apply (v : FVec Ideal S500000x128 .f32) (W : FVec Ideal S128x128 .f32) (e : Fin 500000) (j : Fin 128) :
    Host.dotGeneral dot_S500000x128_S128x128_S500000x128_1_0_0_1_n_n none v
        (transpose S128x128 [1, 0] W transposes_S128x128_S128x128_1_0) (ix2 e j)
      = ∑ k : Fin 128, v (ix2 e k) * W (ix2 j k) := by
  rw [Cert.Lib.DotPlain.dot_apply dot_S500000x128_S128x128_S500000x128_1_0_0_1_n_n rfl rfl rfl rfl rfl rfl]
  refine Finset.sum_congr rfl fun k _ => ?_
  rw [transpose_ix2_apply]

/-- AN ENCODER at `(e, q)` is the specification's encoder of row `e` at `q`. -/
theorem encode_apply (v : FVec Ideal S500000x128 .f32) (W : FVec Ideal S128x128 .f32) (b : FVec Ideal S128 .f32)
    (e : Fin 500000) (q : Fin 128) :
    encode v W b (ix2 e q)
      = Cert.Spec.enc (fun p q => W (ix2 q p)) (fun q => b (ix1 q)) (fun p => v (ix2 e p)) q := by
  unfold encode Cert.Spec.enc
  rw [leaky_apply, addf_apply, dotT_enc_apply, biasEdges_apply]

/-- The absolute difference of two tables at `(e, p)`: the larger of the difference and its negative. -/
theorem absDiff_apply (par cld : FVec Ideal S500000x128 .f32) (e : Fin 500000) (p : Fin 128) :
    Host.absf (subf par cld) (ix2 e p) = max (par (ix2 e p) - cld (ix2 e p)) (-(par (ix2 e p) - cld (ix2 e p))) := rfl

/-- THE FEATURES at `(e, q)` are the specification's feature row of edge `e` at `q`. -/
theorem features_apply (par cld : FVec Ideal S500000x128 .f32) (Wp : FVec Ideal S128x128 .f32) (bp : FVec Ideal S128 .f32)
    (Wc : FVec Ideal S128x128 .f32) (bc : FVec Ideal S128 .f32) (e : Fin 500000) (q : Fin 384) :
    features par cld Wp bp Wc bc (ix2 e q)
      = Cert.Spec.feat (fun p => par (ix2 e p)) (fun p => cld (ix2 e p)) (fun p q => Wp (ix2 q p)) (fun q => bp (ix1 q))
          (fun p q => Wc (ix2 q p)) (fun q => bc (ix1 q)) q := by
  unfold features Cert.Spec.feat Cert.Spec.cat3
  refine (Cert.Lib.Cat3.concat3_apply _ _ _ concatenates_S500000x128_S500000x128_S500000x128_S500000x384_d1 e q).trans ?_
  by_cases h1 : q.val < 128
  · rw [dif_pos h1, dif_pos h1, encode_apply]
  · rw [dif_neg h1, dif_neg h1]
    by_cases h2 : q.val < 256
    · rw [dif_pos h2, dif_pos h2, encode_apply]
    · rw [dif_neg h2, dif_neg h2, absDiff_apply]

/-- A feature table times the transposed first-layer weights: at `(e, k)` the sum over `q` of `ft (e, q) · W1 (k, q)`. -/
theorem dotT_hidden_apply (ft : FVec Ideal S500000x384 .f32) (W1 : FVec Ideal S128x384 .f32) (e : Fin 500000) (k : Fin 128) :
    Host.dotGeneral dot_S500000x384_S384x128_S500000x128_1_0_0_1_n_n none ft
        (transpose S384x128 [1, 0] W1 transposes_S128x384_S384x128_1_0) (ix2 e k)
      = ∑ q : Fin 384, ft (ix2 e q) * W1 (ix2 k q) := by
  rw [Cert.Lib.DotPlain.dot_apply dot_S500000x384_S384x128_S500000x128_1_0_0_1_n_n rfl rfl rfl rfl rfl rfl]
  refine Finset.sum_congr rfl fun q _ => ?_
  rw [transpose_ix2_apply]

/-- THE HIDDEN LAYER at `(e, k)`: the rectified weighted sum of the feature row plus the bias. -/
theorem hiddenLayer_apply (ft : FVec Ideal S500000x384 .f32) (W1 : FVec Ideal S128x384 .f32) (b1 : FVec Ideal S128 .f32)
    (e : Fin 500000) (k : Fin 128) :
    hiddenLayer ft W1 b1 (ix2 e k)
      = max ((∑ q : Fin 384, ft (ix2 e q) * W1 (ix2 k q)) + b1 (ix1 k)) (Ideal.ofBits .f32 0x00000000#32) := by
  unfold hiddenLayer
  rw [maximumf_apply, addf_apply, dotT_hidden_apply, biasEdges_apply, broadcastInDim_scalar_apply, constant_apply]

end Cert.ReferenceIdeal.Hand

end
-- ==== Proof.RefValueGate.lean ====
/-
  The gate of the reference, read at an index.

  The gate's argument of edge `e` is the hidden row's weighted sum `Σ_k h (e, k) · W2 (0, k)` plus the one entry of `b2`: the
  product is by the transposed weight row, a column of 128 entries, and the bias is one number repeated down the edges. The
  gate is `1 / (1 + e^(-z))` with both ones the f32 literal of one, which is the logistic function of `z`; it is computed
  once per edge and repeated across the 128 columns.
-/
import proofs.«405005_j47493748359690_4_alg».proof.Proof.RefTerm
import proofs.«405005_j47493748359690_4_alg».proof.Proof.Gen.ReferenceIdeal
import proofs.«405005_j47493748359690_4_alg».proof.Proof.LibDotPlain
import Idealize.ShloMosaic.Lib.ValueIdx
import Idealize.ShloMosaic.Lib.Pipeline.Value
import Idealize.ShloMosaic.Lib.ValueLayout
import Idealize.ShloMosaic.Lib.IdealHost

noncomputable section

namespace Cert.ReferenceIdeal.Hand

open Idealize.ShloMosaic Idealize.ShloMosaic.ValueIdx Cert.ReferenceIdeal

open Facts₀ Facts

/-- A hidden table times the transposed weight row: at `(e, 0)` the sum over `k` of `h (e, k) · W2 (0, k)`. -/
theorem dotT_gate_apply (h : FVec Ideal S500000x128 .f32) (W2 : FVec Ideal S1x128 .f32) (e : Fin 500000) :
    Host.dotGeneral dot_S500000x128_S128x1_S500000x1_1_0_0_1_n_n none h
        (transpose S128x1 [1, 0] W2 transposes_S1x128_S128x1_1_0) (ix2 e (0 : Fin 1))
      = ∑ k : Fin 128, h (ix2 e k) * W2 (ix2 (0 : Fin 1) k) := by
  rw [Cert.Lib.DotPlain.dot_apply dot_S500000x128_S128x1_S500000x1_1_0_0_1_n_n rfl rfl rfl rfl rfl rfl]
  refine Finset.sum_congr rfl fun k _ => ?_
  rw [transpose_ix2_apply]

/-- The one-entry bias repeated down the edges: at `(e, 0)` its entry. -/
theorem biasGate_apply (b2 : FVec Ideal S1 .f32) (e : Fin 500000) :
    broadcastInDim S500000x1 ![0, 1] bcast_S1x1_S500000x1_0_1 (broadcastInDim S1x1 ![1] bcast_S1_S1x1_1 b2) (ix2 e (0 : Fin 1))
      = b2 (ix1 (0 : Fin 1)) := by
  rw [broadcastInDim_apply _ _ _ (ix2 e (0 : Fin 1)) (ix2 (0 : Fin 1) (0 : Fin 1))
    (fun a => match a with | ⟨0, _⟩ => rfl | ⟨1, _⟩ => rfl)]
  exact broadcastInDim_apply _ _ _ (ix2 (0 : Fin 1) (0 : Fin 1)) (ix1 (0 : Fin 1)) (fun a => match a with | ⟨0, _⟩ => rfl)

/-- THE GATE'S ARGUMENT of edge `e`: the hidden row's weighted sum plus `b2`. -/
theorem gateLogit_apply (h : FVec Ideal S500000x128 .f32) (W2 : FVec Ideal S1x128 .f32) (b2 : FVec Ideal S1 .f32) (e : Fin 500000) :
    gateLogit h W2 b2 (ix2 e (0 : Fin 1))
      = (∑ k : Fin 128, h (ix2 e k) * W2 (ix2 (0 : Fin 1) k)) + b2 (ix1 (0 : Fin 1)) := by
  unfold gateLogit
  rw [addf_apply, dotT_gate_apply, biasGate_apply]

/-- The reference's spelling of the gate, at one edge: `1 / (1 + e^(-z))` is the logistic function of `z`. -/
theorem gateScalar_apply (z : FVec Ideal S500000x1 .f32) (i : S500000x1.Idx) :
    Host.divf (broadcastInDim S500000x1 ![] bcast_S_S500000x1 (constant S_ .f32 0x3F800000#32))
        (addf (broadcastInDim S500000x1 ![] bcast_S_S500000x1 (constant S_ .f32 0x3F800000#32)) (Host.exp (Host.negf z))) i
      = Ideal.logistic (z i) := by
  rw [hostDivf_apply, addf_apply, broadcastInDim_scalar_apply, constant_apply, Ideal.ofBits_one_f32]
  rfl

/-- THE GATE at `(e, j)`: the logistic function of the edge's argument, whatever the column. -/
theorem gateCols_apply (z : FVec Ideal S500000x1 .f32) (e : Fin 500000) (j : Fin 128) :
    gateCols z (ix2 e j) = Ideal.logistic (z (ix2 e (0 : Fin 1))) := by
  unfold gateCols
  rw [broadcastInDim_apply _ _ _ (ix2 e j) (ix2 e (0 : Fin 1)) (fun a => match a with | ⟨0, _⟩ => rfl | ⟨1, _⟩ => rfl)]
  rw [broadcastInDim_apply _ _ _ (ix2 e (0 : Fin 1)) (ix1 e) (fun a => match a with | ⟨0, _⟩ => rfl)]
  rw [shapeCast_apply _ _ (ix1 e) (ix2 e (0 : Fin 1)) (by rw [Shape.rowMajor_val_two, Shape.rowMajor_val_one]; show e.val * 1 + 0 = e.val; omega)]
  exact gateScalar_apply z _

end Cert.ReferenceIdeal.Hand

end
-- ==== Proof.RefValueEdge.lean ====
/-
  The edge network of the reference, read at an index.

  At `(e, j)` the edge network holds the source row's entry `j` times the gate of edge `e`. The gate is the logistic function
  of the hidden row's weighted sum plus `b2`; the hidden row is the rectified weighted sums of the feature row plus `b1`;
  the feature row is the specification's. Reading the stages one inside the other gives the specification's value of the
  edge's row at `j`.
-/
import proofs.«405005_j47493748359690_4_alg».proof.Proof.RefTerm
import proofs.«405005_j47493748359690_4_alg».proof.Proof.Spec
import proofs.«405005_j47493748359690_4_alg».proof.Proof.Gen.ReferenceIdeal
import proofs.«405005_j47493748359690_4_alg».proof.Proof.RefValueEnc
import proofs.«405005_j47493748359690_4_alg».proof.Proof.RefValueGate
import Idealize.ShloMosaic.Lib.ValueIdx

noncomputable section

namespace Cert.ReferenceIdeal.Hand

open Idealize.ShloMosaic Idealize.ShloMosaic.ValueIdx Cert.ReferenceIdeal

open Facts₀ Facts

/-- THE EDGE NETWORK AT `(e, j)` is the specification's value of the edge's row at `j`. -/
theorem refEdge_apply (par cld : FVec Ideal S500000x128 .f32) (Wp : FVec Ideal S128x128 .f32) (bp : FVec Ideal S128 .f32)
    (Wc : FVec Ideal S128x128 .f32) (bc : FVec Ideal S128 .f32) (W1 : FVec Ideal S128x384 .f32) (b1 : FVec Ideal S128 .f32)
    (W2 : FVec Ideal S1x128 .f32) (b2 : FVec Ideal S1 .f32) (e : Fin 500000) (j : Fin 128) :
    refEdge par cld Wp bp Wc bc W1 b1 W2 b2 (ix2 e j)
      = Cert.Spec.edgeRow (fun p => par (ix2 e p)) (fun p => cld (ix2 e p)) (fun p q => Wp (ix2 q p)) (fun q => bp (ix1 q))
          (fun p q => Wc (ix2 q p)) (fun q => bc (ix1 q)) (fun q k => W1 (ix2 k q)) (fun k => b1 (ix1 k))
          (fun k => W2 (ix2 0 k)) (b2 (ix1 0)) j := by
  unfold refEdge Cert.Spec.edgeRow Cert.Spec.gate Cert.Spec.hidden
  rw [mulf_apply, gateCols_apply, gateLogit_apply]
  simp only [hiddenLayer_apply, features_apply]

end Cert.ReferenceIdeal.Hand

end
-- ==== Proof.RefValueComb.lean ====
/-
  The node update of the reference, read at an index.

  A bias vector repeated down the nodes holds, at `(n, j)`, the vector's entry `j`. A product by a transposed weight matrix
  holds, at `(n, j)`, the sum over `k` of the row's entry `k` times the weight's entry `(j, k)`. The node update at `(n, j)` is
  therefore the specification's row value: the message row through `Wrelᵀ` plus `brel`, plus the node's own row through
  `Wrootᵀ`, plus `broot`, in that order.
-/
import proofs.«405005_j47493748359690_4_alg».proof.Proof.RefTerm
import proofs.«405005_j47493748359690_4_alg».proof.Proof.Spec
import proofs.«405005_j47493748359690_4_alg».proof.Proof.Gen.ReferenceIdeal
import proofs.«405005_j47493748359690_4_alg».proof.Proof.LibDotPlain
import Idealize.ShloMosaic.Lib.ValueIdx
import Idealize.ShloMosaic.Lib.Pipeline.Value
import Idealize.ShloMosaic.Lib.ValueLayout

noncomputable section

namespace Cert.ReferenceIdeal.Hand

open Idealize.ShloMosaic Idealize.ShloMosaic.ValueIdx Cert.ReferenceIdeal

open Facts₀ Facts

/-- A bias vector repeated down the nodes: at `(n, j)` the vector's entry `j`. -/
theorem biasNodes_apply (b : FVec Ideal S128 .f32) (n : Fin 50000) (j : Fin 128) :
    biasNodes b (ix2 n j) = b (ix1 j) := by
  unfold biasNodes
  rw [broadcastInDim_apply _ _ _ (ix2 n j) (ix2 (0 : Fin 1) j) (fun a => match a with | ⟨0, _⟩ => rfl | ⟨1, _⟩ => rfl)]
  exact broadcastInDim_apply _ _ _ (ix2 (0 : Fin 1) j) (ix1 j) (fun a => match a with | ⟨0, _⟩ => rfl)

/-- A node table times a transposed weight matrix: at `(n, j)` the sum over `k` of `v (n, k) · W (j, k)`. -/
theorem dotT_nodes_apply (v : FVec Ideal S50000x128 .f32) (W : FVec Ideal S128x128 .f32) (n : Fin 50000) (j : Fin 128) :
    Host.dotGeneral dot_S50000x128_S128x128_S50000x128_1_0_0_1_n_n none v
        (transpose S128x128 [1, 0] W transposes_S128x128_S128x128_1_0) (ix2 n j)
      = ∑ k : Fin 128, v (ix2 n k) * W (ix2 j k) := by
  rw [Cert.Lib.DotPlain.dot_apply dot_S50000x128_S128x128_S50000x128_1_0_0_1_n_n rfl rfl rfl rfl rfl rfl]
  refine Finset.sum_congr rfl fun k _ => ?_
  rw [transpose_ix2_apply]

/-- THE NODE UPDATE AT `(n, j)` is the specification's value of the node's row at `j`. -/
theorem refComb_apply (msg x : FVec Ideal S50000x128 .f32) (Wrel : FVec Ideal S128x128 .f32) (brel : FVec Ideal S128 .f32)
    (Wroot : FVec Ideal S128x128 .f32) (broot : FVec Ideal S128 .f32) (n : Fin 50000) (j : Fin 128) :
    refComb msg x Wrel brel Wroot broot (ix2 n j)
      = Cert.Spec.combRow (fun k => msg (ix2 n k)) (fun k => x (ix2 n k)) (fun k q => Wrel (ix2 q k)) (fun q => brel (ix1 q))
          (fun k q => Wroot (ix2 q k)) (fun q => broot (ix1 q)) j := by
  unfold refComb Cert.Spec.combRow
  rw [addf_apply, addf_apply, addf_apply, dotT_nodes_apply, dotT_nodes_apply, biasNodes_apply, biasNodes_apply]

end Cert.ReferenceIdeal.Hand

end
-- ==== Proof.KBridge.lean ====
/-
  The kernel stages' closed form, composed, is the reference's one edge type.

  The edge stage's function of whole arrays takes its weights already transposed (the first layer's also passed through a
  change of format, the identity on the extended reals); the reference multiplies by the transposes itself. A transposed
  matrix read at `(p, q)` is the matrix at `(q, p)`, so at every index the two edge networks are the same value of the
  specification: they are one array, and the sums of messages into the destination nodes, taken of one array, are one array
  too. The node stage's function agrees with the reference's node update the same way, index by index.
-/
import proofs.«405005_j47493748359690_4_alg».proof.Proof.KDefs
import proofs.«405005_j47493748359690_4_alg».proof.Proof.RefTerm
import proofs.«405005_j47493748359690_4_alg».proof.Proof.RefValueEdge
import proofs.«405005_j47493748359690_4_alg».proof.Proof.RefValueComb
import proofs.«405005_j47493748359690_4_alg».proof.Proof.Gen.ReferenceIdeal
import Idealize.ShloMosaic.Lib.ValueIdx
import Idealize.ShloMosaic.Lib.ValueLayout

noncomputable section

namespace Cert.KernelIdeal.Hand

open Idealize.ShloMosaic Idealize.ShloMosaic.ValueIdx Cert.KernelIdeal

open Cert.ReferenceIdeal.Hand (row0 row1 rows segSum refEdge refComb refConv refEdge_apply refComb_apply)

/-- A transposed square weight matrix read at `(p, q)` is the matrix at `(q, p)`. -/
theorem transposeSq_fn (W : FVec Ideal S128x128 .f32) (hT : S128x128.Transposes [1, 0] S128x128) :
    (fun p q : Fin 128 => transpose S128x128 [1, 0] W hT (ix2 p q)) = fun p q => W (ix2 q p) :=
  funext fun p => funext fun q => transpose_ix2_apply W hT p q

/-- The transposed first-layer weights, after the change of format, read at `(q, k)` are the weights at `(k, q)`. -/
theorem transposeW1_fn (W1 : FVec Ideal S128x384 .f32) (hT1 : S128x384.Transposes [1, 0] S384x128)
    (hlt : FTy.bf16.bits < FTy.f32.bits) :
    (fun (q : Fin 384) (k : Fin 128) => truncf .bf16 (transpose S384x128 [1, 0] W1 hT1) hlt (ix2 q k))
      = fun q k => W1 (ix2 k q) :=
  funext fun q => funext fun k => (truncf_apply _ hlt _).trans (transpose_ix2_apply W1 hT1 q k)

/-- THE TWO EDGE NETWORKS ARE ONE ARRAY: the edge stage's function at the transposed weights is the reference's edge
    network. -/
theorem edge_bridge (A B : FVec Ideal S500000x128 .f32) (Wp : FVec Ideal S128x128 .f32) (bp : FVec Ideal S128 .f32)
    (Wc : FVec Ideal S128x128 .f32) (bc : FVec Ideal S128 .f32) (W1 : FVec Ideal S128x384 .f32) (b1 : FVec Ideal S128 .f32)
    (W2 : FVec Ideal S1x128 .f32) (b2 : FVec Ideal S1 .f32)
    (hT : S128x128.Transposes [1, 0] S128x128) (hT1 : S128x384.Transposes [1, 0] S384x128) (hlt : FTy.bf16.bits < FTy.f32.bits) :
    Gedge A B (transpose S128x128 [1, 0] Wp hT) bp (transpose S128x128 [1, 0] Wc hT) bc
        (truncf .bf16 (transpose S384x128 [1, 0] W1 hT1) hlt) b1 W2 b2
      = refEdge A B Wp bp Wc bc W1 b1 W2 b2 := by
  funext i
  obtain ⟨e, j, rfl⟩ : ∃ (e : Fin 500000) (j : Fin 128), i = ix2 e j := ⟨i 0, i 1, eq_ix2 i⟩
  rw [refEdge_apply]
  simp only [Gedge, row2_ix2, col2_ix2]
  rw [transposeSq_fn Wp hT, transposeSq_fn Wc hT, transposeW1_fn W1 hT1 hlt]

/-- ONE EDGE TYPE: the node stage's function of the summed messages of the edge stage's function is the reference's. -/
theorem conv_bridge (xs xd : FVec Ideal S50000x128 .f32) (ei : IVec S2x500000 32) (Wp : FVec Ideal S128x128 .f32)
    (bp : FVec Ideal S128 .f32) (Wc : FVec Ideal S128x128 .f32) (bc : FVec Ideal S128 .f32) (W1 : FVec Ideal S128x384 .f32)
    (b1 : FVec Ideal S128 .f32) (W2 : FVec Ideal S1x128 .f32) (b2 : FVec Ideal S1 .f32) (Wrel : FVec Ideal S128x128 .f32)
    (brel : FVec Ideal S128 .f32) (Wroot : FVec Ideal S128x128 .f32) (broot : FVec Ideal S128 .f32)
    (hT : S128x128.Transposes [1, 0] S128x128) (hT1 : S128x384.Transposes [1, 0] S384x128) (hlt : FTy.bf16.bits < FTy.f32.bits) :
    Gcomb (segSum (F := Ideal) (row1 ei) (Gedge (rows xs (row0 ei)) (rows xd (row1 ei)) (transpose S128x128 [1, 0] Wp hT) bp
        (transpose S128x128 [1, 0] Wc hT) bc (truncf .bf16 (transpose S384x128 [1, 0] W1 hT1) hlt) b1 W2 b2)) xd
        (transpose S128x128 [1, 0] Wrel hT) brel (transpose S128x128 [1, 0] Wroot hT) broot
      = refConv xs xd ei Wp bp Wc bc W1 b1 W2 b2 Wrel brel Wroot broot := by
  rw [edge_bridge (rows xs (row0 ei)) (rows xd (row1 ei)) Wp bp Wc bc W1 b1 W2 b2 hT hT1 hlt]
  unfold refConv
  funext i
  obtain ⟨n, j, rfl⟩ : ∃ (n : Fin 50000) (j : Fin 128), i = ix2 n j := ⟨i 0, i 1, eq_ix2 i⟩
  rw [refComb_apply]
  simp only [Gcomb, row2_ix2, col2_ix2]
  rw [transposeSq_fn Wrel hT, transposeSq_fn Wroot hT]

end Cert.KernelIdeal.Hand

end
-- ==== Proof.KValue.lean ====
/-
  The idealized kernel program's run, its two results stated in the reference's terms.

  Every weakly fair execution ends with the first result buffer at the reference's one-edge-type function of the
  second node table as source, the first as destination, the second edge table and the second edge type's weights,
  the second result buffer at the same function of the first node table as source, the second as destination, the
  first edge table and the first edge type's weights, and the arguments as launched: the run with its results at the
  last boundary's contents, those contents walked back to the arguments, and the closed forms met with the
  reference's function index by index.
-/
import proofs.«405005_j47493748359690_4_alg».proof.Proof.KRun
import proofs.«405005_j47493748359690_4_alg».proof.Proof.KFold
import proofs.«405005_j47493748359690_4_alg».proof.Proof.KBridge

set_option maxRecDepth 16384

noncomputable section

namespace Cert.KernelIdeal.Hand

open Idealize.ShloMosaic Idealize.ShloMosaic.TcCoe Cert.KernelIdeal Cert.KernelIdeal.Gen Cert.KernelIdeal.GenP
open Idealize.SL.Sem
open Cert.ReferenceIdeal.Hand (refConv)

variable (m : (ℓ : Loc nD τ sig) → Buf (Elt Ideal) ℓ) (ρ : Dev nD → PrngReg)

/-- The first result, at the last boundary, is the reference's function of the arguments. -/
theorem out_a_ref (c : Dev nD) : W6 m ρ c (Proc.devRef .tc main_v55)
    = refConv (F := Ideal) (arg m c main_arg1) (arg m c main_arg0) (arg m c main_arg19) (arg m c main_arg2) (arg m c main_arg3) (arg m c main_arg4) (arg m c main_arg5) (arg m c main_arg6) (arg m c main_arg7) (arg m c main_arg8) (arg m c main_arg9) (arg m c main_arg14) (arg m c main_arg15) (arg m c main_arg16) (arg m c main_arg17) :=
  (out_a m ρ c).trans (conv_bridge (arg m c main_arg1) (arg m c main_arg0) (arg m c main_arg19) (arg m c main_arg2) (arg m c main_arg3) (arg m c main_arg4) (arg m c main_arg5) (arg m c main_arg6) (arg m c main_arg7) (arg m c main_arg8) (arg m c main_arg9) (arg m c main_arg14) (arg m c main_arg15) (arg m c main_arg16) (arg m c main_arg17)
    Facts₀.transposes_S128x128_S128x128_1_0 Facts₀.transposes_S128x384_S384x128_1_0 Facts₀.bitsLt_bf16_f32)

/-- The second result, at the last boundary, is the reference's function of the arguments. -/
theorem out_b_ref (c : Dev nD) : W6 m ρ c (Proc.devRef .tc main_v54)
    = refConv (F := Ideal) (arg m c main_arg0) (arg m c main_arg1) (arg m c main_arg18) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13) :=
  (out_b m ρ c).trans (conv_bridge (arg m c main_arg0) (arg m c main_arg1) (arg m c main_arg18) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13)
    Facts₀.transposes_S128x128_S128x128_1_0 Facts₀.transposes_S128x384_S384x128_1_0 Facts₀.bitsLt_bf16_f32)

/-- The run: both results at the reference's function of the arguments, the arguments unchanged. -/
theorem kernel_run : θ_run (defs (F := Ideal)) (onTc (τ := τ) (main (F := Ideal))) ⟨m, fun _ => 0, ρ⟩ (fun r => ∀ c : Dev nD,
      r.2.mem ((c.tc : Thread nD τ).loc main_v55)
        = refConv (F := Ideal) (arg m c main_arg1) (arg m c main_arg0) (arg m c main_arg19) (arg m c main_arg2) (arg m c main_arg3) (arg m c main_arg4) (arg m c main_arg5) (arg m c main_arg6) (arg m c main_arg7) (arg m c main_arg8) (arg m c main_arg9) (arg m c main_arg14) (arg m c main_arg15) (arg m c main_arg16) (arg m c main_arg17)
      ∧ r.2.mem ((c.tc : Thread nD τ).loc main_v54)
        = refConv (F := Ideal) (arg m c main_arg0) (arg m c main_arg1) (arg m c main_arg18) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run (defs (F := Ideal)) _ _).mono
    (fun r h c => ⟨(h c).1.trans (out_a_ref m ρ c), (h c).2.1.trans (out_b_ref m ρ c), (h c).2.2⟩)
    (run_values m ρ)

end Cert.KernelIdeal.Hand

end
-- ==== Proof.RefOps.lean ====
import proofs.«405005_j47493748359690_4_alg».proof.ReferenceIdeal
import Idealize.ShloMosaic.Lib.StableHlo.Run

noncomputable section

namespace Cert.ReferenceIdeal.Hand

open Idealize.ShloMosaic Idealize.ShloMosaic.TcCoe Idealize.SL.Sem Idealize.ShloMosaic.StableHlo Cert.ReferenceIdeal

variable {F : FTy → Type} [FloatOps F] [Facts]

open Facts₀ Facts

/-- The 50 operations of the stretch that ends at `main_v31`, in order. -/
abbrev opsEnc1 : List (HloOp τ sig (Elt F)) :=
  [ StableHlo.unary main_arg18 main_v0 ((extractStridedSlice S1x500000 ![0, 0] · slices_S2x500000_S1x500000_0_0) : (⟨S2x500000, .i32⟩ : BufTy).Contents (Elt F) → (⟨S1x500000, .i32⟩ : BufTy).Contents (Elt F)),
    StableHlo.reshape main_v0 main_v1 rfl shapeCasts_S1x500000_S500000,
    StableHlo.nullary main_c (constantI S_ 32 0#32),
    StableHlo.unary main_c main_v2 (broadcastInDim S500000 ![] bcast_S_S500000 : (⟨S_, .i32⟩ : BufTy).Contents (Elt F) → (⟨S500000, .i32⟩ : BufTy).Contents (Elt F)),
    StableHlo.binary main_v1 main_v2 main_v3 (cmpi .slt : (⟨S500000, .i32⟩ : BufTy).Contents (Elt F) → (⟨S500000, .i32⟩ : BufTy).Contents (Elt F) → (⟨S500000, .i1⟩ : BufTy).Contents (Elt F)),
    StableHlo.nullary main_c_0 (constantI S_ 32 50000#32),
    StableHlo.unary main_c_0 main_v4 (broadcastInDim S500000 ![] bcast_S_S500000 : (⟨S_, .i32⟩ : BufTy).Contents (Elt F) → (⟨S500000, .i32⟩ : BufTy).Contents (Elt F)),
    StableHlo.binary main_v1 main_v4 main_v5 (addi : (⟨S500000, .i32⟩ : BufTy).Contents (Elt F) → (⟨S500000, .i32⟩ : BufTy).Contents (Elt F) → (⟨S500000, .i32⟩ : BufTy).Contents (Elt F)),
    StableHlo.ternary main_v3 main_v5 main_v1 main_v6 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v6 main_v7 (broadcastInDim S500000x1 ![0] bcast_S500000_S500000x1_0 : (⟨S500000, .i32⟩ : BufTy).Contents (Elt F) → (⟨S500000x1, .i32⟩ : BufTy).Contents (Elt F)),
    StableHlo.binary main_arg0 main_v7 main_v8 ((fun x i => Host.gather gather_S50000x128_S500000x1_S500000x128_1_0_n_n_0_1_1128 x i) : (⟨S50000x128, .f32⟩ : BufTy).Contents (Elt F) → (⟨S500000x1, .i32⟩ : BufTy).Contents (Elt F) → (⟨S500000x128, .f32⟩ : BufTy).Contents (Elt F)),
    StableHlo.unary main_arg18 main_v9 ((extractStridedSlice S1x500000 ![1, 0] · slices_S2x500000_S1x500000_1_0) : (⟨S2x500000, .i32⟩ : BufTy).Contents (Elt F) → (⟨S1x500000, .i32⟩ : BufTy).Contents (Elt F)),
    StableHlo.reshape main_v9 main_v10 rfl shapeCasts_S1x500000_S500000,
    StableHlo.nullary main_c_1 (constantI S_ 32 0#32),
    StableHlo.unary main_c_1 main_v11 (broadcastInDim S500000 ![] bcast_S_S500000 : (⟨S_, .i32⟩ : BufTy).Contents (Elt F) → (⟨S500000, .i32⟩ : BufTy).Contents (Elt F)),
    StableHlo.binary main_v10 main_v11 main_v12 (cmpi .slt : (⟨S500000, .i32⟩ : BufTy).Contents (Elt F) → (⟨S500000, .i32⟩ : BufTy).Contents (Elt F) → (⟨S500000, .i1⟩ : BufTy).Contents (Elt F)),
    StableHlo.nullary main_c_2 (constantI S_ 32 50000#32),
    StableHlo.unary main_c_2 main_v13 (broadcastInDim S500000 ![] bcast_S_S500000 : (⟨S_, .i32⟩ : BufTy).Contents (Elt F) → (⟨S500000, .i32⟩ : BufTy).Contents (Elt F)),
    StableHlo.binary main_v10 main_v13 main_v14 (addi : (⟨S500000, .i32⟩ : BufTy).Contents (Elt F) → (⟨S500000, .i32⟩ : BufTy).Contents (Elt F) → (⟨S500000, .i32⟩ : BufTy).Contents (Elt F)),
    StableHlo.ternary main_v12 main_v14 main_v10 main_v15 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v15 main_v16 (broadcastInDim S500000x1 ![0] bcast_S500000_S500000x1_0 : (⟨S500000, .i32⟩ : BufTy).Contents (Elt F) → (⟨S500000x1, .i32⟩ : BufTy).Contents (Elt F)),
    StableHlo.binary main_arg1 main_v16 main_v17 ((fun x i => Host.gather gather_S50000x128_S500000x1_S500000x128_1_0_n_n_0_1_1128 x i) : (⟨S50000x128, .f32⟩ : BufTy).Contents (Elt F) → (⟨S500000x1, .i32⟩ : BufTy).Contents (Elt F) → (⟨S500000x128, .f32⟩ : BufTy).Contents (Elt F)),
    StableHlo.unary main_arg2 main_v18 ((transpose S128x128 [1, 0] · transposes_S128x128_S128x128_1_0) : (⟨S128x128, .f32⟩ : BufTy).Contents (Elt F) → (⟨S128x128, .f32⟩ : BufTy).Contents (Elt F)),
    StableHlo.binary main_v8 main_v18 main_v19 ((fun l r => Host.dotGeneral dot_S500000x128_S128x128_S500000x128_1_0_0_1_n_n none l r) : (⟨S500000x128, .f32⟩ : BufTy).Contents (Elt F) → (⟨S128x128, .f32⟩ : BufTy).Contents (Elt F) → (⟨S500000x128, .f32⟩ : BufTy).Contents (Elt F)),
    StableHlo.unary main_arg3 main_v20 (broadcastInDim S1x128 ![1] bcast_S128_S1x128_1 : (⟨S128, .f32⟩ : BufTy).Contents (Elt F) → (⟨S1x128, .f32⟩ : BufTy).Contents (Elt F)),
    StableHlo.unary main_v20 main_v21 (broadcastInDim S500000x128 ![0, 1] bcast_S1x128_S500000x128_0_1 : (⟨S1x128, .f32⟩ : BufTy).Contents (Elt F) → (⟨S500000x128, .f32⟩ : BufTy).Contents (Elt F)),
    StableHlo.binary main_v19 main_v21 main_v22 (addf : (⟨S500000x128, .f32⟩ : BufTy).Contents (Elt F) → (⟨S500000x128, .f32⟩ : BufTy).Contents (Elt F) → (⟨S500000x128, .f32⟩ : BufTy).Contents (Elt F)),
    StableHlo.nullary main_cst (constant S_ .f32 0x3C23D70A#32),
    StableHlo.TRef.nullary main_call0.cst (constant S_ .f32 0x00000000#32),
    StableHlo.TRef.unary main_call0.cst main_call0.v0 (broadcastInDim S500000x128 ![] bcast_S_S500000x128),
    StableHlo.TRef.binary (.of main_v22 : StableHlo.TRef sig ⟨S500000x128, .f32⟩) main_call0.v0 main_call0.v1 (cmpf .oge),
    StableHlo.TRef.unary (.of main_cst : StableHlo.TRef sig ⟨S_, .f32⟩) main_call0.v2 id,
    StableHlo.TRef.unary main_call0.v2 main_call0.v3 (broadcastInDim S500000x128 ![] bcast_S_S500000x128),
    StableHlo.TRef.binary main_call0.v3 (.of main_v22 : StableHlo.TRef sig ⟨S500000x128, .f32⟩) main_call0.v4 mulf,
    StableHlo.TRef.ternary main_call0.v1 (.of main_v22 : StableHlo.TRef sig ⟨S500000x128, .f32⟩) main_call0.v4 main_call0.call0.v0 select,
    StableHlo.unary main_arg4 main_v24 ((transpose S128x128 [1, 0] · transposes_S128x128_S128x128_1_0) : (⟨S128x128, .f32⟩ : BufTy).Contents (Elt F) → (⟨S128x128, .f32⟩ : BufTy).Contents (Elt F)),
    StableHlo.binary main_v17 main_v24 main_v25 ((fun l r => Host.dotGeneral dot_S500000x128_S128x128_S500000x128_1_0_0_1_n_n none l r) : (⟨S500000x128, .f32⟩ : BufTy).Contents (Elt F) → (⟨S128x128, .f32⟩ : BufTy).Contents (Elt F) → (⟨S500000x128, .f32⟩ : BufTy).Contents (Elt F)),
    StableHlo.unary main_arg5 main_v26 (broadcastInDim S1x128 ![1] bcast_S128_S1x128_1 : (⟨S128, .f32⟩ : BufTy).Contents (Elt F) → (⟨S1x128, .f32⟩ : BufTy).Contents (Elt F)),
    StableHlo.unary main_v26 main_v27 (broadcastInDim S500000x128 ![0, 1] bcast_S1x128_S500000x128_0_1 : (⟨S1x128, .f32⟩ : BufTy).Contents (Elt F) → (⟨S500000x128, .f32⟩ : BufTy).Contents (Elt F)),
    StableHlo.binary main_v25 main_v27 main_v28 (addf : (⟨S500000x128, .f32⟩ : BufTy).Contents (Elt F) → (⟨S500000x128, .f32⟩ : BufTy).Contents (Elt F) → (⟨S500000x128, .f32⟩ : BufTy).Contents (Elt F)),
    StableHlo.nullary main_cst_3 (constant S_ .f32 0x3C23D70A#32),
    StableHlo.TRef.nullary main_call1.cst (constant S_ .f32 0x00000000#32),
    StableHlo.TRef.unary main_call1.cst main_call1.v0 (broadcastInDim S500000x128 ![] bcast_S_S500000x128),
    StableHlo.TRef.binary (.of main_v28 : StableHlo.TRef sig ⟨S500000x128, .f32⟩) main_call1.v0 main_call1.v1 (cmpf .oge),
    StableHlo.TRef.unary (.of main_cst_3 : StableHlo.TRef sig ⟨S_, .f32⟩) main_call1.v2 id,
    StableHlo.TRef.unary main_call1.v2 main_call1.v3 (broadcastInDim S500000x128 ![] bcast_S_S500000x128),
    StableHlo.TRef.binary main_call1.v3 (.of main_v28 : StableHlo.TRef sig ⟨S500000x128, .f32⟩) main_call1.v4 mulf,
    StableHlo.TRef.ternary main_call1.v1 (.of main_v28 : StableHlo.TRef sig ⟨S500000x128, .f32⟩) main_call1.v4 main_call1.call0.v0 select,
    StableHlo.binary main_v8 main_v17 main_v30 (subf : (⟨S500000x128, .f32⟩ : BufTy).Contents (Elt F) → (⟨S500000x128, .f32⟩ : BufTy).Contents (Elt F) → (⟨S500000x128, .f32⟩ : BufTy).Contents (Elt F)),
    StableHlo.unary main_v30 main_v31 (Host.absf : (⟨S500000x128, .f32⟩ : BufTy).Contents (Elt F) → (⟨S500000x128, .f32⟩ : BufTy).Contents (Elt F)) ]

/-- The buffers that stretch writes, in order. -/
abbrev wrEnc1 : List (Ref sig .tc) :=
  [main_v0, main_v1, main_c, main_v2, main_v3, main_c_0, main_v4, main_v5, main_v6, main_v7, main_v8, main_v9, main_v10, main_c_1, main_v11, main_v12, main_c_2, main_v13, main_v14, main_v15, main_v16, main_v17, main_v18, main_v19, main_v20, main_v21, main_v22, main_cst, main_call0_cst, main_call0_v0, main_call0_v1, main_call0_v2, main_call0_v3, main_call0_v4, main_v23, main_v24, main_v25, main_v26, main_v27, main_v28, main_cst_3, main_call1_cst, main_call1_v0, main_call1_v1, main_call1_v2, main_call1_v3, main_call1_v4, main_v29, main_v30, main_v31]

/-- The 24 operations of the stretch that ends at `main_v51`, in order. -/
abbrev opsGate1 : List (HloOp τ sig (Elt F)) :=
  [ StableHlo.nary ![main_v23, main_v29, main_v31] main_v32 (fun u => concatenate S500000x384 1 [⟨S500000x128, u 0⟩, ⟨S500000x128, u 1⟩, ⟨S500000x128, u 2⟩] concatenates_S500000x128_S500000x128_S500000x128_S500000x384_d1),
    StableHlo.unary main_arg6 main_v33 ((transpose S384x128 [1, 0] · transposes_S128x384_S384x128_1_0) : (⟨S128x384, .f32⟩ : BufTy).Contents (Elt F) → (⟨S384x128, .f32⟩ : BufTy).Contents (Elt F)),
    StableHlo.binary main_v32 main_v33 main_v34 ((fun l r => Host.dotGeneral dot_S500000x384_S384x128_S500000x128_1_0_0_1_n_n none l r) : (⟨S500000x384, .f32⟩ : BufTy).Contents (Elt F) → (⟨S384x128, .f32⟩ : BufTy).Contents (Elt F) → (⟨S500000x128, .f32⟩ : BufTy).Contents (Elt F)),
    StableHlo.unary main_arg7 main_v35 (broadcastInDim S1x128 ![1] bcast_S128_S1x128_1 : (⟨S128, .f32⟩ : BufTy).Contents (Elt F) → (⟨S1x128, .f32⟩ : BufTy).Contents (Elt F)),
    StableHlo.unary main_v35 main_v36 (broadcastInDim S500000x128 ![0, 1] bcast_S1x128_S500000x128_0_1 : (⟨S1x128, .f32⟩ : BufTy).Contents (Elt F) → (⟨S500000x128, .f32⟩ : BufTy).Contents (Elt F)),
    StableHlo.binary main_v34 main_v36 main_v37 (addf : (⟨S500000x128, .f32⟩ : BufTy).Contents (Elt F) → (⟨S500000x128, .f32⟩ : BufTy).Contents (Elt F) → (⟨S500000x128, .f32⟩ : BufTy).Contents (Elt F)),
    StableHlo.TRef.nullary main_call2.cst (constant S_ .f32 0x00000000#32),
    StableHlo.TRef.unary main_call2.cst main_call2.v0 (broadcastInDim S500000x128 ![] bcast_S_S500000x128),
    StableHlo.TRef.binary (.of main_v37 : StableHlo.TRef sig ⟨S500000x128, .f32⟩) main_call2.v0 main_call2.v1 maximumf,
    StableHlo.unary main_arg8 main_v39 ((transpose S128x1 [1, 0] · transposes_S1x128_S128x1_1_0) : (⟨S1x128, .f32⟩ : BufTy).Contents (Elt F) → (⟨S128x1, .f32⟩ : BufTy).Contents (Elt F)),
    StableHlo.binary main_v38 main_v39 main_v40 ((fun l r => Host.dotGeneral dot_S500000x128_S128x1_S500000x1_1_0_0_1_n_n none l r) : (⟨S500000x128, .f32⟩ : BufTy).Contents (Elt F) → (⟨S128x1, .f32⟩ : BufTy).Contents (Elt F) → (⟨S500000x1, .f32⟩ : BufTy).Contents (Elt F)),
    StableHlo.unary main_arg9 main_v41 (broadcastInDim S1x1 ![1] bcast_S1_S1x1_1 : (⟨S1, .f32⟩ : BufTy).Contents (Elt F) → (⟨S1x1, .f32⟩ : BufTy).Contents (Elt F)),
    StableHlo.unary main_v41 main_v42 (broadcastInDim S500000x1 ![0, 1] bcast_S1x1_S500000x1_0_1 : (⟨S1x1, .f32⟩ : BufTy).Contents (Elt F) → (⟨S500000x1, .f32⟩ : BufTy).Contents (Elt F)),
    StableHlo.binary main_v40 main_v42 main_v43 (addf : (⟨S500000x1, .f32⟩ : BufTy).Contents (Elt F) → (⟨S500000x1, .f32⟩ : BufTy).Contents (Elt F) → (⟨S500000x1, .f32⟩ : BufTy).Contents (Elt F)),
    StableHlo.unary main_v43 main_v44 (Host.negf : (⟨S500000x1, .f32⟩ : BufTy).Contents (Elt F) → (⟨S500000x1, .f32⟩ : BufTy).Contents (Elt F)),
    StableHlo.unary main_v44 main_v45 (Host.exp : (⟨S500000x1, .f32⟩ : BufTy).Contents (Elt F) → (⟨S500000x1, .f32⟩ : BufTy).Contents (Elt F)),
    StableHlo.nullary main_cst_4 (constant S_ .f32 0x3F800000#32),
    StableHlo.unary main_cst_4 main_v46 (broadcastInDim S500000x1 ![] bcast_S_S500000x1 : (⟨S_, .f32⟩ : BufTy).Contents (Elt F) → (⟨S500000x1, .f32⟩ : BufTy).Contents (Elt F)),
    StableHlo.binary main_v46 main_v45 main_v47 (addf : (⟨S500000x1, .f32⟩ : BufTy).Contents (Elt F) → (⟨S500000x1, .f32⟩ : BufTy).Contents (Elt F) → (⟨S500000x1, .f32⟩ : BufTy).Contents (Elt F)),
    StableHlo.nullary main_cst_5 (constant S_ .f32 0x3F800000#32),
    StableHlo.unary main_cst_5 main_v48 (broadcastInDim S500000x1 ![] bcast_S_S500000x1 : (⟨S_, .f32⟩ : BufTy).Contents (Elt F) → (⟨S500000x1, .f32⟩ : BufTy).Contents (Elt F)),
    StableHlo.binary main_v48 main_v47 main_v49 (Host.divf : (⟨S500000x1, .f32⟩ : BufTy).Contents (Elt F) → (⟨S500000x1, .f32⟩ : BufTy).Contents (Elt F) → (⟨S500000x1, .f32⟩ : BufTy).Contents (Elt F)),
    StableHlo.reshape main_v49 main_v50 rfl shapeCasts_S500000x1_S500000,
    StableHlo.unary main_v50 main_v51 (broadcastInDim S500000x1 ![0] bcast_S500000_S500000x1_0 : (⟨S500000, .f32⟩ : BufTy).Contents (Elt F) → (⟨S500000x1, .f32⟩ : BufTy).Contents (Elt F)) ]

/-- The buffers that stretch writes, in order. -/
abbrev wrGate1 : List (Ref sig .tc) :=
  [main_v32, main_v33, main_v34, main_v35, main_v36, main_v37, main_call2_cst, main_call2_v0, main_v38, main_v39, main_v40, main_v41, main_v42, main_v43, main_v44, main_v45, main_cst_4, main_v46, main_v47, main_cst_5, main_v48, main_v49, main_v50, main_v51]

/-- The 19 operations of the stretch that ends at `main_v69`, in order. -/
abbrev opsUpd1 : List (HloOp τ sig (Elt F)) :=
  [ StableHlo.unary main_v51 main_v52 (broadcastInDim S500000x128 ![0, 1] bcast_S500000x1_S500000x128_0_1 : (⟨S500000x1, .f32⟩ : BufTy).Contents (Elt F) → (⟨S500000x128, .f32⟩ : BufTy).Contents (Elt F)),
    StableHlo.binary main_v8 main_v52 main_v53 (mulf : (⟨S500000x128, .f32⟩ : BufTy).Contents (Elt F) → (⟨S500000x128, .f32⟩ : BufTy).Contents (Elt F) → (⟨S500000x128, .f32⟩ : BufTy).Contents (Elt F)),
    StableHlo.unary main_arg18 main_v54 ((extractStridedSlice S1x500000 ![1, 0] · slices_S2x500000_S1x500000_1_0) : (⟨S2x500000, .i32⟩ : BufTy).Contents (Elt F) → (⟨S1x500000, .i32⟩ : BufTy).Contents (Elt F)),
    StableHlo.reshape main_v54 main_v55 rfl shapeCasts_S1x500000_S500000,
    StableHlo.nullary main_cst_6 (constant S_ .f32 0x00000000#32),
    StableHlo.unary main_cst_6 main_v56 (broadcastInDim S50000x128 ![] bcast_S_S50000x128 : (⟨S_, .f32⟩ : BufTy).Contents (Elt F) → (⟨S50000x128, .f32⟩ : BufTy).Contents (Elt F)),
    StableHlo.unary main_v55 main_v57 (broadcastInDim S500000x1 ![0] bcast_S500000_S500000x1_0 : (⟨S500000, .i32⟩ : BufTy).Contents (Elt F) → (⟨S500000x1, .i32⟩ : BufTy).Contents (Elt F)),
    StableHlo.ternary main_v56 main_v57 main_v53 main_v58 ((fun x i u => Host.scatterAdd scatter_S50000x128_S500000x1_S500000x128_1_0_0_1 x i u) : (⟨S50000x128, .f32⟩ : BufTy).Contents (Elt F) → (⟨S500000x1, .i32⟩ : BufTy).Contents (Elt F) → (⟨S500000x128, .f32⟩ : BufTy).Contents (Elt F) → (⟨S50000x128, .f32⟩ : BufTy).Contents (Elt F)),
    StableHlo.unary main_arg10 main_v59 ((transpose S128x128 [1, 0] · transposes_S128x128_S128x128_1_0) : (⟨S128x128, .f32⟩ : BufTy).Contents (Elt F) → (⟨S128x128, .f32⟩ : BufTy).Contents (Elt F)),
    StableHlo.binary main_v58 main_v59 main_v60 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg11 main_v61 (broadcastInDim S1x128 ![1] bcast_S128_S1x128_1 : (⟨S128, .f32⟩ : BufTy).Contents (Elt F) → (⟨S1x128, .f32⟩ : BufTy).Contents (Elt F)),
    StableHlo.unary main_v61 main_v62 (broadcastInDim S50000x128 ![0, 1] bcast_S1x128_S50000x128_0_1 : (⟨S1x128, .f32⟩ : BufTy).Contents (Elt F) → (⟨S50000x128, .f32⟩ : BufTy).Contents (Elt F)),
    StableHlo.binary main_v60 main_v62 main_v63 (addf : (⟨S50000x128, .f32⟩ : BufTy).Contents (Elt F) → (⟨S50000x128, .f32⟩ : BufTy).Contents (Elt F) → (⟨S50000x128, .f32⟩ : BufTy).Contents (Elt F)),
    StableHlo.unary main_arg12 main_v64 ((transpose S128x128 [1, 0] · transposes_S128x128_S128x128_1_0) : (⟨S128x128, .f32⟩ : BufTy).Contents (Elt F) → (⟨S128x128, .f32⟩ : BufTy).Contents (Elt F)),
    StableHlo.binary main_arg1 main_v64 main_v65 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.binary main_v63 main_v65 main_v66 (addf : (⟨S50000x128, .f32⟩ : BufTy).Contents (Elt F) → (⟨S50000x128, .f32⟩ : BufTy).Contents (Elt F) → (⟨S50000x128, .f32⟩ : BufTy).Contents (Elt F)),
    StableHlo.unary main_arg13 main_v67 (broadcastInDim S1x128 ![1] bcast_S128_S1x128_1 : (⟨S128, .f32⟩ : BufTy).Contents (Elt F) → (⟨S1x128, .f32⟩ : BufTy).Contents (Elt F)),
    StableHlo.unary main_v67 main_v68 (broadcastInDim S50000x128 ![0, 1] bcast_S1x128_S50000x128_0_1 : (⟨S1x128, .f32⟩ : BufTy).Contents (Elt F) → (⟨S50000x128, .f32⟩ : BufTy).Contents (Elt F)),
    StableHlo.binary main_v66 main_v68 main_v69 (addf : (⟨S50000x128, .f32⟩ : BufTy).Contents (Elt F) → (⟨S50000x128, .f32⟩ : BufTy).Contents (Elt F) → (⟨S50000x128, .f32⟩ : BufTy).Contents (Elt F)) ]

/-- The buffers that stretch writes, in order. -/
abbrev wrUpd1 : List (Ref sig .tc) :=
  [main_v52, main_v53, main_v54, main_v55, main_cst_6, main_v56, main_v57, main_v58, main_v59, main_v60, main_v61, main_v62, main_v63, main_v64, main_v65, main_v66, main_v67, main_v68, main_v69]

/-- The 50 operations of the stretch that ends at `main_v101`, in order. -/
abbrev opsEnc2 : List (HloOp τ sig (Elt F)) :=
  [ StableHlo.unary main_arg19 main_v70 ((extractStridedSlice S1x500000 ![0, 0] · slices_S2x500000_S1x500000_0_0) : (⟨S2x500000, .i32⟩ : BufTy).Contents (Elt F) → (⟨S1x500000, .i32⟩ : BufTy).Contents (Elt F)),
    StableHlo.reshape main_v70 main_v71 rfl shapeCasts_S1x500000_S500000,
    StableHlo.nullary main_c_7 (constantI S_ 32 0#32),
    StableHlo.unary main_c_7 main_v72 (broadcastInDim S500000 ![] bcast_S_S500000 : (⟨S_, .i32⟩ : BufTy).Contents (Elt F) → (⟨S500000, .i32⟩ : BufTy).Contents (Elt F)),
    StableHlo.binary main_v71 main_v72 main_v73 (cmpi .slt : (⟨S500000, .i32⟩ : BufTy).Contents (Elt F) → (⟨S500000, .i32⟩ : BufTy).Contents (Elt F) → (⟨S500000, .i1⟩ : BufTy).Contents (Elt F)),
    StableHlo.nullary main_c_8 (constantI S_ 32 50000#32),
    StableHlo.unary main_c_8 main_v74 (broadcastInDim S500000 ![] bcast_S_S500000 : (⟨S_, .i32⟩ : BufTy).Contents (Elt F) → (⟨S500000, .i32⟩ : BufTy).Contents (Elt F)),
    StableHlo.binary main_v71 main_v74 main_v75 (addi : (⟨S500000, .i32⟩ : BufTy).Contents (Elt F) → (⟨S500000, .i32⟩ : BufTy).Contents (Elt F) → (⟨S500000, .i32⟩ : BufTy).Contents (Elt F)),
    StableHlo.ternary main_v73 main_v75 main_v71 main_v76 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v76 main_v77 (broadcastInDim S500000x1 ![0] bcast_S500000_S500000x1_0 : (⟨S500000, .i32⟩ : BufTy).Contents (Elt F) → (⟨S500000x1, .i32⟩ : BufTy).Contents (Elt F)),
    StableHlo.binary main_arg1 main_v77 main_v78 ((fun x i => Host.gather gather_S50000x128_S500000x1_S500000x128_1_0_n_n_0_1_1128 x i) : (⟨S50000x128, .f32⟩ : BufTy).Contents (Elt F) → (⟨S500000x1, .i32⟩ : BufTy).Contents (Elt F) → (⟨S500000x128, .f32⟩ : BufTy).Contents (Elt F)),
    StableHlo.unary main_arg19 main_v79 ((extractStridedSlice S1x500000 ![1, 0] · slices_S2x500000_S1x500000_1_0) : (⟨S2x500000, .i32⟩ : BufTy).Contents (Elt F) → (⟨S1x500000, .i32⟩ : BufTy).Contents (Elt F)),
    StableHlo.reshape main_v79 main_v80 rfl shapeCasts_S1x500000_S500000,
    StableHlo.nullary main_c_9 (constantI S_ 32 0#32),
    StableHlo.unary main_c_9 main_v81 (broadcastInDim S500000 ![] bcast_S_S500000 : (⟨S_, .i32⟩ : BufTy).Contents (Elt F) → (⟨S500000, .i32⟩ : BufTy).Contents (Elt F)),
    StableHlo.binary main_v80 main_v81 main_v82 (cmpi .slt : (⟨S500000, .i32⟩ : BufTy).Contents (Elt F) → (⟨S500000, .i32⟩ : BufTy).Contents (Elt F) → (⟨S500000, .i1⟩ : BufTy).Contents (Elt F)),
    StableHlo.nullary main_c_10 (constantI S_ 32 50000#32),
    StableHlo.unary main_c_10 main_v83 (broadcastInDim S500000 ![] bcast_S_S500000 : (⟨S_, .i32⟩ : BufTy).Contents (Elt F) → (⟨S500000, .i32⟩ : BufTy).Contents (Elt F)),
    StableHlo.binary main_v80 main_v83 main_v84 (addi : (⟨S500000, .i32⟩ : BufTy).Contents (Elt F) → (⟨S500000, .i32⟩ : BufTy).Contents (Elt F) → (⟨S500000, .i32⟩ : BufTy).Contents (Elt F)),
    StableHlo.ternary main_v82 main_v84 main_v80 main_v85 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v85 main_v86 (broadcastInDim S500000x1 ![0] bcast_S500000_S500000x1_0 : (⟨S500000, .i32⟩ : BufTy).Contents (Elt F) → (⟨S500000x1, .i32⟩ : BufTy).Contents (Elt F)),
    StableHlo.binary main_arg0 main_v86 main_v87 ((fun x i => Host.gather gather_S50000x128_S500000x1_S500000x128_1_0_n_n_0_1_1128 x i) : (⟨S50000x128, .f32⟩ : BufTy).Contents (Elt F) → (⟨S500000x1, .i32⟩ : BufTy).Contents (Elt F) → (⟨S500000x128, .f32⟩ : BufTy).Contents (Elt F)),
    StableHlo.unary main_arg2 main_v88 ((transpose S128x128 [1, 0] · transposes_S128x128_S128x128_1_0) : (⟨S128x128, .f32⟩ : BufTy).Contents (Elt F) → (⟨S128x128, .f32⟩ : BufTy).Contents (Elt F)),
    StableHlo.binary main_v78 main_v88 main_v89 ((fun l r => Host.dotGeneral dot_S500000x128_S128x128_S500000x128_1_0_0_1_n_n none l r) : (⟨S500000x128, .f32⟩ : BufTy).Contents (Elt F) → (⟨S128x128, .f32⟩ : BufTy).Contents (Elt F) → (⟨S500000x128, .f32⟩ : BufTy).Contents (Elt F)),
    StableHlo.unary main_arg3 main_v90 (broadcastInDim S1x128 ![1] bcast_S128_S1x128_1 : (⟨S128, .f32⟩ : BufTy).Contents (Elt F) → (⟨S1x128, .f32⟩ : BufTy).Contents (Elt F)),
    StableHlo.unary main_v90 main_v91 (broadcastInDim S500000x128 ![0, 1] bcast_S1x128_S500000x128_0_1 : (⟨S1x128, .f32⟩ : BufTy).Contents (Elt F) → (⟨S500000x128, .f32⟩ : BufTy).Contents (Elt F)),
    StableHlo.binary main_v89 main_v91 main_v92 (addf : (⟨S500000x128, .f32⟩ : BufTy).Contents (Elt F) → (⟨S500000x128, .f32⟩ : BufTy).Contents (Elt F) → (⟨S500000x128, .f32⟩ : BufTy).Contents (Elt F)),
    StableHlo.nullary main_cst_11 (constant S_ .f32 0x3C23D70A#32),
    StableHlo.TRef.nullary main_call3.cst (constant S_ .f32 0x00000000#32),
    StableHlo.TRef.unary main_call3.cst main_call3.v0 (broadcastInDim S500000x128 ![] bcast_S_S500000x128),
    StableHlo.TRef.binary (.of main_v92 : StableHlo.TRef sig ⟨S500000x128, .f32⟩) main_call3.v0 main_call3.v1 (cmpf .oge),
    StableHlo.TRef.unary (.of main_cst_11 : StableHlo.TRef sig ⟨S_, .f32⟩) main_call3.v2 id,
    StableHlo.TRef.unary main_call3.v2 main_call3.v3 (broadcastInDim S500000x128 ![] bcast_S_S500000x128),
    StableHlo.TRef.binary main_call3.v3 (.of main_v92 : StableHlo.TRef sig ⟨S500000x128, .f32⟩) main_call3.v4 mulf,
    StableHlo.TRef.ternary main_call3.v1 (.of main_v92 : StableHlo.TRef sig ⟨S500000x128, .f32⟩) main_call3.v4 main_call3.call0.v0 select,
    StableHlo.unary main_arg4 main_v94 ((transpose S128x128 [1, 0] · transposes_S128x128_S128x128_1_0) : (⟨S128x128, .f32⟩ : BufTy).Contents (Elt F) → (⟨S128x128, .f32⟩ : BufTy).Contents (Elt F)),
    StableHlo.binary main_v87 main_v94 main_v95 ((fun l r => Host.dotGeneral dot_S500000x128_S128x128_S500000x128_1_0_0_1_n_n none l r) : (⟨S500000x128, .f32⟩ : BufTy).Contents (Elt F) → (⟨S128x128, .f32⟩ : BufTy).Contents (Elt F) → (⟨S500000x128, .f32⟩ : BufTy).Contents (Elt F)),
    StableHlo.unary main_arg5 main_v96 (broadcastInDim S1x128 ![1] bcast_S128_S1x128_1 : (⟨S128, .f32⟩ : BufTy).Contents (Elt F) → (⟨S1x128, .f32⟩ : BufTy).Contents (Elt F)),
    StableHlo.unary main_v96 main_v97 (broadcastInDim S500000x128 ![0, 1] bcast_S1x128_S500000x128_0_1 : (⟨S1x128, .f32⟩ : BufTy).Contents (Elt F) → (⟨S500000x128, .f32⟩ : BufTy).Contents (Elt F)),
    StableHlo.binary main_v95 main_v97 main_v98 (addf : (⟨S500000x128, .f32⟩ : BufTy).Contents (Elt F) → (⟨S500000x128, .f32⟩ : BufTy).Contents (Elt F) → (⟨S500000x128, .f32⟩ : BufTy).Contents (Elt F)),
    StableHlo.nullary main_cst_12 (constant S_ .f32 0x3C23D70A#32),
    StableHlo.TRef.nullary main_call4.cst (constant S_ .f32 0x00000000#32),
    StableHlo.TRef.unary main_call4.cst main_call4.v0 (broadcastInDim S500000x128 ![] bcast_S_S500000x128),
    StableHlo.TRef.binary (.of main_v98 : StableHlo.TRef sig ⟨S500000x128, .f32⟩) main_call4.v0 main_call4.v1 (cmpf .oge),
    StableHlo.TRef.unary (.of main_cst_12 : StableHlo.TRef sig ⟨S_, .f32⟩) main_call4.v2 id,
    StableHlo.TRef.unary main_call4.v2 main_call4.v3 (broadcastInDim S500000x128 ![] bcast_S_S500000x128),
    StableHlo.TRef.binary main_call4.v3 (.of main_v98 : StableHlo.TRef sig ⟨S500000x128, .f32⟩) main_call4.v4 mulf,
    StableHlo.TRef.ternary main_call4.v1 (.of main_v98 : StableHlo.TRef sig ⟨S500000x128, .f32⟩) main_call4.v4 main_call4.call0.v0 select,
    StableHlo.binary main_v78 main_v87 main_v100 (subf : (⟨S500000x128, .f32⟩ : BufTy).Contents (Elt F) → (⟨S500000x128, .f32⟩ : BufTy).Contents (Elt F) → (⟨S500000x128, .f32⟩ : BufTy).Contents (Elt F)),
    StableHlo.unary main_v100 main_v101 (Host.absf : (⟨S500000x128, .f32⟩ : BufTy).Contents (Elt F) → (⟨S500000x128, .f32⟩ : BufTy).Contents (Elt F)) ]

/-- The buffers that stretch writes, in order. -/
abbrev wrEnc2 : List (Ref sig .tc) :=
  [main_v70, main_v71, main_c_7, main_v72, main_v73, main_c_8, main_v74, main_v75, main_v76, main_v77, main_v78, main_v79, main_v80, main_c_9, main_v81, main_v82, main_c_10, main_v83, main_v84, main_v85, main_v86, main_v87, main_v88, main_v89, main_v90, main_v91, main_v92, main_cst_11, main_call3_cst, main_call3_v0, main_call3_v1, main_call3_v2, main_call3_v3, main_call3_v4, main_v93, main_v94, main_v95, main_v96, main_v97, main_v98, main_cst_12, main_call4_cst, main_call4_v0, main_call4_v1, main_call4_v2, main_call4_v3, main_call4_v4, main_v99, main_v100, main_v101]

/-- The 3 operations of the stretch that ends at `main_v104`, in order. -/
abbrev opsMix2 : List (HloOp τ sig (Elt F)) :=
  [ StableHlo.nary ![main_v93, main_v99, main_v101] main_v102 (fun u => concatenate S500000x384 1 [⟨S500000x128, u 0⟩, ⟨S500000x128, u 1⟩, ⟨S500000x128, u 2⟩] concatenates_S500000x128_S500000x128_S500000x128_S500000x384_d1),
    StableHlo.unary main_arg6 main_v103 ((transpose S384x128 [1, 0] · transposes_S128x384_S384x128_1_0) : (⟨S128x384, .f32⟩ : BufTy).Contents (Elt F) → (⟨S384x128, .f32⟩ : BufTy).Contents (Elt F)),
    StableHlo.binary main_v102 main_v103 main_v104 ((fun l r => Host.dotGeneral dot_S500000x384_S384x128_S500000x128_1_0_0_1_n_n none l r) : (⟨S500000x384, .f32⟩ : BufTy).Contents (Elt F) → (⟨S384x128, .f32⟩ : BufTy).Contents (Elt F) → (⟨S500000x128, .f32⟩ : BufTy).Contents (Elt F)) ]

/-- The buffers that stretch writes, in order. -/
abbrev wrMix2 : List (Ref sig .tc) :=
  [main_v102, main_v103, main_v104]

/-- The 40 operations of the stretch that ends at `main_v139`, in order. -/
abbrev opsUpd2 : List (HloOp τ sig (Elt F)) :=
  [ StableHlo.unary main_arg7 main_v105 (broadcastInDim S1x128 ![1] bcast_S128_S1x128_1 : (⟨S128, .f32⟩ : BufTy).Contents (Elt F) → (⟨S1x128, .f32⟩ : BufTy).Contents (Elt F)),
    StableHlo.unary main_v105 main_v106 (broadcastInDim S500000x128 ![0, 1] bcast_S1x128_S500000x128_0_1 : (⟨S1x128, .f32⟩ : BufTy).Contents (Elt F) → (⟨S500000x128, .f32⟩ : BufTy).Contents (Elt F)),
    StableHlo.binary main_v104 main_v106 main_v107 (addf : (⟨S500000x128, .f32⟩ : BufTy).Contents (Elt F) → (⟨S500000x128, .f32⟩ : BufTy).Contents (Elt F) → (⟨S500000x128, .f32⟩ : BufTy).Contents (Elt F)),
    StableHlo.TRef.nullary main_call5.cst (constant S_ .f32 0x00000000#32),
    StableHlo.TRef.unary main_call5.cst main_call5.v0 (broadcastInDim S500000x128 ![] bcast_S_S500000x128),
    StableHlo.TRef.binary (.of main_v107 : StableHlo.TRef sig ⟨S500000x128, .f32⟩) main_call5.v0 main_call5.v1 maximumf,
    StableHlo.unary main_arg8 main_v109 ((transpose S128x1 [1, 0] · transposes_S1x128_S128x1_1_0) : (⟨S1x128, .f32⟩ : BufTy).Contents (Elt F) → (⟨S128x1, .f32⟩ : BufTy).Contents (Elt F)),
    StableHlo.binary main_v108 main_v109 main_v110 ((fun l r => Host.dotGeneral dot_S500000x128_S128x1_S500000x1_1_0_0_1_n_n none l r) : (⟨S500000x128, .f32⟩ : BufTy).Contents (Elt F) → (⟨S128x1, .f32⟩ : BufTy).Contents (Elt F) → (⟨S500000x1, .f32⟩ : BufTy).Contents (Elt F)),
    StableHlo.unary main_arg9 main_v111 (broadcastInDim S1x1 ![1] bcast_S1_S1x1_1 : (⟨S1, .f32⟩ : BufTy).Contents (Elt F) → (⟨S1x1, .f32⟩ : BufTy).Contents (Elt F)),
    StableHlo.unary main_v111 main_v112 (broadcastInDim S500000x1 ![0, 1] bcast_S1x1_S500000x1_0_1 : (⟨S1x1, .f32⟩ : BufTy).Contents (Elt F) → (⟨S500000x1, .f32⟩ : BufTy).Contents (Elt F)),
    StableHlo.binary main_v110 main_v112 main_v113 (addf : (⟨S500000x1, .f32⟩ : BufTy).Contents (Elt F) → (⟨S500000x1, .f32⟩ : BufTy).Contents (Elt F) → (⟨S500000x1, .f32⟩ : BufTy).Contents (Elt F)),
    StableHlo.unary main_v113 main_v114 (Host.negf : (⟨S500000x1, .f32⟩ : BufTy).Contents (Elt F) → (⟨S500000x1, .f32⟩ : BufTy).Contents (Elt F)),
    StableHlo.unary main_v114 main_v115 (Host.exp : (⟨S500000x1, .f32⟩ : BufTy).Contents (Elt F) → (⟨S500000x1, .f32⟩ : BufTy).Contents (Elt F)),
    StableHlo.nullary main_cst_13 (constant S_ .f32 0x3F800000#32),
    StableHlo.unary main_cst_13 main_v116 (broadcastInDim S500000x1 ![] bcast_S_S500000x1 : (⟨S_, .f32⟩ : BufTy).Contents (Elt F) → (⟨S500000x1, .f32⟩ : BufTy).Contents (Elt F)),
    StableHlo.binary main_v116 main_v115 main_v117 (addf : (⟨S500000x1, .f32⟩ : BufTy).Contents (Elt F) → (⟨S500000x1, .f32⟩ : BufTy).Contents (Elt F) → (⟨S500000x1, .f32⟩ : BufTy).Contents (Elt F)),
    StableHlo.nullary main_cst_14 (constant S_ .f32 0x3F800000#32),
    StableHlo.unary main_cst_14 main_v118 (broadcastInDim S500000x1 ![] bcast_S_S500000x1 : (⟨S_, .f32⟩ : BufTy).Contents (Elt F) → (⟨S500000x1, .f32⟩ : BufTy).Contents (Elt F)),
    StableHlo.binary main_v118 main_v117 main_v119 (Host.divf : (⟨S500000x1, .f32⟩ : BufTy).Contents (Elt F) → (⟨S500000x1, .f32⟩ : BufTy).Contents (Elt F) → (⟨S500000x1, .f32⟩ : BufTy).Contents (Elt F)),
    StableHlo.reshape main_v119 main_v120 rfl shapeCasts_S500000x1_S500000,
    StableHlo.unary main_v120 main_v121 (broadcastInDim S500000x1 ![0] bcast_S500000_S500000x1_0 : (⟨S500000, .f32⟩ : BufTy).Contents (Elt F) → (⟨S500000x1, .f32⟩ : BufTy).Contents (Elt F)),
    StableHlo.unary main_v121 main_v122 (broadcastInDim S500000x128 ![0, 1] bcast_S500000x1_S500000x128_0_1 : (⟨S500000x1, .f32⟩ : BufTy).Contents (Elt F) → (⟨S500000x128, .f32⟩ : BufTy).Contents (Elt F)),
    StableHlo.binary main_v78 main_v122 main_v123 (mulf : (⟨S500000x128, .f32⟩ : BufTy).Contents (Elt F) → (⟨S500000x128, .f32⟩ : BufTy).Contents (Elt F) → (⟨S500000x128, .f32⟩ : BufTy).Contents (Elt F)),
    StableHlo.unary main_arg19 main_v124 ((extractStridedSlice S1x500000 ![1, 0] · slices_S2x500000_S1x500000_1_0) : (⟨S2x500000, .i32⟩ : BufTy).Contents (Elt F) → (⟨S1x500000, .i32⟩ : BufTy).Contents (Elt F)),
    StableHlo.reshape main_v124 main_v125 rfl shapeCasts_S1x500000_S500000,
    StableHlo.nullary main_cst_15 (constant S_ .f32 0x00000000#32),
    StableHlo.unary main_cst_15 main_v126 (broadcastInDim S50000x128 ![] bcast_S_S50000x128 : (⟨S_, .f32⟩ : BufTy).Contents (Elt F) → (⟨S50000x128, .f32⟩ : BufTy).Contents (Elt F)),
    StableHlo.unary main_v125 main_v127 (broadcastInDim S500000x1 ![0] bcast_S500000_S500000x1_0 : (⟨S500000, .i32⟩ : BufTy).Contents (Elt F) → (⟨S500000x1, .i32⟩ : BufTy).Contents (Elt F)),
    StableHlo.ternary main_v126 main_v127 main_v123 main_v128 ((fun x i u => Host.scatterAdd scatter_S50000x128_S500000x1_S500000x128_1_0_0_1 x i u) : (⟨S50000x128, .f32⟩ : BufTy).Contents (Elt F) → (⟨S500000x1, .i32⟩ : BufTy).Contents (Elt F) → (⟨S500000x128, .f32⟩ : BufTy).Contents (Elt F) → (⟨S50000x128, .f32⟩ : BufTy).Contents (Elt F)),
    StableHlo.unary main_arg14 main_v129 ((transpose S128x128 [1, 0] · transposes_S128x128_S128x128_1_0) : (⟨S128x128, .f32⟩ : BufTy).Contents (Elt F) → (⟨S128x128, .f32⟩ : BufTy).Contents (Elt F)),
    StableHlo.binary main_v128 main_v129 main_v130 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg15 main_v131 (broadcastInDim S1x128 ![1] bcast_S128_S1x128_1 : (⟨S128, .f32⟩ : BufTy).Contents (Elt F) → (⟨S1x128, .f32⟩ : BufTy).Contents (Elt F)),
    StableHlo.unary main_v131 main_v132 (broadcastInDim S50000x128 ![0, 1] bcast_S1x128_S50000x128_0_1 : (⟨S1x128, .f32⟩ : BufTy).Contents (Elt F) → (⟨S50000x128, .f32⟩ : BufTy).Contents (Elt F)),
    StableHlo.binary main_v130 main_v132 main_v133 (addf : (⟨S50000x128, .f32⟩ : BufTy).Contents (Elt F) → (⟨S50000x128, .f32⟩ : BufTy).Contents (Elt F) → (⟨S50000x128, .f32⟩ : BufTy).Contents (Elt F)),
    StableHlo.unary main_arg16 main_v134 ((transpose S128x128 [1, 0] · transposes_S128x128_S128x128_1_0) : (⟨S128x128, .f32⟩ : BufTy).Contents (Elt F) → (⟨S128x128, .f32⟩ : BufTy).Contents (Elt F)),
    StableHlo.binary main_arg0 main_v134 main_v135 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.binary main_v133 main_v135 main_v136 (addf : (⟨S50000x128, .f32⟩ : BufTy).Contents (Elt F) → (⟨S50000x128, .f32⟩ : BufTy).Contents (Elt F) → (⟨S50000x128, .f32⟩ : BufTy).Contents (Elt F)),
    StableHlo.unary main_arg17 main_v137 (broadcastInDim S1x128 ![1] bcast_S128_S1x128_1 : (⟨S128, .f32⟩ : BufTy).Contents (Elt F) → (⟨S1x128, .f32⟩ : BufTy).Contents (Elt F)),
    StableHlo.unary main_v137 main_v138 (broadcastInDim S50000x128 ![0, 1] bcast_S1x128_S50000x128_0_1 : (⟨S1x128, .f32⟩ : BufTy).Contents (Elt F) → (⟨S50000x128, .f32⟩ : BufTy).Contents (Elt F)),
    StableHlo.binary main_v136 main_v138 main_v139 (addf : (⟨S50000x128, .f32⟩ : BufTy).Contents (Elt F) → (⟨S50000x128, .f32⟩ : BufTy).Contents (Elt F) → (⟨S50000x128, .f32⟩ : BufTy).Contents (Elt F)) ]

/-- The buffers that stretch writes, in order. -/
abbrev wrUpd2 : List (Ref sig .tc) :=
  [main_v105, main_v106, main_v107, main_call5_cst, main_call5_v0, main_v108, main_v109, main_v110, main_v111, main_v112, main_v113, main_v114, main_v115, main_cst_13, main_v116, main_v117, main_cst_14, main_v118, main_v119, main_v120, main_v121, main_v122, main_v123, main_v124, main_v125, main_cst_15, main_v126, main_v127, main_v128, main_v129, main_v130, main_v131, main_v132, main_v133, main_v134, main_v135, main_v136, main_v137, main_v138, main_v139]

end Cert.ReferenceIdeal.Hand

end
-- ==== Proof.RefEnc1.lean ====
/-
  The first edge type, first stretch: from the edge table and the two node tables to the selected source and
  destination rows, their two encodings and their absolute difference.

  From any contents of the device's buffers, after the stretch's fifty operations the buffer of the source rows holds
  the node table's rows at the edge table's row 0, the buffer of the destination rows the other node table's rows at
  row 1, the two encoders' buffers the leaky rectifier of the rows times a transposed weight plus a bias, and the last
  buffer the absolute value of the difference of the two selections. A buffer the stretch does not write keeps what
  it held.
-/
import proofs.«405005_j47493748359690_4_alg».proof.Proof.RefOps
import proofs.«405005_j47493748359690_4_alg».proof.Proof.RefTerm

noncomputable section

namespace Cert.ReferenceIdeal.Hand

open Idealize.ShloMosaic Idealize.ShloMosaic.TcCoe Idealize.SL.Sem Idealize.ShloMosaic.StableHlo Cert.ReferenceIdeal

variable {F : FTy → Type} [FloatOps F] [Facts]

open Facts₀ Facts

private theorem single_sub_of_mem {W : List (Ref sig .tc)} {y : Ref sig .tc} (h : y ∈ W) :
    ({Proc.devRef .tc y} : Finset (DevRef τ sig)) ⊆ (W.map (Proc.devRef (τ := τ) .tc)).toFinset :=
  Finset.singleton_subset_iff.mpr (List.mem_toFinset.mpr (List.mem_map_of_mem h))

/-- Every operation of the stretch touches buffers of the TensorCore only. -/
theorem opsEnc1_sub : (opsEnc1 : List (HloOp τ sig (Elt F))).Forall fun op => op.bufs ⊆ tcRefs τ sig := by
  simp only [List.Forall, nullary_bufs_sub, unary_bufs_sub, binary_bufs_sub, ternary_bufs_sub, reshape_bufs_sub, nary_bufs_sub, and_self]

/-- Every operation of the stretch determines what it writes. -/
theorem opsEnc1_fresh : ∀ op ∈ (opsEnc1 : List (HloOp τ sig (Elt F))), op.fresh = ∅ := by
  intro _ h; (repeat (cases h with | head => rfl | tail _ h => ?_)); exact nomatch h

/-- Each operation of the stretch writes one buffer, and `wrEnc1` lists them all. -/
theorem opsEnc1_writes : (opsEnc1 : List (HloOp τ sig (Elt F))).Forall fun op =>
    op.writes ⊆ (wrEnc1.map (Proc.devRef (τ := τ) .tc)).toFinset := by
  simp only [List.Forall, nullary_writes, unary_writes, binary_writes, ternary_writes, reshape_writes, nary_writes]
  repeat' (first | exact single_sub_of_mem (by decide) | refine ⟨single_sub_of_mem (by decide), ?_⟩)

/-- A buffer the stretch does not write keeps its contents through it. -/
theorem enc1_keep (V : Valuation τ sig (Elt F)) (r : Ref sig .tc) (h : r ∉ wrEnc1) :
    after opsEnc1 V (Proc.devRef .tc r) = V (Proc.devRef .tc r) :=
  after_of_writes_sub opsEnc1 V opsEnc1_writes h

set_option maxRecDepth 8192 in
set_option maxHeartbeats 2000000 in
/-- The source rows: the first node table's rows at the edge table's row 0. -/
theorem enc1_par (V : Valuation τ sig (Elt F)) :
    after opsEnc1 V (Proc.devRef .tc main_v8)
      = rows (V (Proc.devRef .tc main_arg0)) (row0 (V (Proc.devRef .tc main_arg18))) := by
  simp only [opsEnc1]
  after_results_simp
  rfl

set_option maxRecDepth 8192 in
set_option maxHeartbeats 2000000 in
/-- The destination rows: the second node table's rows at the edge table's row 1. -/
theorem enc1_cld (V : Valuation τ sig (Elt F)) :
    after opsEnc1 V (Proc.devRef .tc main_v17)
      = rows (V (Proc.devRef .tc main_arg1)) (row1 (V (Proc.devRef .tc main_arg18))) := by
  simp only [opsEnc1]
  after_results_simp
  rfl

set_option maxRecDepth 8192 in
set_option maxHeartbeats 2000000 in
/-- The source rows' encoding. -/
theorem enc1_encPar (V : Valuation τ sig (Elt F)) :
    after opsEnc1 V (Proc.devRef .tc main_v23)
      = encode (rows (V (Proc.devRef .tc main_arg0)) (row0 (V (Proc.devRef .tc main_arg18))))
          (V (Proc.devRef .tc main_arg2)) (V (Proc.devRef .tc main_arg3)) := by
  simp only [opsEnc1]
  after_results_simp
  rfl

set_option maxRecDepth 8192 in
set_option maxHeartbeats 2000000 in
/-- The destination rows' encoding. -/
theorem enc1_encCld (V : Valuation τ sig (Elt F)) :
    after opsEnc1 V (Proc.devRef .tc main_v29)
      = encode (rows (V (Proc.devRef .tc main_arg1)) (row1 (V (Proc.devRef .tc main_arg18))))
          (V (Proc.devRef .tc main_arg4)) (V (Proc.devRef .tc main_arg5)) := by
  simp only [opsEnc1]
  after_results_simp
  rfl

set_option maxRecDepth 8192 in
set_option maxHeartbeats 2000000 in
/-- The absolute difference of the source and the destination rows. -/
theorem enc1_absDiff (V : Valuation τ sig (Elt F)) :
    after opsEnc1 V (Proc.devRef .tc main_v31)
      = Host.absf (subf (rows (V (Proc.devRef .tc main_arg0)) (row0 (V (Proc.devRef .tc main_arg18))))
          (rows (V (Proc.devRef .tc main_arg1)) (row1 (V (Proc.devRef .tc main_arg18))))) := by
  simp only [opsEnc1]
  after_results_simp
  rfl

end Cert.ReferenceIdeal.Hand

end
-- ==== Proof.RefGate1.lean ====
/-
  The first edge type, second stretch: from the three feature pieces to the gate, one number per edge.

  From any contents of the device's buffers, after the stretch's twenty-four operations the last buffer holds, as a
  one-column array, one over one plus the exponential of minus the gate's argument; the argument is the hidden layer
  of the three pieces laid side by side, times the transposed second weight, plus the second bias. A buffer the
  stretch does not write keeps what it held.
-/
import proofs.«405005_j47493748359690_4_alg».proof.Proof.RefOps
import proofs.«405005_j47493748359690_4_alg».proof.Proof.RefTerm

noncomputable section

namespace Cert.ReferenceIdeal.Hand

open Idealize.ShloMosaic Idealize.ShloMosaic.TcCoe Idealize.SL.Sem Idealize.ShloMosaic.StableHlo Cert.ReferenceIdeal

variable {F : FTy → Type} [FloatOps F] [Facts]

open Facts₀ Facts

private theorem single_sub_of_mem {W : List (Ref sig .tc)} {y : Ref sig .tc} (h : y ∈ W) :
    ({Proc.devRef .tc y} : Finset (DevRef τ sig)) ⊆ (W.map (Proc.devRef (τ := τ) .tc)).toFinset :=
  Finset.singleton_subset_iff.mpr (List.mem_toFinset.mpr (List.mem_map_of_mem h))

/-- Every operation of the stretch touches buffers of the TensorCore only. -/
theorem opsGate1_sub : (opsGate1 : List (HloOp τ sig (Elt F))).Forall fun op => op.bufs ⊆ tcRefs τ sig := by
  simp only [List.Forall, nullary_bufs_sub, unary_bufs_sub, binary_bufs_sub, ternary_bufs_sub, reshape_bufs_sub, nary_bufs_sub, and_self]

/-- Every operation of the stretch determines what it writes. -/
theorem opsGate1_fresh : ∀ op ∈ (opsGate1 : List (HloOp τ sig (Elt F))), op.fresh = ∅ := by
  intro _ h; (repeat (cases h with | head => rfl | tail _ h => ?_)); exact nomatch h

/-- Each operation of the stretch writes one buffer, and `wrGate1` lists them all. -/
theorem opsGate1_writes : (opsGate1 : List (HloOp τ sig (Elt F))).Forall fun op =>
    op.writes ⊆ (wrGate1.map (Proc.devRef (τ := τ) .tc)).toFinset := by
  simp only [List.Forall, nullary_writes, unary_writes, binary_writes, ternary_writes, reshape_writes, nary_writes]
  repeat' (first | exact single_sub_of_mem (by decide) | refine ⟨single_sub_of_mem (by decide), ?_⟩)

/-- A buffer the stretch does not write keeps its contents through it. -/
theorem gate1_keep (V : Valuation τ sig (Elt F)) (r : Ref sig .tc) (h : r ∉ wrGate1) :
    after opsGate1 V (Proc.devRef .tc r) = V (Proc.devRef .tc r) :=
  after_of_writes_sub opsGate1 V opsGate1_writes h

set_option maxRecDepth 8192 in
set_option maxHeartbeats 2000000 in
/-- The gate as a one-column array, from the three pieces the stretch starts with. -/
theorem gate1_gate (V : Valuation τ sig (Elt F)) :
    after opsGate1 V (Proc.devRef .tc main_v51)
      = broadcastInDim S500000x1 ![0] bcast_S500000_S500000x1_0
          (shapeCast S500000
            (Host.divf (broadcastInDim S500000x1 ![] bcast_S_S500000x1 (constant S_ .f32 0x3F800000#32))
              (addf (broadcastInDim S500000x1 ![] bcast_S_S500000x1 (constant S_ .f32 0x3F800000#32))
                (Host.exp (Host.negf
                  (gateLogit
                    (hiddenLayer
                      (concatenate S500000x384 1 [⟨S500000x128, V (Proc.devRef .tc main_v23)⟩,
                        ⟨S500000x128, V (Proc.devRef .tc main_v29)⟩, ⟨S500000x128, V (Proc.devRef .tc main_v31)⟩]
                        concatenates_S500000x128_S500000x128_S500000x128_S500000x384_d1)
                      (V (Proc.devRef .tc main_arg6)) (V (Proc.devRef .tc main_arg7)))
                    (V (Proc.devRef .tc main_arg8)) (V (Proc.devRef .tc main_arg9)))))))
            shapeCasts_S500000x1_S500000) := by
  simp only [opsGate1]
  after_results_simp
  rfl

end Cert.ReferenceIdeal.Hand

end
-- ==== Proof.RefUpd1.lean ====
/-
  The first edge type, third stretch: from the source rows and the gate to the updated node table.

  From any contents of the device's buffers, after the stretch's nineteen operations the last buffer holds the node
  update of the messages summed into their destination nodes, a message being the edge's source row times the gate
  repeated across the 128 columns, and the destinations the edge table's row 1. A buffer the stretch does not write
  keeps what it held.
-/
import proofs.«405005_j47493748359690_4_alg».proof.Proof.RefOps
import proofs.«405005_j47493748359690_4_alg».proof.Proof.RefTerm

noncomputable section

namespace Cert.ReferenceIdeal.Hand

open Idealize.ShloMosaic Idealize.ShloMosaic.TcCoe Idealize.SL.Sem Idealize.ShloMosaic.StableHlo Cert.ReferenceIdeal

variable {F : FTy → Type} [FloatOps F] [Facts]

open Facts₀ Facts

private theorem single_sub_of_mem {W : List (Ref sig .tc)} {y : Ref sig .tc} (h : y ∈ W) :
    ({Proc.devRef .tc y} : Finset (DevRef τ sig)) ⊆ (W.map (Proc.devRef (τ := τ) .tc)).toFinset :=
  Finset.singleton_subset_iff.mpr (List.mem_toFinset.mpr (List.mem_map_of_mem h))

/-- Every operation of the stretch touches buffers of the TensorCore only. -/
theorem opsUpd1_sub : (opsUpd1 : List (HloOp τ sig (Elt F))).Forall fun op => op.bufs ⊆ tcRefs τ sig := by
  simp only [List.Forall, nullary_bufs_sub, unary_bufs_sub, binary_bufs_sub, ternary_bufs_sub, reshape_bufs_sub, nary_bufs_sub, and_self]

/-- Every operation of the stretch determines what it writes. -/
theorem opsUpd1_fresh : ∀ op ∈ (opsUpd1 : List (HloOp τ sig (Elt F))), op.fresh = ∅ := by
  intro _ h; (repeat (cases h with | head => rfl | tail _ h => ?_)); exact nomatch h

/-- Each operation of the stretch writes one buffer, and `wrUpd1` lists them all. -/
theorem opsUpd1_writes : (opsUpd1 : List (HloOp τ sig (Elt F))).Forall fun op =>
    op.writes ⊆ (wrUpd1.map (Proc.devRef (τ := τ) .tc)).toFinset := by
  simp only [List.Forall, nullary_writes, unary_writes, binary_writes, ternary_writes, reshape_writes, nary_writes]
  repeat' (first | exact single_sub_of_mem (by decide) | refine ⟨single_sub_of_mem (by decide), ?_⟩)

/-- A buffer the stretch does not write keeps its contents through it. -/
theorem upd1_keep (V : Valuation τ sig (Elt F)) (r : Ref sig .tc) (h : r ∉ wrUpd1) :
    after opsUpd1 V (Proc.devRef .tc r) = V (Proc.devRef .tc r) :=
  after_of_writes_sub opsUpd1 V opsUpd1_writes h

set_option maxRecDepth 8192 in
set_option maxHeartbeats 2000000 in
/-- The updated node table, from the source rows and the one-column gate the stretch starts with. -/
theorem upd1_out (V : Valuation τ sig (Elt F)) :
    after opsUpd1 V (Proc.devRef .tc main_v69)
      = refComb
          (segSum (row1 (V (Proc.devRef .tc main_arg18)))
            (mulf (V (Proc.devRef .tc main_v8))
              (broadcastInDim S500000x128 ![0, 1] bcast_S500000x1_S500000x128_0_1 (V (Proc.devRef .tc main_v51)))))
          (V (Proc.devRef .tc main_arg1)) (V (Proc.devRef .tc main_arg10)) (V (Proc.devRef .tc main_arg11))
          (V (Proc.devRef .tc main_arg12)) (V (Proc.devRef .tc main_arg13)) := by
  simp only [opsUpd1]
  after_results_simp
  rfl

end Cert.ReferenceIdeal.Hand

end
-- ==== Proof.RefEnc2.lean ====
/-
  The second edge type, first stretch: from the edge table and the two node tables, their roles exchanged, to the
  selected source and destination rows, their two encodings and their absolute difference.

  From any contents of the device's buffers, after the stretch's fifty operations the buffer of the source rows holds
  the second node table's rows at this edge table's row 0, the buffer of the destination rows the first node table's
  rows at row 1, the two encoders' buffers the leaky rectifier of the rows times a transposed weight plus a bias, and
  the last buffer the absolute value of the difference of the two selections. A buffer the stretch does not write
  keeps what it held.
-/
import proofs.«405005_j47493748359690_4_alg».proof.Proof.RefOps
import proofs.«405005_j47493748359690_4_alg».proof.Proof.RefTerm

noncomputable section

namespace Cert.ReferenceIdeal.Hand

open Idealize.ShloMosaic Idealize.ShloMosaic.TcCoe Idealize.SL.Sem Idealize.ShloMosaic.StableHlo Cert.ReferenceIdeal

variable {F : FTy → Type} [FloatOps F] [Facts]

open Facts₀ Facts

private theorem single_sub_of_mem {W : List (Ref sig .tc)} {y : Ref sig .tc} (h : y ∈ W) :
    ({Proc.devRef .tc y} : Finset (DevRef τ sig)) ⊆ (W.map (Proc.devRef (τ := τ) .tc)).toFinset :=
  Finset.singleton_subset_iff.mpr (List.mem_toFinset.mpr (List.mem_map_of_mem h))

/-- Every operation of the stretch touches buffers of the TensorCore only. -/
theorem opsEnc2_sub : (opsEnc2 : List (HloOp τ sig (Elt F))).Forall fun op => op.bufs ⊆ tcRefs τ sig := by
  simp only [List.Forall, nullary_bufs_sub, unary_bufs_sub, binary_bufs_sub, ternary_bufs_sub, reshape_bufs_sub, nary_bufs_sub, and_self]

/-- Every operation of the stretch determines what it writes. -/
theorem opsEnc2_fresh : ∀ op ∈ (opsEnc2 : List (HloOp τ sig (Elt F))), op.fresh = ∅ := by
  intro _ h; (repeat (cases h with | head => rfl | tail _ h => ?_)); exact nomatch h

/-- Each operation of the stretch writes one buffer, and `wrEnc2` lists them all. -/
theorem opsEnc2_writes : (opsEnc2 : List (HloOp τ sig (Elt F))).Forall fun op =>
    op.writes ⊆ (wrEnc2.map (Proc.devRef (τ := τ) .tc)).toFinset := by
  simp only [List.Forall, nullary_writes, unary_writes, binary_writes, ternary_writes, reshape_writes, nary_writes]
  repeat' (first | exact single_sub_of_mem (by decide) | refine ⟨single_sub_of_mem (by decide), ?_⟩)

/-- A buffer the stretch does not write keeps its contents through it. -/
theorem enc2_keep (V : Valuation τ sig (Elt F)) (r : Ref sig .tc) (h : r ∉ wrEnc2) :
    after opsEnc2 V (Proc.devRef .tc r) = V (Proc.devRef .tc r) :=
  after_of_writes_sub opsEnc2 V opsEnc2_writes h

set_option maxRecDepth 8192 in
set_option maxHeartbeats 2000000 in
/-- The source rows: the second node table's rows at the edge table's row 0. -/
theorem enc2_par (V : Valuation τ sig (Elt F)) :
    after opsEnc2 V (Proc.devRef .tc main_v78)
      = rows (V (Proc.devRef .tc main_arg1)) (row0 (V (Proc.devRef .tc main_arg19))) := by
  simp only [opsEnc2]
  after_results_simp
  rfl

set_option maxRecDepth 8192 in
set_option maxHeartbeats 2000000 in
/-- The destination rows: the first node table's rows at the edge table's row 1. -/
theorem enc2_cld (V : Valuation τ sig (Elt F)) :
    after opsEnc2 V (Proc.devRef .tc main_v87)
      = rows (V (Proc.devRef .tc main_arg0)) (row1 (V (Proc.devRef .tc main_arg19))) := by
  simp only [opsEnc2]
  after_results_simp
  rfl

set_option maxRecDepth 8192 in
set_option maxHeartbeats 2000000 in
/-- The source rows' encoding. -/
theorem enc2_encPar (V : Valuation τ sig (Elt F)) :
    after opsEnc2 V (Proc.devRef .tc main_v93)
      = encode (rows (V (Proc.devRef .tc main_arg1)) (row0 (V (Proc.devRef .tc main_arg19))))
          (V (Proc.devRef .tc main_arg2)) (V (Proc.devRef .tc main_arg3)) := by
  simp only [opsEnc2]
  after_results_simp
  rfl

set_option maxRecDepth 8192 in
set_option maxHeartbeats 2000000 in
/-- The destination rows' encoding. -/
theorem enc2_encCld (V : Valuation τ sig (Elt F)) :
    after opsEnc2 V (Proc.devRef .tc main_v99)
      = encode (rows (V (Proc.devRef .tc main_arg0)) (row1 (V (Proc.devRef .tc main_arg19))))
          (V (Proc.devRef .tc main_arg4)) (V (Proc.devRef .tc main_arg5)) := by
  simp only [opsEnc2]
  after_results_simp
  rfl

set_option maxRecDepth 8192 in
set_option maxHeartbeats 2000000 in
/-- The absolute difference of the source and the destination rows. -/
theorem enc2_absDiff (V : Valuation τ sig (Elt F)) :
    after opsEnc2 V (Proc.devRef .tc main_v101)
      = Host.absf (subf (rows (V (Proc.devRef .tc main_arg1)) (row0 (V (Proc.devRef .tc main_arg19))))
          (rows (V (Proc.devRef .tc main_arg0)) (row1 (V (Proc.devRef .tc main_arg19))))) := by
  simp only [opsEnc2]
  after_results_simp
  rfl

end Cert.ReferenceIdeal.Hand

end
-- ==== Proof.RefMix2.lean ====
/-
  The second edge type, second stretch: the three feature pieces laid side by side, times the transposed first
  weight of the hidden layer.

  From any contents of the device's buffers, after the stretch's three operations the last buffer holds that product.
  A buffer the stretch does not write keeps what it held.
-/
import proofs.«405005_j47493748359690_4_alg».proof.Proof.RefOps
import proofs.«405005_j47493748359690_4_alg».proof.Proof.RefTerm

noncomputable section

namespace Cert.ReferenceIdeal.Hand

open Idealize.ShloMosaic Idealize.ShloMosaic.TcCoe Idealize.SL.Sem Idealize.ShloMosaic.StableHlo Cert.ReferenceIdeal

variable {F : FTy → Type} [FloatOps F] [Facts]

open Facts₀ Facts

private theorem single_sub_of_mem {W : List (Ref sig .tc)} {y : Ref sig .tc} (h : y ∈ W) :
    ({Proc.devRef .tc y} : Finset (DevRef τ sig)) ⊆ (W.map (Proc.devRef (τ := τ) .tc)).toFinset :=
  Finset.singleton_subset_iff.mpr (List.mem_toFinset.mpr (List.mem_map_of_mem h))

/-- Every operation of the stretch touches buffers of the TensorCore only. -/
theorem opsMix2_sub : (opsMix2 : List (HloOp τ sig (Elt F))).Forall fun op => op.bufs ⊆ tcRefs τ sig := by
  simp only [List.Forall, nullary_bufs_sub, unary_bufs_sub, binary_bufs_sub, ternary_bufs_sub, reshape_bufs_sub, nary_bufs_sub, and_self]

/-- Every operation of the stretch determines what it writes. -/
theorem opsMix2_fresh : ∀ op ∈ (opsMix2 : List (HloOp τ sig (Elt F))), op.fresh = ∅ := by
  intro _ h; (repeat (cases h with | head => rfl | tail _ h => ?_)); exact nomatch h

/-- Each operation of the stretch writes one buffer, and `wrMix2` lists them all. -/
theorem opsMix2_writes : (opsMix2 : List (HloOp τ sig (Elt F))).Forall fun op =>
    op.writes ⊆ (wrMix2.map (Proc.devRef (τ := τ) .tc)).toFinset := by
  simp only [List.Forall, nullary_writes, unary_writes, binary_writes, ternary_writes, reshape_writes, nary_writes]
  repeat' (first | exact single_sub_of_mem (by decide) | refine ⟨single_sub_of_mem (by decide), ?_⟩)

/-- A buffer the stretch does not write keeps its contents through it. -/
theorem mix2_keep (V : Valuation τ sig (Elt F)) (r : Ref sig .tc) (h : r ∉ wrMix2) :
    after opsMix2 V (Proc.devRef .tc r) = V (Proc.devRef .tc r) :=
  after_of_writes_sub opsMix2 V opsMix2_writes h

set_option maxRecDepth 8192 in
set_option maxHeartbeats 2000000 in
/-- The three pieces side by side times the transposed weight. -/
theorem mix2_out (V : Valuation τ sig (Elt F)) :
    after opsMix2 V (Proc.devRef .tc main_v104)
      = Host.dotGeneral dot_S500000x384_S384x128_S500000x128_1_0_0_1_n_n none
          (concatenate S500000x384 1 [⟨S500000x128, V (Proc.devRef .tc main_v93)⟩,
            ⟨S500000x128, V (Proc.devRef .tc main_v99)⟩, ⟨S500000x128, V (Proc.devRef .tc main_v101)⟩]
            concatenates_S500000x128_S500000x128_S500000x128_S500000x384_d1)
          (transpose S384x128 [1, 0] (V (Proc.devRef .tc main_arg6)) transposes_S128x384_S384x128_1_0) := by
  simp only [opsMix2]
  after_results_simp
  rfl

end Cert.ReferenceIdeal.Hand

end
-- ==== Proof.RefUpd2.lean ====
/-
  The second edge type, last stretch: from the hidden layer's product, the source rows and the weights to the
  updated node table.

  From any contents of the device's buffers, after the stretch's forty operations the last buffer holds the node
  update of the messages summed into their destination nodes; a message is the edge's source row times the gate, and
  the gate's argument is the rectified product-plus-bias times the transposed second weight, plus the second bias. A
  buffer the stretch does not write keeps what it held.
-/
import proofs.«405005_j47493748359690_4_alg».proof.Proof.RefOps
import proofs.«405005_j47493748359690_4_alg».proof.Proof.RefTerm

noncomputable section

namespace Cert.ReferenceIdeal.Hand

open Idealize.ShloMosaic Idealize.ShloMosaic.TcCoe Idealize.SL.Sem Idealize.ShloMosaic.StableHlo Cert.ReferenceIdeal

variable {F : FTy → Type} [FloatOps F] [Facts]

open Facts₀ Facts

private theorem single_sub_of_mem {W : List (Ref sig .tc)} {y : Ref sig .tc} (h : y ∈ W) :
    ({Proc.devRef .tc y} : Finset (DevRef τ sig)) ⊆ (W.map (Proc.devRef (τ := τ) .tc)).toFinset :=
  Finset.singleton_subset_iff.mpr (List.mem_toFinset.mpr (List.mem_map_of_mem h))

/-- Every operation of the stretch touches buffers of the TensorCore only. -/
theorem opsUpd2_sub : (opsUpd2 : List (HloOp τ sig (Elt F))).Forall fun op => op.bufs ⊆ tcRefs τ sig := by
  simp only [List.Forall, nullary_bufs_sub, unary_bufs_sub, binary_bufs_sub, ternary_bufs_sub, reshape_bufs_sub, nary_bufs_sub, and_self]

/-- Every operation of the stretch determines what it writes. -/
theorem opsUpd2_fresh : ∀ op ∈ (opsUpd2 : List (HloOp τ sig (Elt F))), op.fresh = ∅ := by
  intro _ h; (repeat (cases h with | head => rfl | tail _ h => ?_)); exact nomatch h

/-- Each operation of the stretch writes one buffer, and `wrUpd2` lists them all. -/
theorem opsUpd2_writes : (opsUpd2 : List (HloOp τ sig (Elt F))).Forall fun op =>
    op.writes ⊆ (wrUpd2.map (Proc.devRef (τ := τ) .tc)).toFinset := by
  simp only [List.Forall, nullary_writes, unary_writes, binary_writes, ternary_writes, reshape_writes, nary_writes]
  repeat' (first | exact single_sub_of_mem (by decide) | refine ⟨single_sub_of_mem (by decide), ?_⟩)

/-- A buffer the stretch does not write keeps its contents through it. -/
theorem upd2_keep (V : Valuation τ sig (Elt F)) (r : Ref sig .tc) (h : r ∉ wrUpd2) :
    after opsUpd2 V (Proc.devRef .tc r) = V (Proc.devRef .tc r) :=
  after_of_writes_sub opsUpd2 V opsUpd2_writes h

set_option maxRecDepth 8192 in
set_option maxHeartbeats 2000000 in
/-- The updated node table, from the hidden layer's product and the source rows the stretch starts with. -/
theorem upd2_out (V : Valuation τ sig (Elt F)) :
    after opsUpd2 V (Proc.devRef .tc main_v139)
      = refComb
          (segSum (row1 (V (Proc.devRef .tc main_arg19)))
            (mulf (V (Proc.devRef .tc main_v78))
              (gateCols
                (gateLogit
                  (maximumf (addf (V (Proc.devRef .tc main_v104)) (biasEdges (V (Proc.devRef .tc main_arg7))))
                    (broadcastInDim S500000x128 ![] bcast_S_S500000x128 (constant S_ .f32 0x00000000#32)))
                  (V (Proc.devRef .tc main_arg8)) (V (Proc.devRef .tc main_arg9))))))
          (V (Proc.devRef .tc main_arg0)) (V (Proc.devRef .tc main_arg14)) (V (Proc.devRef .tc main_arg15))
          (V (Proc.devRef .tc main_arg16)) (V (Proc.devRef .tc main_arg17)) := by
  simp only [opsUpd2]
  after_results_simp
  rfl

end Cert.ReferenceIdeal.Hand

end
-- ==== Proof.RefMainEq.lean ====
/-
  The reference program is the straight line of its operations.

  The program is printed in three windows, and six of its statements call a function: the leaky rectifier (which
  itself calls the selection function) four times, the rectifier twice. A call runs the callee's operations over the
  call's own buffers, so each window is the sequence of the operations of two stretches (three for the middle window)
  laid end to end, and the program is the sequence of all six stretches.
-/
import proofs.«405005_j47493748359690_4_alg».proof.Proof.RefOps

noncomputable section

namespace Cert.ReferenceIdeal.Hand

open Idealize.ShloMosaic Idealize.ShloMosaic.TcCoe Idealize.SL.Sem Idealize.ShloMosaic.StableHlo Cert.ReferenceIdeal

variable {F : FTy → Type} [FloatOps F] [Facts]

open Facts₀ Facts

/-- The program's operations in order: the six stretches, grouped as the three windows are. -/
abbrev refOps : List (HloOp τ sig (Elt F)) :=
  (opsEnc1 ++ opsGate1) ++ (((opsUpd1 ++ opsEnc2) ++ opsMix2) ++ opsUpd2)

set_option maxRecDepth 16384 in
set_option maxHeartbeats 4000000 in
/-- The first window: the two calls' bodies opened, the sequencing reassociated. -/
theorem main_part0_eq (c : Dev nD) : main_part0 (F := F) c = seq (opsEnc1 ++ opsGate1) := by
  simp only [main_part0, fn_leaky_relu.body, fn_where.body, fn_relu.body, opsEnc1, opsGate1, List.cons_append, List.nil_append,
    seq, bind_assoc, pure_bind]
  rfl

set_option maxRecDepth 16384 in
set_option maxHeartbeats 4000000 in
/-- The middle window. -/
theorem main_part1_eq (c : Dev nD) : main_part1 (F := F) c = seq ((opsUpd1 ++ opsEnc2) ++ opsMix2) := by
  simp only [main_part1, fn_leaky_relu.body, fn_where.body, opsUpd1, opsEnc2, opsMix2, List.cons_append, List.nil_append,
    seq, bind_assoc, pure_bind]
  rfl

set_option maxRecDepth 16384 in
set_option maxHeartbeats 4000000 in
/-- The last window, which ends the program. -/
theorem main_part2_eq (c : Dev nD) : main_part2 (F := F) c = seq opsUpd2 := by
  simp only [main_part2, fn_relu.body, opsUpd2, seq, bind_assoc, pure_bind]

/-- The program is the sequence of all its operations: a sequence of two lists laid end to end is the first's then
    the second's. -/
theorem main_eq (c : Dev nD) : main (F := F) c = seq refOps := by
  rw [show (refOps : List (HloOp τ sig (Elt F))) = (opsEnc1 ++ opsGate1) ++ (((opsUpd1 ++ opsEnc2) ++ opsMix2) ++ opsUpd2) from rfl,
    seq_append (opsEnc1 ++ opsGate1), seq_append ((opsUpd1 ++ opsEnc2) ++ opsMix2) opsUpd2,
    ← main_part0_eq c, ← main_part1_eq c, ← main_part2_eq c]
  rfl

/-- The program scopes no buffer of the TensorCore. -/
theorem scopedRefs_eq : (Finset.univ.filter fun b : Ref sig .tc => b.isScoped) = ∅ := by decide
/-- The program scopes no semaphore. -/
theorem scopedSems_eq : (Finset.univ.filter fun sm : SemLoc sig => sm.isScoped .tc) = ∅ := by decide

end Cert.ReferenceIdeal.Hand

end
-- ==== Proof.RefRun.lean ====
/-
  The reference program's run: each of its two results is one edge type's convolution of the arguments.

  The program is the sequence of six stretches of operations. The first three compute the first edge type: the rows
  the edge table selects and their encodings, then the gate, then the summed messages and the node update; a buffer
  a later stretch does not write is still there at the end. The last three compute the second edge type the same way
  from the other edge table, with the two node tables' roles exchanged and its own update weights. No stretch writes
  an argument. So every weakly fair execution ends with the two result buffers at the two convolutions and the twenty
  arguments unchanged.
-/
import proofs.«405005_j47493748359690_4_alg».proof.Proof.RefEnc1
import proofs.«405005_j47493748359690_4_alg».proof.Proof.RefGate1
import proofs.«405005_j47493748359690_4_alg».proof.Proof.RefUpd1
import proofs.«405005_j47493748359690_4_alg».proof.Proof.RefEnc2
import proofs.«405005_j47493748359690_4_alg».proof.Proof.RefMix2
import proofs.«405005_j47493748359690_4_alg».proof.Proof.RefUpd2
import proofs.«405005_j47493748359690_4_alg».proof.Proof.RefMainEq
import proofs.«405005_j47493748359690_4_alg».proof.Proof.Gen.ReferenceIdeal

noncomputable section

namespace Cert.ReferenceIdeal.Hand

open Idealize.ShloMosaic Idealize.ShloMosaic.TcCoe Idealize.SL.Sem Idealize.ShloMosaic.StableHlo Cert.ReferenceIdeal

section Stretches

variable {F : FTy → Type} [FloatOps F] [Facts]

open Facts₀ Facts

/-- Two lists of operations laid end to end: the second runs from what the first leaves. -/
theorem after_then : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_then l₁ l₂]

/-- What holds of every operation of two lists holds of every operation of the two laid end to end. -/
theorem forall_mem_both {p : HloOp τ sig (Elt F) → Prop} {l₁ l₂ : List (HloOp τ sig (Elt F))}
    (h₁ : ∀ op ∈ l₁, p op) (h₂ : ∀ op ∈ l₂, p op) : ∀ op ∈ l₁ ++ l₂, p op :=
  fun op h => (List.mem_append.mp h).elim (h₁ op) (h₂ op)

/-- The six stretches run in order. -/
theorem after_refOps (V : Valuation τ sig (Elt F)) :
    after refOps V = after opsUpd2 (after opsMix2 (after opsEnc2 (after opsUpd1 (after opsGate1 (after opsEnc1 V))))) := by
  rw [show (refOps : List (HloOp τ sig (Elt F))) = (opsEnc1 ++ opsGate1) ++ (((opsUpd1 ++ opsEnc2) ++ opsMix2) ++ opsUpd2) from rfl,
    after_then, after_then, after_then, after_then, after_then]

/-- Every operation of the program touches buffers of the TensorCore only. -/
theorem refOps_sub : (refOps : List (HloOp τ sig (Elt F))).Forall fun op => op.bufs ⊆ tcRefs τ sig :=
  List.forall_iff_forall_mem.mpr
    (forall_mem_both
      (forall_mem_both (List.forall_iff_forall_mem.mp opsEnc1_sub) (List.forall_iff_forall_mem.mp opsGate1_sub))
      (forall_mem_both
        (forall_mem_both
          (forall_mem_both (List.forall_iff_forall_mem.mp opsUpd1_sub) (List.forall_iff_forall_mem.mp opsEnc2_sub))
          (List.forall_iff_forall_mem.mp opsMix2_sub))
        (List.forall_iff_forall_mem.mp opsUpd2_sub)))

/-- Every operation of the program determines what it writes. -/
theorem refOps_fresh : ∀ op ∈ (refOps : List (HloOp τ sig (Elt F))), op.fresh = ∅ :=
  forall_mem_both (forall_mem_both opsEnc1_fresh opsGate1_fresh)
    (forall_mem_both (forall_mem_both (forall_mem_both opsUpd1_fresh opsEnc2_fresh) opsMix2_fresh) opsUpd2_fresh)

/-- A buffer none of the first three stretches writes keeps its contents through them. -/
theorem keep_first (V : Valuation τ sig (Elt F)) (r : Ref sig .tc) (h : r ∉ wrEnc1 ∧ r ∉ wrGate1 ∧ r ∉ wrUpd1) :
    after opsUpd1 (after opsGate1 (after opsEnc1 V)) (Proc.devRef .tc r) = V (Proc.devRef .tc r) := by
  rw [upd1_keep _ r h.2.2, gate1_keep _ r h.2.1, enc1_keep _ r h.1]

/-- A buffer none of the last three stretches writes keeps its contents through them. -/
theorem keep_last (V : Valuation τ sig (Elt F)) (r : Ref sig .tc) (h : r ∉ wrEnc2 ∧ r ∉ wrMix2 ∧ r ∉ wrUpd2) :
    after opsUpd2 (after opsMix2 (after opsEnc2 V)) (Proc.devRef .tc r) = V (Proc.devRef .tc r) := by
  rw [upd2_keep _ r h.2.2, mix2_keep _ r h.2.1, enc2_keep _ r h.1]

/-- A buffer no stretch writes keeps its contents through the program. -/
theorem keep_all (V : Valuation τ sig (Elt F)) (r : Ref sig .tc)
    (h : (r ∉ wrEnc1 ∧ r ∉ wrGate1 ∧ r ∉ wrUpd1) ∧ r ∉ wrEnc2 ∧ r ∉ wrMix2 ∧ r ∉ wrUpd2) :
    after refOps V (Proc.devRef .tc r) = V (Proc.devRef .tc r) := by
  rw [after_refOps, keep_last _ r h.2, keep_first V r h.1]

set_option maxRecDepth 8192 in
set_option maxHeartbeats 2000000 in
/-- The first three stretches compute the first edge type: sources from the first node table, destinations from the
    second, the first edge table, the first pair of update weights. -/
theorem conv_first (V : Valuation τ sig (Elt F)) :
    after opsUpd1 (after opsGate1 (after opsEnc1 V)) (Proc.devRef .tc main_v69)
      = refConv (V (Proc.devRef .tc main_arg0)) (V (Proc.devRef .tc main_arg1)) (V (Proc.devRef .tc main_arg18))
          (V (Proc.devRef .tc main_arg2)) (V (Proc.devRef .tc main_arg3)) (V (Proc.devRef .tc main_arg4)) (V (Proc.devRef .tc main_arg5))
          (V (Proc.devRef .tc main_arg6)) (V (Proc.devRef .tc main_arg7)) (V (Proc.devRef .tc main_arg8)) (V (Proc.devRef .tc main_arg9))
          (V (Proc.devRef .tc main_arg10)) (V (Proc.devRef .tc main_arg11)) (V (Proc.devRef .tc main_arg12)) (V (Proc.devRef .tc main_arg13)) := by
  rw [upd1_out, gate1_gate,
    gate1_keep _ main_arg18 (by decide), gate1_keep _ main_v8 (by decide), gate1_keep _ main_arg1 (by decide),
    gate1_keep _ main_arg10 (by decide), gate1_keep _ main_arg11 (by decide), gate1_keep _ main_arg12 (by decide),
    gate1_keep _ main_arg13 (by decide),
    enc1_par, enc1_encPar, enc1_encCld, enc1_absDiff,
    enc1_keep _ main_arg18 (by decide), enc1_keep _ main_arg1 (by decide), enc1_keep _ main_arg10 (by decide),
    enc1_keep _ main_arg11 (by decide), enc1_keep _ main_arg12 (by decide), enc1_keep _ main_arg13 (by decide),
    enc1_keep _ main_arg6 (by decide), enc1_keep _ main_arg7 (by decide), enc1_keep _ main_arg8 (by decide),
    enc1_keep _ main_arg9 (by decide)]
  rfl

set_option maxRecDepth 8192 in
set_option maxHeartbeats 2000000 in
/-- The last three stretches compute the second edge type: sources from the second node table, destinations from the
    first, the second edge table, the second pair of update weights. -/
theorem conv_last (V : Valuation τ sig (Elt F)) :
    after opsUpd2 (after opsMix2 (after opsEnc2 V)) (Proc.devRef .tc main_v139)
      = refConv (V (Proc.devRef .tc main_arg1)) (V (Proc.devRef .tc main_arg0)) (V (Proc.devRef .tc main_arg19))
          (V (Proc.devRef .tc main_arg2)) (V (Proc.devRef .tc main_arg3)) (V (Proc.devRef .tc main_arg4)) (V (Proc.devRef .tc main_arg5))
          (V (Proc.devRef .tc main_arg6)) (V (Proc.devRef .tc main_arg7)) (V (Proc.devRef .tc main_arg8)) (V (Proc.devRef .tc main_arg9))
          (V (Proc.devRef .tc main_arg14)) (V (Proc.devRef .tc main_arg15)) (V (Proc.devRef .tc main_arg16)) (V (Proc.devRef .tc main_arg17)) := by
  rw [upd2_out, mix2_out,
    mix2_keep _ main_arg19 (by decide), mix2_keep _ main_v78 (by decide), mix2_keep _ main_arg7 (by decide),
    mix2_keep _ main_arg8 (by decide), mix2_keep _ main_arg9 (by decide), mix2_keep _ main_arg0 (by decide),
    mix2_keep _ main_arg14 (by decide), mix2_keep _ main_arg15 (by decide), mix2_keep _ main_arg16 (by decide),
    mix2_keep _ main_arg17 (by decide),
    enc2_par, enc2_encPar, enc2_encCld, enc2_absDiff,
    enc2_keep _ main_arg19 (by decide), enc2_keep _ main_arg7 (by decide), enc2_keep _ main_arg8 (by decide),
    enc2_keep _ main_arg9 (by decide), enc2_keep _ main_arg0 (by decide), enc2_keep _ main_arg14 (by decide),
    enc2_keep _ main_arg15 (by decide), enc2_keep _ main_arg16 (by decide), enc2_keep _ main_arg17 (by decide),
    enc2_keep _ main_arg6 (by decide)]
  rfl

/-- The first result after the whole program: the last three stretches leave it alone. -/
theorem out_first (V : Valuation τ sig (Elt F)) :
    after refOps V (Proc.devRef .tc main_v69)
      = refConv (V (Proc.devRef .tc main_arg0)) (V (Proc.devRef .tc main_arg1)) (V (Proc.devRef .tc main_arg18))
          (V (Proc.devRef .tc main_arg2)) (V (Proc.devRef .tc main_arg3)) (V (Proc.devRef .tc main_arg4)) (V (Proc.devRef .tc main_arg5))
          (V (Proc.devRef .tc main_arg6)) (V (Proc.devRef .tc main_arg7)) (V (Proc.devRef .tc main_arg8)) (V (Proc.devRef .tc main_arg9))
          (V (Proc.devRef .tc main_arg10)) (V (Proc.devRef .tc main_arg11)) (V (Proc.devRef .tc main_arg12)) (V (Proc.devRef .tc main_arg13)) := by
  rw [after_refOps, keep_last _ main_v69 (by decide)]
  exact conv_first V

/-- The second result after the whole program: the arguments it reads are as the first three stretches found them. -/
theorem out_last (V : Valuation τ sig (Elt F)) :
    after refOps V (Proc.devRef .tc main_v139)
      = refConv (V (Proc.devRef .tc main_arg1)) (V (Proc.devRef .tc main_arg0)) (V (Proc.devRef .tc main_arg19))
          (V (Proc.devRef .tc main_arg2)) (V (Proc.devRef .tc main_arg3)) (V (Proc.devRef .tc main_arg4)) (V (Proc.devRef .tc main_arg5))
          (V (Proc.devRef .tc main_arg6)) (V (Proc.devRef .tc main_arg7)) (V (Proc.devRef .tc main_arg8)) (V (Proc.devRef .tc main_arg9))
          (V (Proc.devRef .tc main_arg14)) (V (Proc.devRef .tc main_arg15)) (V (Proc.devRef .tc main_arg16)) (V (Proc.devRef .tc main_arg17)) := by
  rw [after_refOps, conv_last,
    keep_first V main_arg0 (by decide), keep_first V main_arg1 (by decide), keep_first V main_arg19 (by decide),
    keep_first V main_arg2 (by decide), keep_first V main_arg3 (by decide), keep_first V main_arg4 (by decide),
    keep_first V main_arg5 (by decide), keep_first V main_arg6 (by decide), keep_first V main_arg7 (by decide),
    keep_first V main_arg8 (by decide), keep_first V main_arg9 (by decide), keep_first V main_arg14 (by decide),
    keep_first V main_arg15 (by decide), keep_first V main_arg16 (by decide), keep_first V main_arg17 (by decide)]

end Stretches

set_option maxRecDepth 8192 in
set_option maxHeartbeats 2000000 in
/-- On every device, for any float values, from any memory with zero counters: every weakly fair execution of the
    reference program terminates with its two results at the two edge types' convolutions of the arguments, and the
    arguments unchanged. -/
theorem ref_run {F : FTy → Type} [FloatOps F] (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v139)
        = refConv (m ((c.tc : Thread nD τ).loc main_arg1)) (m ((c.tc : Thread nD τ).loc main_arg0))
            (m ((c.tc : Thread nD τ).loc main_arg19)) (m ((c.tc : Thread nD τ).loc main_arg2))
            (m ((c.tc : Thread nD τ).loc main_arg3)) (m ((c.tc : Thread nD τ).loc main_arg4))
            (m ((c.tc : Thread nD τ).loc main_arg5)) (m ((c.tc : Thread nD τ).loc main_arg6))
            (m ((c.tc : Thread nD τ).loc main_arg7)) (m ((c.tc : Thread nD τ).loc main_arg8))
            (m ((c.tc : Thread nD τ).loc main_arg9)) (m ((c.tc : Thread nD τ).loc main_arg14))
            (m ((c.tc : Thread nD τ).loc main_arg15)) (m ((c.tc : Thread nD τ).loc main_arg16))
            (m ((c.tc : Thread nD τ).loc main_arg17))
      ∧ r.2.mem ((c.tc : Thread nD τ).loc main_v69)
        = refConv (m ((c.tc : Thread nD τ).loc main_arg0)) (m ((c.tc : Thread nD τ).loc main_arg1))
            (m ((c.tc : Thread nD τ).loc main_arg18)) (m ((c.tc : Thread nD τ).loc main_arg2))
            (m ((c.tc : Thread nD τ).loc main_arg3)) (m ((c.tc : Thread nD τ).loc main_arg4))
            (m ((c.tc : Thread nD τ).loc main_arg5)) (m ((c.tc : Thread nD τ).loc main_arg6))
            (m ((c.tc : Thread nD τ).loc main_arg7)) (m ((c.tc : Thread nD τ).loc main_arg8))
            (m ((c.tc : Thread nD τ).loc main_arg9)) (m ((c.tc : Thread nD τ).loc main_arg10))
            (m ((c.tc : Thread nD τ).loc main_arg11)) (m ((c.tc : Thread nD τ).loc main_arg12))
            (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun _ h c =>
    ⟨(h c main_v139).trans (out_last (launchContents m c)),
      (h c main_v69).trans (out_first (launchContents m c)),
      (h c main_arg0).trans (keep_all (launchContents m c) main_arg0 (by decide)),
      (h c main_arg1).trans (keep_all (launchContents m c) main_arg1 (by decide)),
      (h c main_arg2).trans (keep_all (launchContents m c) main_arg2 (by decide)),
      (h c main_arg3).trans (keep_all (launchContents m c) main_arg3 (by decide)),
      (h c main_arg4).trans (keep_all (launchContents m c) main_arg4 (by decide)),
      (h c main_arg5).trans (keep_all (launchContents m c) main_arg5 (by decide)),
      (h c main_arg6).trans (keep_all (launchContents m c) main_arg6 (by decide)),
      (h c main_arg7).trans (keep_all (launchContents m c) main_arg7 (by decide)),
      (h c main_arg8).trans (keep_all (launchContents m c) main_arg8 (by decide)),
      (h c main_arg9).trans (keep_all (launchContents m c) main_arg9 (by decide)),
      (h c main_arg10).trans (keep_all (launchContents m c) main_arg10 (by decide)),
      (h c main_arg11).trans (keep_all (launchContents m c) main_arg11 (by decide)),
      (h c main_arg12).trans (keep_all (launchContents m c) main_arg12 (by decide)),
      (h c main_arg13).trans (keep_all (launchContents m c) main_arg13 (by decide)),
      (h c main_arg14).trans (keep_all (launchContents m c) main_arg14 (by decide)),
      (h c main_arg15).trans (keep_all (launchContents m c) main_arg15 (by decide)),
      (h c main_arg16).trans (keep_all (launchContents m c) main_arg16 (by decide)),
      (h c main_arg17).trans (keep_all (launchContents m c) main_arg17 (by decide)),
      (h c main_arg18).trans (keep_all (launchContents m c) main_arg18 (by decide)),
      (h c main_arg19).trans (keep_all (launchContents m c) main_arg19 (by decide))⟩)
    (run_seq scopedRefs_eq scopedSems_eq defs main (fun _ => refOps) main_eq (fun _ => refOps_sub) m ρ (fun _ => refOps_fresh))

end Cert.ReferenceIdeal.Hand

end
-- ==== Proof.lean ====
/-
  The certificate: a two-edge-type graph layer — per edge a gated message, summed into the destination nodes, then a
  linear node update — computed by four pipelined kernels around host operations, against its plain reference.

  At the ideal instance both programs compute, for each edge type, ONE function of the arguments: the endpoint rows
  are selected by the same host operations; the edge network is the same arithmetic entry by entry (a block of 5000
  edges at a time against all 500000 at once: the matrix products are the same finite sums, the lane sum with the row
  `w2` is the product with `W2ᵀ`, the logistic function is `1 / (1 + e^(-z))`, narrowing and widening are the
  identity); the sums into the destination nodes are the same host operation on equal arrays; and the node update is
  the same arithmetic (a block of 5000 nodes at a time against all 50000). No law of the extended reals beyond the
  definitions is used, so the precondition is never opened. The three frames are the programs' runs with their results
  dropped; the kernel's idealization rewrote nothing.
-/
import proofs.«405005_j47493748359690_4_alg».proof.Defs
import proofs.«405005_j47493748359690_4_alg».proof.Proof.Gen.Kernel
import proofs.«405005_j47493748359690_4_alg».proof.Proof.Gen.KernelIdeal
import proofs.«405005_j47493748359690_4_alg».proof.Proof.Gen.ReferenceIdeal
import proofs.«405005_j47493748359690_4_alg».proof.Proof.Gen.Pre_finite_inputs
import proofs.«405005_j47493748359690_4_alg».proof.Proof.KernelFrame
import proofs.«405005_j47493748359690_4_alg».proof.Proof.KernelIdealFrame
import proofs.«405005_j47493748359690_4_alg».proof.Proof.KValue
import proofs.«405005_j47493748359690_4_alg».proof.Proof.RefRun
import Idealize.ShloMosaic.Adequacy
import Idealize.ShloMosaic.Init

noncomputable section

namespace Cert.Proof

open Idealize.ShloMosaic Idealize.SL.Sem

/-- The word-level kernel program runs and keeps its arguments. -/
theorem frame_k : Cert.frame_Kernel := fun m ρ _ => Cert.Kernel.GenP.frame m ρ

/-- The idealized kernel program runs and keeps its arguments. -/
theorem frame_ki : Cert.frame_KernelIdeal := fun m ρ _ => Cert.KernelIdeal.GenP.frame m ρ

/-- The reference runs and keeps its arguments: its run with the two results dropped. -/
theorem frame_ri : Cert.frame_ReferenceIdeal := fun m ρ _ =>
  (θ_run (Cert.ReferenceIdeal.defs (F := Ideal)) _ _).mono (fun _ h c => (h c).2.2)
    (Cert.ReferenceIdeal.Hand.ref_run (F := Ideal) m ρ)

/-- From memories agreeing on the arguments both programs end with the same two results: each is the reference's
    one-edge-type function of its own arguments, and the arguments agree. -/
theorem algebraic : Cert.algebraic_KernelIdeal_ReferenceIdeal := by
  intro m ρ m' ρ' _ hagree
  refine ⟨_, _, Cert.KernelIdeal.Hand.kernel_run m ρ, ?_⟩
  refine (θ_run (Cert.ReferenceIdeal.defs (F := Ideal)) _ _).mono (fun r h c => ?_)
    (Cert.ReferenceIdeal.Hand.ref_run (F := Ideal) m' ρ')
  obtain ⟨a0, a1, a2, a3, a4, a5, a6, a7, a8, a9, a10, a11, a12, a13, a14, a15, a16, a17, a18, a19⟩ := hagree c
  obtain ⟨h139, h69, hkept⟩ := h c
  refine ⟨h139.trans ?_, h69.trans ?_, hkept⟩
  · rw [a1, a0, a19, a2, a3, a4, a5, a6, a7, a8, a9, a14, a15, a16, a17]
  · rw [a0, a1, a18, a2, a3, a4, a5, a6, a7, a8, a9, a10, a11, a12, a13]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
